-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S16x224x224 .f32
  ∧ IdealRules.sign_bit.Statement Cert.KernelIdeal.S16x112x112 .f32
  ∧ IdealRules.sign_bit.Statement Cert.KernelIdeal.S16x56x56 .f32
  ∧ IdealRules.sign_bit.Statement Cert.KernelIdeal.S16x32x32 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x224x224 : Shape := ⟨4, ![32, 64, 224, 224]⟩
abbrev S_ : Shape := ⟨0, ![]⟩

class Facts : Prop where
  bcast_S_S32x64x224x224 : S_.BroadcastsInDim S32x64x224x224 (![] : Fin 0 → Fin S32x64x224x224.rank)
  reducesTo_S32x64x224x224_S_d0_1_2_3 : S32x64x224x224.ReducesTo [0, 1, 2, 3] S_
  h_S_ : 0 < S_.numel

variable [Facts]

def fn {F : FTy → Type} [FloatOps F] (main_arg0 : FVec F S32x64x224x224 .f32) : IVec S_ 1 :=
  let main_v0 : FVec F S32x64x224x224 .f32 := Host.absf main_arg0
  let main_cst : FVec F S_ .f32 := constant S_ .f32 0x7F800000#32
  let main_v1 : FVec F S32x64x224x224 .f32 := broadcastInDim S32x64x224x224 ![] bcast_S_S32x64x224x224 main_cst
  let main_v2 : IVec S32x64x224x224 1 := cmpf .olt main_v0 main_v1
  let main_c : IVec S_ 1 := constantI S_ 1 1#1
  let main_v3 : IVec S_ 1 := (fun x v => Host.reduce IntOp.andi x v reducesTo_S32x64x224x224_S_d0_1_2_3 h_S_) main_v2 main_c
  main_v3
-- ==== Kernel.lean ====
abbrev S32x64x224x224 : Shape := ⟨4, ![32, 64, 224, 224]⟩
abbrev S1x16x224x224 : Shape := ⟨4, ![1, 16, 224, 224]⟩
abbrev S16x224x224 : Shape := ⟨3, ![16, 224, 224]⟩
abbrev S16x112x2x224 : Shape := ⟨4, ![16, 112, 2, 224]⟩
abbrev S16x112x224 : Shape := ⟨3, ![16, 112, 224]⟩
abbrev S16x224x112 : Shape := ⟨3, ![16, 224, 112]⟩
abbrev S16x112x2x112 : Shape := ⟨4, ![16, 112, 2, 112]⟩
abbrev S16x112x112 : Shape := ⟨3, ![16, 112, 112]⟩
abbrev S16x112x1x112 : Shape := ⟨4, ![16, 112, 1, 112]⟩
abbrev S16x112x1x224 : Shape := ⟨4, ![16, 112, 1, 224]⟩
abbrev S16x56x4x224 : Shape := ⟨4, ![16, 56, 4, 224]⟩
abbrev S16x56x224 : Shape := ⟨3, ![16, 56, 224]⟩
abbrev S16x224x56 : Shape := ⟨3, ![16, 224, 56]⟩
abbrev S16x56x4x56 : Shape := ⟨4, ![16, 56, 4, 56]⟩
abbrev S16x56x56 : Shape := ⟨3, ![16, 56, 56]⟩
abbrev S16x56x1x56 : Shape := ⟨4, ![16, 56, 1, 56]⟩
abbrev S16x56x1x224 : Shape := ⟨4, ![16, 56, 1, 224]⟩
abbrev S16x32x7x224 : Shape := ⟨4, ![16, 32, 7, 224]⟩
abbrev S16x32x224 : Shape := ⟨3, ![16, 32, 224]⟩
abbrev S16x224x32 : Shape := ⟨3, ![16, 224, 32]⟩
abbrev S16x32x7x32 : Shape := ⟨4, ![16, 32, 7, 32]⟩
abbrev S16x32x32 : Shape := ⟨3, ![16, 32, 32]⟩
abbrev S16x32x1x32 : Shape := ⟨4, ![16, 32, 1, 32]⟩
abbrev S16x32x1x224 : Shape := ⟨4, ![16, 32, 1, 224]⟩

abbrev nBuf : Space → Nat
  | .hbm => 2
  | .vmem => 4
  | .smem => 0
  | _ => 0

abbrev bufTy : (tb : Table) → Fin (tcTables nBuf tb) → BufTy
  | .hbm, ⟨0, _⟩ => ⟨S32x64x224x224, .f32⟩
  | .hbm, ⟨1, _⟩ => ⟨S32x64x224x224, .f32⟩
  | .local _ .vmem, ⟨0, _⟩ => ⟨S1x16x224x224, .f32⟩
  | .local _ .vmem, ⟨1, _⟩ => ⟨S1x16x224x224, .f32⟩
  | .local _ .vmem, ⟨2, _⟩ => ⟨S1x16x224x224, .f32⟩
  | .local _ .vmem, ⟨3, _⟩ => ⟨S1x16x224x224, .f32⟩
  | _, _ => ⟨S32x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![4, 32], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_3 : BitVec 32 := 0#32
  let v4 : BitVec 1 := Scalar.cmpi .ne v3 c0_i32_3
  v4

def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_4 : BitVec 32 := 0#32
  let v7 : BitVec 1 := Scalar.cmpi .ne v6 c0_i32_4
  v7

def k0_cond3 (i : grid0.Coords) : BitVec 1 :=
  let arg0 : BitVec 32 := BitVec.ofNat 32 (i 0).val
  let c2_i32 : BitVec 32 := 2#32
  let v8 : BitVec 1 := Scalar.cmpi .eq arg0 c2_i32
  let v9 : BitVec 32 := Scalar.extui v8
  let c0_i32_5 : BitVec 32 := 0#32
  let v10 : BitVec 1 := Scalar.cmpi .ne v9 c0_i32_5
  v10

def k0_cond4 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_6 : BitVec 32 := 0#32
  let v13 : BitVec 1 := Scalar.cmpi .ne v12 c0_i32_6
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x16x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x224x224_S1x16x224x224_0_0_0_0 : ∀ a, (![0, 0, 0, 0] : Fin 4 → Nat) a + S1x16x224x224.size a ≤ S1x16x224x224.size a
  h_S1x16x224x224 : 0 < S1x16x224x224.numel
  shapeCasts_S1x16x224x224_S16x224x224 : S1x16x224x224.ShapeCasts S16x224x224
  shapeCasts_S16x224x224_S1x16x224x224 : S16x224x224.ShapeCasts S1x16x224x224
  shapeCasts_S16x224x224_S16x112x2x224 : S16x224x224.ShapeCasts S16x112x2x224
  reduces_S16x112x2x224_S16x112x224 : S16x112x2x224.Reduces [2] S16x112x224
  transposes_S16x112x224_p0_2_1_S16x224x112 : S16x112x224.Transposes [0, 2, 1] S16x224x112
  shapeCasts_S16x224x112_S16x112x2x112 : S16x224x112.ShapeCasts S16x112x2x112
  reduces_S16x112x2x112_S16x112x112 : S16x112x2x112.Reduces [2] S16x112x112
  shapeCasts_S16x112x112_S16x112x1x112 : S16x112x112.ShapeCasts S16x112x1x112
  shapeCasts_S16x112x1x112_S16x112x1x112 : S16x112x1x112.ShapeCasts S16x112x1x112
  broadcasts_S16x112x1x112_S16x112x2x112 : S16x112x1x112.Broadcasts S16x112x2x112
  shapeCasts_S16x112x2x112_S16x224x112 : S16x112x2x112.ShapeCasts S16x224x112
  transposes_S16x224x112_p0_2_1_S16x112x224 : S16x224x112.Transposes [0, 2, 1] S16x112x224
  shapeCasts_S16x112x224_S16x112x1x224 : S16x112x224.ShapeCasts S16x112x1x224
  shapeCasts_S16x112x1x224_S16x112x1x224 : S16x112x1x224.ShapeCasts S16x112x1x224
  broadcasts_S16x112x1x224_S16x112x2x224 : S16x112x1x224.Broadcasts S16x112x2x224
  shapeCasts_S16x112x2x224_S16x224x224 : S16x112x2x224.ShapeCasts S16x224x224
  shapeCasts_S16x224x224_S16x56x4x224 : S16x224x224.ShapeCasts S16x56x4x224
  reduces_S16x56x4x224_S16x56x224 : S16x56x4x224.Reduces [2] S16x56x224
  transposes_S16x56x224_p0_2_1_S16x224x56 : S16x56x224.Transposes [0, 2, 1] S16x224x56
  shapeCasts_S16x224x56_S16x56x4x56 : S16x224x56.ShapeCasts S16x56x4x56
  reduces_S16x56x4x56_S16x56x56 : S16x56x4x56.Reduces [2] S16x56x56
  shapeCasts_S16x56x56_S16x56x1x56 : S16x56x56.ShapeCasts S16x56x1x56
  shapeCasts_S16x56x1x56_S16x56x1x56 : S16x56x1x56.ShapeCasts S16x56x1x56
  broadcasts_S16x56x1x56_S16x56x4x56 : S16x56x1x56.Broadcasts S16x56x4x56
  shapeCasts_S16x56x4x56_S16x224x56 : S16x56x4x56.ShapeCasts S16x224x56
  transposes_S16x224x56_p0_2_1_S16x56x224 : S16x224x56.Transposes [0, 2, 1] S16x56x224
  shapeCasts_S16x56x224_S16x56x1x224 : S16x56x224.ShapeCasts S16x56x1x224
  shapeCasts_S16x56x1x224_S16x56x1x224 : S16x56x1x224.ShapeCasts S16x56x1x224
  broadcasts_S16x56x1x224_S16x56x4x224 : S16x56x1x224.Broadcasts S16x56x4x224
  shapeCasts_S16x56x4x224_S16x224x224 : S16x56x4x224.ShapeCasts S16x224x224
  shapeCasts_S16x224x224_S16x32x7x224 : S16x224x224.ShapeCasts S16x32x7x224
  reduces_S16x32x7x224_S16x32x224 : S16x32x7x224.Reduces [2] S16x32x224
  transposes_S16x32x224_p0_2_1_S16x224x32 : S16x32x224.Transposes [0, 2, 1] S16x224x32
  shapeCasts_S16x224x32_S16x32x7x32 : S16x224x32.ShapeCasts S16x32x7x32
  reduces_S16x32x7x32_S16x32x32 : S16x32x7x32.Reduces [2] S16x32x32
  shapeCasts_S16x32x32_S16x32x1x32 : S16x32x32.ShapeCasts S16x32x1x32
  shapeCasts_S16x32x1x32_S16x32x1x32 : S16x32x1x32.ShapeCasts S16x32x1x32
  broadcasts_S16x32x1x32_S16x32x7x32 : S16x32x1x32.Broadcasts S16x32x7x32
  shapeCasts_S16x32x7x32_S16x224x32 : S16x32x7x32.ShapeCasts S16x224x32
  transposes_S16x224x32_p0_2_1_S16x32x224 : S16x224x32.Transposes [0, 2, 1] S16x32x224
  shapeCasts_S16x32x224_S16x32x1x224 : S16x32x224.ShapeCasts S16x32x1x224
  shapeCasts_S16x32x1x224_S16x32x1x224 : S16x32x1x224.ShapeCasts S16x32x1x224
  broadcasts_S16x32x1x224_S16x32x7x224 : S16x32x1x224.Broadcasts S16x32x7x224
  shapeCasts_S16x32x7x224_S16x224x224 : S16x32x7x224.ShapeCasts S16x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x224x224.size a ≤ S32x64x224x224.size a
  hwx0_0 : ∀ i : grid0.Coords, EltTy.bits .f32 = 32 ∨ (Rect.block (s := S32x64x224x224) S1x16x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x224x224.size a ≤ S32x64x224x224.size a
  hwx0_1 : ∀ i : grid0.Coords, EltTy.bits .f32 = 32 ∨ (Rect.block (s := S32x64x224x224) S1x16x224x224.size (cc0_transform_1 i) (hinb0_1 i)).WholeWords (EltTy.packing .f32)

variable [Facts₀]

abbrev win0_0 : Pipeline.Window sig grid0 :=
  Pipeline.Window.ofSpec (Memref.whole main_arg0) S1x16x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x224x224.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) && !(k0_cond4 i == 1#1) | ⟨_ + 2, h⟩ => absurd h (Nat.not_lt.2 (Nat.le_add_left _ _))

class Facts : Prop extends Facts₀ where

variable [Facts]
-- ==== ReferenceIdeal.lean ====
abbrev S32x64x224x224 : Shape := ⟨4, ![32, 64, 224, 224]⟩
abbrev S16 : Shape := ⟨1, ![16]⟩
abbrev S_ : Shape := ⟨0, ![]⟩
abbrev S16x1 : Shape := ⟨2, ![16, 1]⟩
abbrev S32x16x224x224 : Shape := ⟨4, ![32, 16, 224, 224]⟩
abbrev S32x16x112x2x112x2 : Shape := ⟨6, ![32, 16, 112, 2, 112, 2]⟩
abbrev S32x16x112x112 : Shape := ⟨4, ![32, 16, 112, 112]⟩
abbrev S32x16x112x2x112 : Shape := ⟨5, ![32, 16, 112, 2, 112]⟩
abbrev S32x16x224x112 : Shape := ⟨4, ![32, 16, 224, 112]⟩
abbrev S32x16x224x112x2 : Shape := ⟨5, ![32, 16, 224, 112, 2]⟩
abbrev S32x16x56x4x56x4 : Shape := ⟨6, ![32, 16, 56, 4, 56, 4]⟩
abbrev S32x16x56x56 : Shape := ⟨4, ![32, 16, 56, 56]⟩
abbrev S32x16x56x4x56 : Shape := ⟨5, ![32, 16, 56, 4, 56]⟩
abbrev S32x16x224x56 : Shape := ⟨4, ![32, 16, 224, 56]⟩
abbrev S32x16x224x56x4 : Shape := ⟨5, ![32, 16, 224, 56, 4]⟩
abbrev S32x16x32x7x32x7 : Shape := ⟨6, ![32, 16, 32, 7, 32, 7]⟩
abbrev S32x16x32x32 : Shape := ⟨4, ![32, 16, 32, 32]⟩
abbrev S32x16x32x7x32 : Shape := ⟨5, ![32, 16, 32, 7, 32]⟩
abbrev S32x16x224x32 : Shape := ⟨4, ![32, 16, 224, 32]⟩
abbrev S32x16x224x32x7 : Shape := ⟨5, ![32, 16, 224, 32, 7]⟩

abbrev nBuf : Space → Nat
  | .hbm => 122
  | .vmem => 0
  | .smem => 0
  | _ => 0

abbrev bufTy : (tb : Table) → Fin (tcTables nBuf tb) → BufTy
  | .hbm, ⟨0, _⟩ => ⟨S32x64x224x224, .f32⟩
  | .hbm, ⟨1, _⟩ => ⟨S16, .i32⟩
  | .hbm, ⟨2, _⟩ => ⟨S16, .i1⟩
  | .hbm, ⟨3, _⟩ => ⟨S16, .i1⟩
  | .hbm, ⟨4, _⟩ => ⟨S16, .i32⟩
  | .hbm, ⟨5, _⟩ => ⟨S16, .i1⟩
  | .hbm, ⟨6, _⟩ => ⟨S16, .i1⟩
  | .hbm, ⟨7, _⟩ => ⟨S16, .i32⟩
  | .hbm, ⟨8, _⟩ => ⟨S16, .i1⟩
  | .hbm, ⟨9, _⟩ => ⟨S16, .i1⟩
  | .hbm, ⟨10, _⟩ => ⟨S16, .i32⟩
  | .hbm, ⟨11, _⟩ => ⟨S16, .i1⟩
  | .hbm, ⟨12, _⟩ => ⟨S16, .i1⟩
  | .hbm, ⟨13, _⟩ => ⟨S_, .f32⟩
  | .hbm, ⟨14, _⟩ => ⟨S32x64x224x224, .f32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S32x16x224x224, .f32⟩
  | .hbm, ⟨21, _⟩ => ⟨S32x16x224x224, .f32⟩
  | .hbm, ⟨22, _⟩ => ⟨S_, .f32⟩
  | .hbm, ⟨23, _⟩ => ⟨S32x16x224x224, .f32⟩
  | .hbm, ⟨24, _⟩ => ⟨S32x16x224x224, .f32⟩
  | .hbm, ⟨25, _⟩ => ⟨S_, .f32⟩
  | .hbm, ⟨26, _⟩ => ⟨S32x16x224x224, .f32⟩
  | .hbm, ⟨27, _⟩ => ⟨S32x16x224x224, .f32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S32x64x224x224, .f32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S16x1, .i32⟩
  | .hbm, ⟨39, _⟩ => ⟨S32x16x224x224, .f32⟩
  | .hbm, ⟨40, _⟩ => ⟨S32x16x112x2x112x2, .f32⟩
  | .hbm, ⟨41, _⟩ => ⟨S_, .f32⟩
  | .hbm, ⟨42, _⟩ => ⟨S32x16x112x112, .f32⟩
  | .hbm, ⟨43, _⟩ => ⟨S_, .f32⟩
  | .hbm, ⟨44, _⟩ => ⟨S32x16x112x112, .f32⟩
  | .hbm, ⟨45, _⟩ => ⟨S32x16x112x112, .f32⟩
  | .hbm, ⟨46, _⟩ => ⟨S32x16x112x112, .f32⟩
  | .hbm, ⟨47, _⟩ => ⟨S_, .f32⟩
  | .hbm, ⟨48, _⟩ => ⟨S32x16x112x112, .f32⟩
  | .hbm, ⟨49, _⟩ => ⟨S32x16x112x112, .f32⟩
  | .hbm, ⟨50, _⟩ => ⟨S_, .f32⟩
  | .hbm, ⟨51, _⟩ => ⟨S32x16x112x112, .f32⟩
  | .hbm, ⟨52, _⟩ => ⟨S32x16x112x112, .f32⟩
  | .hbm, ⟨53, _⟩ => ⟨S32x16x112x2x112, .f32⟩
  | .hbm, ⟨54, _⟩ => ⟨S32x16x224x112, .f32⟩
  | .hbm, ⟨55, _⟩ => ⟨S32x16x224x112x2, .f32⟩
  | .hbm, ⟨56, _⟩ => ⟨S32x16x224x224, .f32⟩
  | .hbm, ⟨57, _⟩ => ⟨S_, .i32⟩
  | .hbm, ⟨58, _⟩ => ⟨S16, .i32⟩
  | .hbm, ⟨59, _⟩ => ⟨S16, .i32⟩
  | .hbm, ⟨60, _⟩ => ⟨S16, .i32⟩
  | .hbm, ⟨61, _⟩ => ⟨S16x1, .i32⟩
  | .hbm, ⟨62, _⟩ => ⟨S32x64x224x224, .f32⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S16, .i32⟩
  | .hbm, ⟨67, _⟩ => ⟨S16x1, .i32⟩
  | .hbm, ⟨68, _⟩ => ⟨S32x16x224x224, .f32⟩
  | .hbm, ⟨69, _⟩ => ⟨S32x16x56x4x56x4, .f32⟩
  | .hbm, ⟨70, _⟩ => ⟨S_, .f32⟩
  | .hbm, ⟨71, _⟩ => ⟨S32x16x56x56, .f32⟩
  | .hbm, ⟨72, _⟩ => ⟨S_, .f32⟩
  | .hbm, ⟨73, _⟩ => ⟨S32x16x56x56, .f32⟩
  | .hbm, ⟨74, _⟩ => ⟨S32x16x56x56, .f32⟩
  | .hbm, ⟨75, _⟩ => ⟨S32x16x56x56, .f32⟩
  | .hbm, ⟨76, _⟩ => ⟨S_, .f32⟩
  | .hbm, ⟨77, _⟩ => ⟨S32x16x56x56, .f32⟩
  | .hbm, ⟨78, _⟩ => ⟨S32x16x56x56, .f32⟩
  | .hbm, ⟨79, _⟩ => ⟨S_, .f32⟩
  | .hbm, ⟨80, _⟩ => ⟨S32x16x56x56, .f32⟩
  | .hbm, ⟨81, _⟩ => ⟨S32x16x56x56, .f32⟩
  | .hbm, ⟨82, _⟩ => ⟨S32x16x56x4x56, .f32⟩
  | .hbm, ⟨83, _⟩ => ⟨S32x16x224x56, .f32⟩
  | .hbm, ⟨84, _⟩ => ⟨S32x16x224x56x4, .f32⟩
  | .hbm, ⟨85, _⟩ => ⟨S32x16x224x224, .f32⟩
  | .hbm, ⟨86, _⟩ => ⟨S_, .i32⟩
  | .hbm, ⟨87, _⟩ => ⟨S16, .i32⟩
  | .hbm, ⟨88, _⟩ => ⟨S16, .i32⟩
  | .hbm, ⟨89, _⟩ => ⟨S16, .i32⟩
  | .hbm, ⟨90, _⟩ => ⟨S16x1, .i32⟩
  | .hbm, ⟨91, _⟩ => ⟨S32x64x224x224, .f32⟩
  | .hbm, ⟨92, _⟩ => ⟨S_, .i32⟩
  | .hbm, ⟨93, _⟩ => ⟨S16, .i32⟩
  | .hbm, ⟨94, _⟩ => ⟨S16, .i32⟩
  | .hbm, ⟨95, _⟩ => ⟨S16, .i32⟩
  | .hbm, ⟨96, _⟩ => ⟨S16x1, .i32⟩
  | .hbm, ⟨97, _⟩ => ⟨S32x16x224x224, .f32⟩
  | .hbm, ⟨98, _⟩ => ⟨S32x16x32x7x32x7, .f32⟩
  | .hbm, ⟨99, _⟩ => ⟨S_, .f32⟩
  | .hbm, ⟨100, _⟩ => ⟨S32x16x32x32, .f32⟩
  | .hbm, ⟨101, _⟩ => ⟨S_, .f32⟩
  | .hbm, ⟨102, _⟩ => ⟨S32x16x32x32, .f32⟩
  | .hbm, ⟨103, _⟩ => ⟨S32x16x32x32, .f32⟩
  | .hbm, ⟨104, _⟩ => ⟨S32x16x32x32, .f32⟩
  | .hbm, ⟨105, _⟩ => ⟨S_, .f32⟩
  | .hbm, ⟨106, _⟩ => ⟨S32x16x32x32, .f32⟩
  | .hbm, ⟨107, _⟩ => ⟨S32x16x32x32, .f32⟩
  | .hbm, ⟨108, _⟩ => ⟨S_, .f32⟩
  | .hbm, ⟨109, _⟩ => ⟨S32x16x32x32, .f32⟩
  | .hbm, ⟨110, _⟩ => ⟨S32x16x32x32, .f32⟩
  | .hbm, ⟨111, _⟩ => ⟨S32x16x32x7x32, .f32⟩
  | .hbm, ⟨112, _⟩ => ⟨S32x16x224x32, .f32⟩
  | .hbm, ⟨113, _⟩ => ⟨S32x16x224x32x7, .f32⟩
  | .hbm, ⟨114, _⟩ => ⟨S32x16x224x224, .f32⟩
  | .hbm, ⟨115, _⟩ => ⟨S_, .i32⟩
  | .hbm, ⟨116, _⟩ => ⟨S16, .i32⟩
  | .hbm, ⟨117, _⟩ => ⟨S16, .i32⟩
  | .hbm, ⟨118, _⟩ => ⟨S16, .i32⟩
  | .hbm, ⟨119, _⟩ => ⟨S16x1, .i32⟩
  | .hbm, ⟨120, _⟩ => ⟨S32x64x224x224, .f32⟩
  | .hbm, ⟨121, _⟩ => ⟨S32x64x224x224, .f32⟩
  | _, _ => ⟨S32x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_cst : Ref sig .tc := ⟨.hbm, 13, rfl⟩
abbrev main_v0 : Ref sig .tc := ⟨.hbm, 14, rfl⟩
abbrev main_c_11 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_12 : Ref sig .tc := ⟨.hbm, 22, rfl⟩
abbrev main_v7 : Ref sig .tc := ⟨.hbm, 23, rfl⟩
abbrev main_v8 : Ref sig .tc := ⟨.hbm, 24, rfl⟩
abbrev main_cst_13 : Ref sig .tc := ⟨.hbm, 25, rfl⟩
abbrev main_v9 : Ref sig .tc := ⟨.hbm, 26, rfl⟩
abbrev main_v10 : Ref sig .tc := ⟨.hbm, 27, rfl⟩
abbrev main_c_14 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_16 : Ref sig .tc := ⟨.hbm, 41, rfl⟩
abbrev main_v22 : Ref sig .tc := ⟨.hbm, 42, rfl⟩
abbrev main_cst_17 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_18 : Ref sig .tc := ⟨.hbm, 47, rfl⟩
abbrev main_v26 : Ref sig .tc := ⟨.hbm, 48, rfl⟩
abbrev main_v27 : Ref sig .tc := ⟨.hbm, 49, rfl⟩
abbrev main_cst_19 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_20 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_21 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_22 : Ref sig .tc := ⟨.hbm, 70, rfl⟩
abbrev main_v45 : Ref sig .tc := ⟨.hbm, 71, rfl⟩
abbrev main_cst_23 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_24 : Ref sig .tc := ⟨.hbm, 76, rfl⟩
abbrev main_v49 : Ref sig .tc := ⟨.hbm, 77, rfl⟩
abbrev main_v50 : Ref sig .tc := ⟨.hbm, 78, rfl⟩
abbrev main_cst_25 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_26 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_27 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_28 : Ref sig .tc := ⟨.hbm, 99, rfl⟩
abbrev main_v68 : Ref sig .tc := ⟨.hbm, 100, rfl⟩
abbrev main_cst_29 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_30 : Ref sig .tc := ⟨.hbm, 105, rfl⟩
abbrev main_v72 : Ref sig .tc := ⟨.hbm, 106, rfl⟩
abbrev main_v73 : Ref sig .tc := ⟨.hbm, 107, rfl⟩
abbrev main_cst_31 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_32 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  bcast_S_S32x64x224x224 : S_.BroadcastsInDim S32x64x224x224 (![] : Fin 0 → Fin S32x64x224x224.rank)
  bcast_S_S16 : S_.BroadcastsInDim S16 (![] : Fin 0 → Fin S16.rank)
  bcast_S16_S16x1_0 : S16.BroadcastsInDim S16x1 (![0] : Fin 1 → Fin S16x1.rank)
  bcast_S_S32x16x224x224 : S_.BroadcastsInDim S32x16x224x224 (![] : Fin 0 → Fin S32x16x224x224.rank)
  shapeCasts_S32x16x224x224_S32x16x112x2x112x2 : S32x16x224x224.ShapeCasts S32x16x112x2x112x2
  reducesTo_S32x16x112x2x112x2_S32x16x112x112_d3_5 : S32x16x112x2x112x2.ReducesTo [3, 5] S32x16x112x112
  h_S_ : 0 < S_.numel
  bcast_S_S32x16x112x112 : S_.BroadcastsInDim S32x16x112x112 (![] : Fin 0 → Fin S32x16x112x112.rank)
  bcast_S32x16x112x112_S32x16x112x2x112_0_1_2_4 : S32x16x112x112.BroadcastsInDim S32x16x112x2x112 (![0, 1, 2, 4] : Fin 4 → Fin S32x16x112x2x112.rank)
  shapeCasts_S32x16x112x2x112_S32x16x224x112 : S32x16x112x2x112.ShapeCasts S32x16x224x112
  bcast_S32x16x224x112_S32x16x224x112x2_0_1_2_3 : S32x16x224x112.BroadcastsInDim S32x16x224x112x2 (![0, 1, 2, 3] : Fin 4 → Fin S32x16x224x112x2.rank)
  shapeCasts_S32x16x224x112x2_S32x16x224x224 : S32x16x224x112x2.ShapeCasts S32x16x224x224
  shapeCasts_S32x16x224x224_S32x16x56x4x56x4 : S32x16x224x224.ShapeCasts S32x16x56x4x56x4
  reducesTo_S32x16x56x4x56x4_S32x16x56x56_d3_5 : S32x16x56x4x56x4.ReducesTo [3, 5] S32x16x56x56
  bcast_S_S32x16x56x56 : S_.BroadcastsInDim S32x16x56x56 (![] : Fin 0 → Fin S32x16x56x56.rank)
  bcast_S32x16x56x56_S32x16x56x4x56_0_1_2_4 : S32x16x56x56.BroadcastsInDim S32x16x56x4x56 (![0, 1, 2, 4] : Fin 4 → Fin S32x16x56x4x56.rank)
  shapeCasts_S32x16x56x4x56_S32x16x224x56 : S32x16x56x4x56.ShapeCasts S32x16x224x56
  bcast_S32x16x224x56_S32x16x224x56x4_0_1_2_3 : S32x16x224x56.BroadcastsInDim S32x16x224x56x4 (![0, 1, 2, 3] : Fin 4 → Fin S32x16x224x56x4.rank)
  shapeCasts_S32x16x224x56x4_S32x16x224x224 : S32x16x224x56x4.ShapeCasts S32x16x224x224
  shapeCasts_S32x16x224x224_S32x16x32x7x32x7 : S32x16x224x224.ShapeCasts S32x16x32x7x32x7
  reducesTo_S32x16x32x7x32x7_S32x16x32x32_d3_5 : S32x16x32x7x32x7.ReducesTo [3, 5] S32x16x32x32
  bcast_S_S32x16x32x32 : S_.BroadcastsInDim S32x16x32x32 (![] : Fin 0 → Fin S32x16x32x32.rank)
  bcast_S32x16x32x32_S32x16x32x7x32_0_1_2_4 : S32x16x32x32.BroadcastsInDim S32x16x32x7x32 (![0, 1, 2, 4] : Fin 4 → Fin S32x16x32x7x32.rank)
  shapeCasts_S32x16x32x7x32_S32x16x224x32 : S32x16x32x7x32.ShapeCasts S32x16x224x32
  bcast_S32x16x224x32_S32x16x224x32x7_0_1_2_3 : S32x16x224x32.BroadcastsInDim S32x16x224x32x7 (![0, 1, 2, 3] : Fin 4 → Fin S32x16x224x32x7.rank)
  shapeCasts_S32x16x224x32x7_S32x16x224x224 : S32x16x224x32x7.ShapeCasts S32x16x224x224
  gather_S32x64x224x224_S16x1_S32x16x224x224_023_1_n_n_1_1_321224224_wf : GatherDims.WF S32x64x224x224 S16x1 S32x16x224x224 [0, 2, 3] [1] [] [1] [] 1 ![32, 1, 224, 224]
  scatter_S32x64x224x224_S16x1_S32x16x224x224_023_1_1_1_wf : ScatterDims.WF S32x64x224x224 S16x1 S32x16x224x224 [0, 2, 3] [1] [1] 1

variable [Facts₀]

def gather_S32x64x224x224_S16x1_S32x16x224x224_023_1_n_n_1_1_321224224 : GatherDims S32x64x224x224 S16x1 S32x16x224x224 where
  offsetDims := [0, 2, 3]
  collapsedSliceDims := [1]
  operandBatchingDims := []
  startIndicesBatchingDims := []
  startIndexMap := [1]
  indexVectorDim := 1
  sliceSizes := ![32, 1, 224, 224]
  wf := gather_S32x64x224x224_S16x1_S32x16x224x224_023_1_n_n_1_1_321224224_wf
def scatter_S32x64x224x224_S16x1_S32x16x224x224_023_1_1_1 : ScatterDims S32x64x224x224 S16x1 S32x16x224x224 where
  updateWindowDims := [0, 2, 3]
  insertedWindowDims := [1]
  scatterDimsToOperandDims := [1]
  indexVectorDim := 1
  wf := scatter_S32x64x224x224_S16x1_S32x16x224x224_023_1_1_1_wf

class Facts : Prop extends Facts₀ where

variable [Facts]
-- ==== Proof.KFrame.lean ====
/-
  The word-level kernel's frame: at each of the 4 × 32 grid points the body loads the input block, stores into the
  output block the value its group prescribes, and nothing else; so the pipeline runs to the end, faults nowhere,
  and the activation is unchanged.
-/
import proofs.«112623_j79972291051870_1_alg».proof.Proof.Gen.Kernel.Frame
import proofs.«112623_j79972291051870_1_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the body stores into the output block at a grid point of coordinates `i`, from the input block `x0`: the
    group (the first coordinate) picks the pooling side, hence the stored value. -/
def payAt (i : grid0.Coords) (x0 : Vec F S1x16x224x224 .f32) : Vec F S1x16x224x224 .f32 :=
  if (i 0).val = 0 then k0_pay2 x0
  else if (i 0).val = 1 then k0_pay3 x0
  else if (i 0).val = 2 then k0_pay4 x0
  else k0_pay5 x0

/-- The pipeline's proof data on core `c`: the arrays as the region finds them; after the body at point `t` the
    input's buffer holds its block and the output's buffer the group's stored value of that block; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => payAt (grid0.coords t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = payAt (grid0.coords t) (iblk m c 0 t) := by dsimp only [dats]

/-! ## The grid's groups -/

/-- The first coordinate of a grid point is its number divided by the length of the second axis. -/
theorem coord0 : ∀ t : Fin cfg0.N, (grid0.coords t 0).val = t.val / 32 :=
  (by decide +kernel : ∀ t : Fin grid0.N, (grid0.coords t 0).val = t.val / 32)

/-- Each of the body's four conditions holds exactly on one group of 32 consecutive points. -/
theorem hcond1 : ∀ t : Fin cfg0.N, k0_cond1 (grid0.coords t) = 1#1 ↔ t.val / 32 = 0 :=
  (by decide +kernel : ∀ t : Fin grid0.N, k0_cond1 (grid0.coords t) = 1#1 ↔ t.val / 32 = 0)
theorem hcond2 : ∀ t : Fin cfg0.N, k0_cond2 (grid0.coords t) = 1#1 ↔ t.val / 32 = 1 :=
  (by decide +kernel : ∀ t : Fin grid0.N, k0_cond2 (grid0.coords t) = 1#1 ↔ t.val / 32 = 1)
theorem hcond3 : ∀ t : Fin cfg0.N, k0_cond3 (grid0.coords t) = 1#1 ↔ t.val / 32 = 2 :=
  (by decide +kernel : ∀ t : Fin grid0.N, k0_cond3 (grid0.coords t) = 1#1 ↔ t.val / 32 = 2)
theorem hcond4 : ∀ t : Fin cfg0.N, k0_cond4 (grid0.coords t) = 1#1 ↔ t.val / 32 = 3 :=
  (by decide +kernel : ∀ t : Fin grid0.N, k0_cond4 (grid0.coords t) = 1#1 ↔ t.val / 32 = 3)

/-- The stored value, group by group. -/
theorem payAt_of0 (i : grid0.Coords) (x0 : Vec F S1x16x224x224 .f32) (h : (i 0).val = 0) : payAt i x0 = k0_pay2 x0 := by
  unfold payAt; rw [if_pos h]
theorem payAt_of1 (i : grid0.Coords) (x0 : Vec F S1x16x224x224 .f32) (h : (i 0).val = 1) : payAt i x0 = k0_pay3 x0 := by
  unfold payAt; rw [if_neg (by omega), if_pos h]
theorem payAt_of2 (i : grid0.Coords) (x0 : Vec F S1x16x224x224 .f32) (h : (i 0).val = 2) : payAt i x0 = k0_pay4 x0 := by
  unfold payAt; rw [if_neg (by omega), if_neg (by omega), if_pos h]
theorem payAt_of3 (i : grid0.Coords) (x0 : Vec F S1x16x224x224 .f32) (h : (i 0).val = 3) : payAt i x0 = k0_pay5 x0 := by
  unfold payAt; rw [if_neg (by omega), if_neg (by omega), if_neg (by omega)]

/-! ## The body, one run per group -/

/-- The body where the group's condition 1 holds and the other three fail: from the input's buffer at `x0` and the
    output's buffer at anything, it runs to the end with the input's buffer as it was and the output's buffer holding
    the pieces its one store wrote. -/
noncomputable def kernelRunA (c : Dev nD) (i : grid0.Coords) (arg2 : Memref sig .tc .vmem S1x16x224x224 .f32) (harg2 : arg2.IsWhole)
    (arg3 : Memref sig .tc .vmem S1x16x224x224 .f32) (harg3 : arg3.IsWhole)
    (hc1 : k0_cond1 i = 1#1) (hc2 : ¬k0_cond2 i = 1#1) (hc3 : ¬k0_cond3 i = 1#1) (hc4 : ¬k0_cond4 i = 1#1)
    (x0 : Vec F S1x16x224x224 .f32) :
    { L1 : List (View.Piece (Elt F) S1x16x224x224 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__block_relu_kernel i arg2 harg2 arg3 harg3) K } := by
  refine ⟨?_, fun E K => ?run⟩
  case run =>
    sl_unfold [cc0__block_relu_kernel]
    unfold owns
    iintro ⟨⟨%f0, %hf0, H0⟩, ⟨%d1, %f1, -, H1⟩, Hk⟩
    obtain rfl := harg2.eq_unread hf0
    sl_exec (disch := first | exact hc1 | exact hc2 | exact hc3 | exact hc4)
    sl_step
    iapply Hk
    isplitl [H0]
    · iexists _; isplitr; · ipureintro; exact harg2.read_unread _
      iexact H0
    iexists _; iexact H1

/-- The pieces that case leaves cover the output block. -/
theorem coverA (c : Dev nD) (i : grid0.Coords) (arg2 : Memref sig .tc .vmem S1x16x224x224 .f32) (harg2 : arg2.IsWhole)
    (arg3 : Memref sig .tc .vmem S1x16x224x224 .f32) (harg3 : arg3.IsWhole)
    (hc1 : k0_cond1 i = 1#1) (hc2 : ¬k0_cond2 i = 1#1) (hc3 : ¬k0_cond3 i = 1#1) (hc4 : ¬k0_cond4 i = 1#1)
    (x0 : Vec F S1x16x224x224 .f32) (y : S1x16x224x224.Idx) :
    ∃ pc ∈ (kernelRunA c i arg2 harg2 arg3 harg3 hc1 hc2 hc3 hc4 x0).1, y ∈ pc.1.set :=
  View.cover_of_tiledL (kernelRunA c i arg2 harg2 arg3 harg3 hc1 hc2 hc3 hc4 x0).1 S1x16x224x224.size (by sl_kernel_rfl) y

/-- Read back through the output's view over any earlier contents, they are the group's value of the input block: the
    one store is of the whole block, and the input's buffer, loaded whole, reads `x0`. -/
theorem outA_eq (c : Dev nD) (i : grid0.Coords) (arg2 : Memref sig .tc .vmem S1x16x224x224 .f32) (harg2 : arg2.IsWhole)
    (arg3 : Memref sig .tc .vmem S1x16x224x224 .f32) (harg3 : arg3.IsWhole)
    (hc1 : k0_cond1 i = 1#1) (hc2 : ¬k0_cond2 i = 1#1) (hc3 : ¬k0_cond3 i = 1#1) (hc4 : ¬k0_cond4 i = 1#1)
    (x0 : Vec F S1x16x224x224 .f32) (f : arg3.view.ty.Contents (Elt F)) :
    arg3.view.read (Elt F) (arg3.view.writes (Elt F) f (kernelRunA c i arg2 harg2 arg3 harg3 hc1 hc2 hc3 hc4 x0).1) = k0_pay2 x0 := by
  have hz : (![0, 0, 0, 0] : Fin S1x16x224x224.rank → Nat) = fun _ => 0 := by funext a; fin_cases a <;> rfl
  rw [View.read_writes_eq_canon _ _ _ (coverA c i arg2 harg2 arg3 harg3 hc1 hc2 hc3 hc4 x0)]
  unfold kernelRunA
  dsimp only
  sl_unfold_words
  rw [View.canon_unit_zero hz]
  simp only [View.readAt_eq_ld, harg2.read_unread, View.ld_unit_zero (S := S1x16x224x224) hz]

/-- The body where the group's condition 2 holds and the other three fail: from the input's buffer at `x0` and the
    output's buffer at anything, it runs to the end with the input's buffer as it was and the output's buffer holding
    the pieces its one store wrote. -/
noncomputable def kernelRunB (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : k0_cond2 i = 1#1) (hc3 : ¬k0_cond3 i = 1#1) (hc4 : ¬k0_cond4 i = 1#1)
    (x0 : Vec F S1x16x224x224 .f32) :
    { L1 : List (View.Piece (Elt F) S1x16x224x224 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__block_relu_kernel i arg2 harg2 arg3 harg3) K } := by
  refine ⟨?_, fun E K => ?run⟩
  case run =>
    sl_unfold [cc0__block_relu_kernel]
    unfold owns
    iintro ⟨⟨%f0, %hf0, H0⟩, ⟨%d1, %f1, -, H1⟩, Hk⟩
    obtain rfl := harg2.eq_unread hf0
    sl_exec (disch := first | exact hc1 | exact hc2 | exact hc3 | exact hc4)
    sl_step
    iapply Hk
    isplitl [H0]
    · iexists _; isplitr; · ipureintro; exact harg2.read_unread _
      iexact H0
    iexists _; iexact H1

/-- The pieces that case leaves cover the output block. -/
theorem coverB (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : k0_cond2 i = 1#1) (hc3 : ¬k0_cond3 i = 1#1) (hc4 : ¬k0_cond4 i = 1#1)
    (x0 : Vec F S1x16x224x224 .f32) (y : S1x16x224x224.Idx) :
    ∃ pc ∈ (kernelRunB c i arg2 harg2 arg3 harg3 hc1 hc2 hc3 hc4 x0).1, y ∈ pc.1.set :=
  View.cover_of_tiledL (kernelRunB c i arg2 harg2 arg3 harg3 hc1 hc2 hc3 hc4 x0).1 S1x16x224x224.size (by sl_kernel_rfl) y

/-- Read back through the output's view over any earlier contents, they are the group's value of the input block: the
    one store is of the whole block, and the input's buffer, loaded whole, reads `x0`. -/
theorem outB_eq (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : k0_cond2 i = 1#1) (hc3 : ¬k0_cond3 i = 1#1) (hc4 : ¬k0_cond4 i = 1#1)
    (x0 : Vec F S1x16x224x224 .f32) (f : arg3.view.ty.Contents (Elt F)) :
    arg3.view.read (Elt F) (arg3.view.writes (Elt F) f (kernelRunB c i arg2 harg2 arg3 harg3 hc1 hc2 hc3 hc4 x0).1) = k0_pay3 x0 := by
  have hz : (![0, 0, 0, 0] : Fin S1x16x224x224.rank → Nat) = fun _ => 0 := by funext a; fin_cases a <;> rfl
  rw [View.read_writes_eq_canon _ _ _ (coverB c i arg2 harg2 arg3 harg3 hc1 hc2 hc3 hc4 x0)]
  unfold kernelRunB
  dsimp only
  sl_unfold_words
  rw [View.canon_unit_zero hz]
  simp only [View.readAt_eq_ld, harg2.read_unread, View.ld_unit_zero (S := S1x16x224x224) hz]

/-- The body where the group's condition 3 holds and the other three fail: from the input's buffer at `x0` and the
    output's buffer at anything, it runs to the end with the input's buffer as it was and the output's buffer holding
    the pieces its one store wrote. -/
noncomputable def kernelRunC (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : k0_cond3 i = 1#1) (hc4 : ¬k0_cond4 i = 1#1)
    (x0 : Vec F S1x16x224x224 .f32) :
    { L1 : List (View.Piece (Elt F) S1x16x224x224 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__block_relu_kernel i arg2 harg2 arg3 harg3) K } := by
  refine ⟨?_, fun E K => ?run⟩
  case run =>
    sl_unfold [cc0__block_relu_kernel]
    unfold owns
    iintro ⟨⟨%f0, %hf0, H0⟩, ⟨%d1, %f1, -, H1⟩, Hk⟩
    obtain rfl := harg2.eq_unread hf0
    sl_exec (disch := first | exact hc1 | exact hc2 | exact hc3 | exact hc4)
    sl_step
    iapply Hk
    isplitl [H0]
    · iexists _; isplitr; · ipureintro; exact harg2.read_unread _
      iexact H0
    iexists _; iexact H1

/-- The pieces that case leaves cover the output block. -/
theorem coverC (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : k0_cond3 i = 1#1) (hc4 : ¬k0_cond4 i = 1#1)
    (x0 : Vec F S1x16x224x224 .f32) (y : S1x16x224x224.Idx) :
    ∃ pc ∈ (kernelRunC c i arg2 harg2 arg3 harg3 hc1 hc2 hc3 hc4 x0).1, y ∈ pc.1.set :=
  View.cover_of_tiledL (kernelRunC c i arg2 harg2 arg3 harg3 hc1 hc2 hc3 hc4 x0).1 S1x16x224x224.size (by sl_kernel_rfl) y

/-- Read back through the output's view over any earlier contents, they are the group's value of the input block: the
    one store is of the whole block, and the input's buffer, loaded whole, reads `x0`. -/
theorem outC_eq (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : k0_cond3 i = 1#1) (hc4 : ¬k0_cond4 i = 1#1)
    (x0 : Vec F S1x16x224x224 .f32) (f : arg3.view.ty.Contents (Elt F)) :
    arg3.view.read (Elt F) (arg3.view.writes (Elt F) f (kernelRunC c i arg2 harg2 arg3 harg3 hc1 hc2 hc3 hc4 x0).1) = k0_pay4 x0 := by
  have hz : (![0, 0, 0, 0] : Fin S1x16x224x224.rank → Nat) = fun _ => 0 := by funext a; fin_cases a <;> rfl
  rw [View.read_writes_eq_canon _ _ _ (coverC c i arg2 harg2 arg3 harg3 hc1 hc2 hc3 hc4 x0)]
  unfold kernelRunC
  dsimp only
  sl_unfold_words
  rw [View.canon_unit_zero hz]
  simp only [View.readAt_eq_ld, harg2.read_unread, View.ld_unit_zero (S := S1x16x224x224) hz]

/-- The body where the group's condition 4 holds and the other three fail: from the input's buffer at `x0` and the
    output's buffer at anything, it runs to the end with the input's buffer as it was and the output's buffer holding
    the pieces its one store wrote. -/
noncomputable def kernelRunD (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : ¬k0_cond3 i = 1#1) (hc4 : k0_cond4 i = 1#1)
    (x0 : Vec F S1x16x224x224 .f32) :
    { L1 : List (View.Piece (Elt F) S1x16x224x224 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__block_relu_kernel i arg2 harg2 arg3 harg3) K } := by
  refine ⟨?_, fun E K => ?run⟩
  case run =>
    sl_unfold [cc0__block_relu_kernel]
    unfold owns
    iintro ⟨⟨%f0, %hf0, H0⟩, ⟨%d1, %f1, -, H1⟩, Hk⟩
    obtain rfl := harg2.eq_unread hf0
    sl_exec (disch := first | exact hc1 | exact hc2 | exact hc3 | exact hc4)
    sl_step
    iapply Hk
    isplitl [H0]
    · iexists _; isplitr; · ipureintro; exact harg2.read_unread _
      iexact H0
    iexists _; iexact H1

/-- The pieces that case leaves cover the output block. -/
theorem coverD (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : ¬k0_cond3 i = 1#1) (hc4 : k0_cond4 i = 1#1)
    (x0 : Vec F S1x16x224x224 .f32) (y : S1x16x224x224.Idx) :
    ∃ pc ∈ (kernelRunD c i arg2 harg2 arg3 harg3 hc1 hc2 hc3 hc4 x0).1, y ∈ pc.1.set :=
  View.cover_of_tiledL (kernelRunD c i arg2 harg2 arg3 harg3 hc1 hc2 hc3 hc4 x0).1 S1x16x224x224.size (by sl_kernel_rfl) y

/-- Read back through the output's view over any earlier contents, they are the group's value of the input block: the
    one store is of the whole block, and the input's buffer, loaded whole, reads `x0`. -/
theorem outD_eq (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : ¬k0_cond3 i = 1#1) (hc4 : k0_cond4 i = 1#1)
    (x0 : Vec F S1x16x224x224 .f32) (f : arg3.view.ty.Contents (Elt F)) :
    arg3.view.read (Elt F) (arg3.view.writes (Elt F) f (kernelRunD c i arg2 harg2 arg3 harg3 hc1 hc2 hc3 hc4 x0).1) = k0_pay5 x0 := by
  have hz : (![0, 0, 0, 0] : Fin S1x16x224x224.rank → Nat) = fun _ => 0 := by funext a; fin_cases a <;> rfl
  rw [View.read_writes_eq_canon _ _ _ (coverD c i arg2 harg2 arg3 harg3 hc1 hc2 hc3 hc4 x0)]
  unfold kernelRunD
  dsimp only
  sl_unfold_words
  rw [View.canon_unit_zero hz]
  simp only [View.readAt_eq_ld, harg2.read_unread, View.ld_unit_zero (S := S1x16x224x224) hz]

/-! ## The body obligation -/

/-- Each window's current staging memref at point `t`, as the pipeline passes it, and its wholeness. -/
abbrev ms0_0 (t : Fin cfg0.N) : Memref sig .tc .vmem S1x16x224x224 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x224x224 .f32 := win0_1.stage (cfg0.slots t 1)
abbrev hs0_1 (t : Fin cfg0.N) : (ms0_1 t).IsWhole := hstage0_1 ((cfg0.slots t 1).cast nbuf0_1)

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- The output is written back at every point, so whether or not a point counts as idle for it, the body must leave its
    buffer at the point's value. -/
theorem leaves1 (c : Dev nD) (t : Fin cfg0.N) :
    (dats m 0 c).leavesExact 1 t = owns (c : Thread nD τ) (ms0_1 t) fullShare ((dats m 0 c).after 1 t) := by
  unfold Dat.leavesExact
  split
  · split
    · next _ hf => exact absurd ((flush0_1 t).symm.trans hf) (by decide)
    · rfl
  · rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (dats m 0 c).leavesExact 1 t)

/-- The body at any point: the input's buffer holds its block; the point's group says which condition holds and that
    the other three fail, so that group's run applies; its pieces read back as the group's value of the block; the
    invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves1 m c t, show (dats m 0 c).Φ t.succ = (dats m 0 c).Φ t.castSucc from rfl,
    show (dats m 0 c).owesAt () t.succ = (dats m 0 c).owesAt () t.castSucc from rfl,
    after0_0, after0_1]
  have hN : t.val < 128 := lt_of_lt_of_eq t.isLt (show cfg0.N = 128 from N_0)
  iintro ⟨HΦ, Ho, ⟨%d0, H0⟩, ⟨%d1, H1⟩⟩
  rw [before0_0 m c t d0]
  by_cases hg : t.val / 32 = 0
  · have hc1 : k0_cond1 (grid0.coords t) = 1#1 := (hcond1 t).mpr hg
    have hc2 : ¬k0_cond2 (grid0.coords t) = 1#1 := fun h => by have := (hcond2 t).mp h; omega
    have hc3 : ¬k0_cond3 (grid0.coords t) = 1#1 := fun h => by have := (hcond3 t).mp h; omega
    have hc4 : ¬k0_cond4 (grid0.coords t) = 1#1 := fun h => by have := (hcond4 t).mp h; omega
    rw [payAt_of0 (grid0.coords t) (iblk m c 0 t) ((coord0 t).trans hg)]
    iapply ((kernelRunA c (grid0.coords t) _ _ _ _ hc1 hc2 hc3 hc4 (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact outA_eq c (grid0.coords t) _ _ _ _ hc1 hc2 hc3 hc4 (iblk m c 0 t) _
  by_cases hg : t.val / 32 = 1
  · have hc1 : ¬k0_cond1 (grid0.coords t) = 1#1 := fun h => by have := (hcond1 t).mp h; omega
    have hc2 : k0_cond2 (grid0.coords t) = 1#1 := (hcond2 t).mpr hg
    have hc3 : ¬k0_cond3 (grid0.coords t) = 1#1 := fun h => by have := (hcond3 t).mp h; omega
    have hc4 : ¬k0_cond4 (grid0.coords t) = 1#1 := fun h => by have := (hcond4 t).mp h; omega
    rw [payAt_of1 (grid0.coords t) (iblk m c 0 t) ((coord0 t).trans hg)]
    iapply ((kernelRunB c (grid0.coords t) _ _ _ _ hc1 hc2 hc3 hc4 (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact outB_eq c (grid0.coords t) _ _ _ _ hc1 hc2 hc3 hc4 (iblk m c 0 t) _
  by_cases hg : t.val / 32 = 2
  · have hc1 : ¬k0_cond1 (grid0.coords t) = 1#1 := fun h => by have := (hcond1 t).mp h; omega
    have hc2 : ¬k0_cond2 (grid0.coords t) = 1#1 := fun h => by have := (hcond2 t).mp h; omega
    have hc3 : k0_cond3 (grid0.coords t) = 1#1 := (hcond3 t).mpr hg
    have hc4 : ¬k0_cond4 (grid0.coords t) = 1#1 := fun h => by have := (hcond4 t).mp h; omega
    rw [payAt_of2 (grid0.coords t) (iblk m c 0 t) ((coord0 t).trans hg)]
    iapply ((kernelRunC c (grid0.coords t) _ _ _ _ hc1 hc2 hc3 hc4 (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact outC_eq c (grid0.coords t) _ _ _ _ hc1 hc2 hc3 hc4 (iblk m c 0 t) _
  have hg : t.val / 32 = 3 := by omega
  have hc1 : ¬k0_cond1 (grid0.coords t) = 1#1 := fun h => by have := (hcond1 t).mp h; omega
  have hc2 : ¬k0_cond2 (grid0.coords t) = 1#1 := fun h => by have := (hcond2 t).mp h; omega
  have hc3 : ¬k0_cond3 (grid0.coords t) = 1#1 := fun h => by have := (hcond3 t).mp h; omega
  have hc4 : k0_cond4 (grid0.coords t) = 1#1 := (hcond4 t).mpr hg
  rw [payAt_of3 (grid0.coords t) (iblk m c 0 t) ((coord0 t).trans hg)]
  iapply ((kernelRunD c (grid0.coords t) _ _ _ _ hc1 hc2 hc3 hc4 (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact outD_eq c (grid0.coords t) _ _ _ _ hc1 hc2 hc3 hc4 (iblk m c 0 t) _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every array of the pipeline ends at what the library
    computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and leaves the activation as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KIFrame.lean ====
/-
  The idealized kernel's frame: at each of the 4 × 32 grid points the body loads the input block, stores into the
  output block the value its group prescribes, and nothing else; so the pipeline runs to the end, faults nowhere,
  and the activation is unchanged.
-/
import proofs.«112623_j79972291051870_1_alg».proof.Proof.Gen.KernelIdeal.Frame
import proofs.«112623_j79972291051870_1_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body stores into the output block at a grid point of coordinates `i`, from the input block `x0`: the
    group (the first coordinate) picks the pooling side, hence the stored value. -/
def payAt (i : grid0.Coords) (x0 : Vec F S1x16x224x224 .f32) : Vec F S1x16x224x224 .f32 :=
  if (i 0).val = 0 then k0_pay2 x0
  else if (i 0).val = 1 then k0_pay3 x0
  else if (i 0).val = 2 then k0_pay4 x0
  else k0_pay5 x0

/-- The pipeline's proof data on core `c`: the arrays as the region finds them; after the body at point `t` the
    input's buffer holds its block and the output's buffer the group's stored value of that block; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => payAt (grid0.coords t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = payAt (grid0.coords t) (iblk m c 0 t) := by dsimp only [dats]

/-! ## The grid's groups -/

/-- The first coordinate of a grid point is its number divided by the length of the second axis. -/
theorem coord0 : ∀ t : Fin cfg0.N, (grid0.coords t 0).val = t.val / 32 :=
  (by decide +kernel : ∀ t : Fin grid0.N, (grid0.coords t 0).val = t.val / 32)

/-- Each of the body's four conditions holds exactly on one group of 32 consecutive points. -/
theorem hcond1 : ∀ t : Fin cfg0.N, k0_cond1 (grid0.coords t) = 1#1 ↔ t.val / 32 = 0 :=
  (by decide +kernel : ∀ t : Fin grid0.N, k0_cond1 (grid0.coords t) = 1#1 ↔ t.val / 32 = 0)
theorem hcond2 : ∀ t : Fin cfg0.N, k0_cond2 (grid0.coords t) = 1#1 ↔ t.val / 32 = 1 :=
  (by decide +kernel : ∀ t : Fin grid0.N, k0_cond2 (grid0.coords t) = 1#1 ↔ t.val / 32 = 1)
theorem hcond3 : ∀ t : Fin cfg0.N, k0_cond3 (grid0.coords t) = 1#1 ↔ t.val / 32 = 2 :=
  (by decide +kernel : ∀ t : Fin grid0.N, k0_cond3 (grid0.coords t) = 1#1 ↔ t.val / 32 = 2)
theorem hcond4 : ∀ t : Fin cfg0.N, k0_cond4 (grid0.coords t) = 1#1 ↔ t.val / 32 = 3 :=
  (by decide +kernel : ∀ t : Fin grid0.N, k0_cond4 (grid0.coords t) = 1#1 ↔ t.val / 32 = 3)

/-- The stored value, group by group. -/
theorem payAt_of0 (i : grid0.Coords) (x0 : Vec F S1x16x224x224 .f32) (h : (i 0).val = 0) : payAt i x0 = k0_pay2 x0 := by
  unfold payAt; rw [if_pos h]
theorem payAt_of1 (i : grid0.Coords) (x0 : Vec F S1x16x224x224 .f32) (h : (i 0).val = 1) : payAt i x0 = k0_pay3 x0 := by
  unfold payAt; rw [if_neg (by omega), if_pos h]
theorem payAt_of2 (i : grid0.Coords) (x0 : Vec F S1x16x224x224 .f32) (h : (i 0).val = 2) : payAt i x0 = k0_pay4 x0 := by
  unfold payAt; rw [if_neg (by omega), if_neg (by omega), if_pos h]
theorem payAt_of3 (i : grid0.Coords) (x0 : Vec F S1x16x224x224 .f32) (h : (i 0).val = 3) : payAt i x0 = k0_pay5 x0 := by
  unfold payAt; rw [if_neg (by omega), if_neg (by omega), if_neg (by omega)]

/-! ## The body, one run per group -/

/-- The body where the group's condition 1 holds and the other three fail: from the input's buffer at `x0` and the
    output's buffer at anything, it runs to the end with the input's buffer as it was and the output's buffer holding
    the pieces its one store wrote. -/
noncomputable def kernelRunA (c : Dev nD) (i : grid0.Coords) (arg2 : Memref sig .tc .vmem S1x16x224x224 .f32) (harg2 : arg2.IsWhole)
    (arg3 : Memref sig .tc .vmem S1x16x224x224 .f32) (harg3 : arg3.IsWhole)
    (hc1 : k0_cond1 i = 1#1) (hc2 : ¬k0_cond2 i = 1#1) (hc3 : ¬k0_cond3 i = 1#1) (hc4 : ¬k0_cond4 i = 1#1)
    (x0 : Vec F S1x16x224x224 .f32) :
    { L1 : List (View.Piece (Elt F) S1x16x224x224 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__block_relu_kernel i arg2 harg2 arg3 harg3) K } := by
  refine ⟨?_, fun E K => ?run⟩
  case run =>
    sl_unfold [cc0__block_relu_kernel]
    unfold owns
    iintro ⟨⟨%f0, %hf0, H0⟩, ⟨%d1, %f1, -, H1⟩, Hk⟩
    obtain rfl := harg2.eq_unread hf0
    sl_exec (disch := first | exact hc1 | exact hc2 | exact hc3 | exact hc4)
    sl_step
    iapply Hk
    isplitl [H0]
    · iexists _; isplitr; · ipureintro; exact harg2.read_unread _
      iexact H0
    iexists _; iexact H1

/-- The pieces that case leaves cover the output block. -/
theorem coverA (c : Dev nD) (i : grid0.Coords) (arg2 : Memref sig .tc .vmem S1x16x224x224 .f32) (harg2 : arg2.IsWhole)
    (arg3 : Memref sig .tc .vmem S1x16x224x224 .f32) (harg3 : arg3.IsWhole)
    (hc1 : k0_cond1 i = 1#1) (hc2 : ¬k0_cond2 i = 1#1) (hc3 : ¬k0_cond3 i = 1#1) (hc4 : ¬k0_cond4 i = 1#1)
    (x0 : Vec F S1x16x224x224 .f32) (y : S1x16x224x224.Idx) :
    ∃ pc ∈ (kernelRunA c i arg2 harg2 arg3 harg3 hc1 hc2 hc3 hc4 x0).1, y ∈ pc.1.set :=
  View.cover_of_tiledL (kernelRunA c i arg2 harg2 arg3 harg3 hc1 hc2 hc3 hc4 x0).1 S1x16x224x224.size (by sl_kernel_rfl) y

/-- Read back through the output's view over any earlier contents, they are the group's value of the input block: the
    one store is of the whole block, and the input's buffer, loaded whole, reads `x0`. -/
theorem outA_eq (c : Dev nD) (i : grid0.Coords) (arg2 : Memref sig .tc .vmem S1x16x224x224 .f32) (harg2 : arg2.IsWhole)
    (arg3 : Memref sig .tc .vmem S1x16x224x224 .f32) (harg3 : arg3.IsWhole)
    (hc1 : k0_cond1 i = 1#1) (hc2 : ¬k0_cond2 i = 1#1) (hc3 : ¬k0_cond3 i = 1#1) (hc4 : ¬k0_cond4 i = 1#1)
    (x0 : Vec F S1x16x224x224 .f32) (f : arg3.view.ty.Contents (Elt F)) :
    arg3.view.read (Elt F) (arg3.view.writes (Elt F) f (kernelRunA c i arg2 harg2 arg3 harg3 hc1 hc2 hc3 hc4 x0).1) = k0_pay2 x0 := by
  have hz : (![0, 0, 0, 0] : Fin S1x16x224x224.rank → Nat) = fun _ => 0 := by funext a; fin_cases a <;> rfl
  rw [View.read_writes_eq_canon _ _ _ (coverA c i arg2 harg2 arg3 harg3 hc1 hc2 hc3 hc4 x0)]
  unfold kernelRunA
  dsimp only
  sl_unfold_words
  rw [View.canon_unit_zero hz]
  simp only [View.readAt_eq_ld, harg2.read_unread, View.ld_unit_zero (S := S1x16x224x224) hz]

/-- The body where the group's condition 2 holds and the other three fail: from the input's buffer at `x0` and the
    output's buffer at anything, it runs to the end with the input's buffer as it was and the output's buffer holding
    the pieces its one store wrote. -/
noncomputable def kernelRunB (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : k0_cond2 i = 1#1) (hc3 : ¬k0_cond3 i = 1#1) (hc4 : ¬k0_cond4 i = 1#1)
    (x0 : Vec F S1x16x224x224 .f32) :
    { L1 : List (View.Piece (Elt F) S1x16x224x224 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__block_relu_kernel i arg2 harg2 arg3 harg3) K } := by
  refine ⟨?_, fun E K => ?run⟩
  case run =>
    sl_unfold [cc0__block_relu_kernel]
    unfold owns
    iintro ⟨⟨%f0, %hf0, H0⟩, ⟨%d1, %f1, -, H1⟩, Hk⟩
    obtain rfl := harg2.eq_unread hf0
    sl_exec (disch := first | exact hc1 | exact hc2 | exact hc3 | exact hc4)
    sl_step
    iapply Hk
    isplitl [H0]
    · iexists _; isplitr; · ipureintro; exact harg2.read_unread _
      iexact H0
    iexists _; iexact H1

/-- The pieces that case leaves cover the output block. -/
theorem coverB (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : k0_cond2 i = 1#1) (hc3 : ¬k0_cond3 i = 1#1) (hc4 : ¬k0_cond4 i = 1#1)
    (x0 : Vec F S1x16x224x224 .f32) (y : S1x16x224x224.Idx) :
    ∃ pc ∈ (kernelRunB c i arg2 harg2 arg3 harg3 hc1 hc2 hc3 hc4 x0).1, y ∈ pc.1.set :=
  View.cover_of_tiledL (kernelRunB c i arg2 harg2 arg3 harg3 hc1 hc2 hc3 hc4 x0).1 S1x16x224x224.size (by sl_kernel_rfl) y

/-- Read back through the output's view over any earlier contents, they are the group's value of the input block: the
    one store is of the whole block, and the input's buffer, loaded whole, reads `x0`. -/
theorem outB_eq (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : k0_cond2 i = 1#1) (hc3 : ¬k0_cond3 i = 1#1) (hc4 : ¬k0_cond4 i = 1#1)
    (x0 : Vec F S1x16x224x224 .f32) (f : arg3.view.ty.Contents (Elt F)) :
    arg3.view.read (Elt F) (arg3.view.writes (Elt F) f (kernelRunB c i arg2 harg2 arg3 harg3 hc1 hc2 hc3 hc4 x0).1) = k0_pay3 x0 := by
  have hz : (![0, 0, 0, 0] : Fin S1x16x224x224.rank → Nat) = fun _ => 0 := by funext a; fin_cases a <;> rfl
  rw [View.read_writes_eq_canon _ _ _ (coverB c i arg2 harg2 arg3 harg3 hc1 hc2 hc3 hc4 x0)]
  unfold kernelRunB
  dsimp only
  sl_unfold_words
  rw [View.canon_unit_zero hz]
  simp only [View.readAt_eq_ld, harg2.read_unread, View.ld_unit_zero (S := S1x16x224x224) hz]

/-- The body where the group's condition 3 holds and the other three fail: from the input's buffer at `x0` and the
    output's buffer at anything, it runs to the end with the input's buffer as it was and the output's buffer holding
    the pieces its one store wrote. -/
noncomputable def kernelRunC (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : k0_cond3 i = 1#1) (hc4 : ¬k0_cond4 i = 1#1)
    (x0 : Vec F S1x16x224x224 .f32) :
    { L1 : List (View.Piece (Elt F) S1x16x224x224 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__block_relu_kernel i arg2 harg2 arg3 harg3) K } := by
  refine ⟨?_, fun E K => ?run⟩
  case run =>
    sl_unfold [cc0__block_relu_kernel]
    unfold owns
    iintro ⟨⟨%f0, %hf0, H0⟩, ⟨%d1, %f1, -, H1⟩, Hk⟩
    obtain rfl := harg2.eq_unread hf0
    sl_exec (disch := first | exact hc1 | exact hc2 | exact hc3 | exact hc4)
    sl_step
    iapply Hk
    isplitl [H0]
    · iexists _; isplitr; · ipureintro; exact harg2.read_unread _
      iexact H0
    iexists _; iexact H1

/-- The pieces that case leaves cover the output block. -/
theorem coverC (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : k0_cond3 i = 1#1) (hc4 : ¬k0_cond4 i = 1#1)
    (x0 : Vec F S1x16x224x224 .f32) (y : S1x16x224x224.Idx) :
    ∃ pc ∈ (kernelRunC c i arg2 harg2 arg3 harg3 hc1 hc2 hc3 hc4 x0).1, y ∈ pc.1.set :=
  View.cover_of_tiledL (kernelRunC c i arg2 harg2 arg3 harg3 hc1 hc2 hc3 hc4 x0).1 S1x16x224x224.size (by sl_kernel_rfl) y

/-- Read back through the output's view over any earlier contents, they are the group's value of the input block: the
    one store is of the whole block, and the input's buffer, loaded whole, reads `x0`. -/
theorem outC_eq (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : k0_cond3 i = 1#1) (hc4 : ¬k0_cond4 i = 1#1)
    (x0 : Vec F S1x16x224x224 .f32) (f : arg3.view.ty.Contents (Elt F)) :
    arg3.view.read (Elt F) (arg3.view.writes (Elt F) f (kernelRunC c i arg2 harg2 arg3 harg3 hc1 hc2 hc3 hc4 x0).1) = k0_pay4 x0 := by
  have hz : (![0, 0, 0, 0] : Fin S1x16x224x224.rank → Nat) = fun _ => 0 := by funext a; fin_cases a <;> rfl
  rw [View.read_writes_eq_canon _ _ _ (coverC c i arg2 harg2 arg3 harg3 hc1 hc2 hc3 hc4 x0)]
  unfold kernelRunC
  dsimp only
  sl_unfold_words
  rw [View.canon_unit_zero hz]
  simp only [View.readAt_eq_ld, harg2.read_unread, View.ld_unit_zero (S := S1x16x224x224) hz]

/-- The body where the group's condition 4 holds and the other three fail: from the input's buffer at `x0` and the
    output's buffer at anything, it runs to the end with the input's buffer as it was and the output's buffer holding
    the pieces its one store wrote. -/
noncomputable def kernelRunD (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : ¬k0_cond3 i = 1#1) (hc4 : k0_cond4 i = 1#1)
    (x0 : Vec F S1x16x224x224 .f32) :
    { L1 : List (View.Piece (Elt F) S1x16x224x224 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__block_relu_kernel i arg2 harg2 arg3 harg3) K } := by
  refine ⟨?_, fun E K => ?run⟩
  case run =>
    sl_unfold [cc0__block_relu_kernel]
    unfold owns
    iintro ⟨⟨%f0, %hf0, H0⟩, ⟨%d1, %f1, -, H1⟩, Hk⟩
    obtain rfl := harg2.eq_unread hf0
    sl_exec (disch := first | exact hc1 | exact hc2 | exact hc3 | exact hc4)
    sl_step
    iapply Hk
    isplitl [H0]
    · iexists _; isplitr; · ipureintro; exact harg2.read_unread _
      iexact H0
    iexists _; iexact H1

/-- The pieces that case leaves cover the output block. -/
theorem coverD (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : ¬k0_cond3 i = 1#1) (hc4 : k0_cond4 i = 1#1)
    (x0 : Vec F S1x16x224x224 .f32) (y : S1x16x224x224.Idx) :
    ∃ pc ∈ (kernelRunD c i arg2 harg2 arg3 harg3 hc1 hc2 hc3 hc4 x0).1, y ∈ pc.1.set :=
  View.cover_of_tiledL (kernelRunD c i arg2 harg2 arg3 harg3 hc1 hc2 hc3 hc4 x0).1 S1x16x224x224.size (by sl_kernel_rfl) y

/-- Read back through the output's view over any earlier contents, they are the group's value of the input block: the
    one store is of the whole block, and the input's buffer, loaded whole, reads `x0`. -/
theorem outD_eq (c : Dev nD) (i : grid0.Coords) (arg2 : Memref sig .tc .vmem S1x16x224x224 .f32) (harg2 : arg2.IsWhole)
    (arg3 : Memref sig .tc .vmem S1x16x224x224 .f32) (harg3 : arg3.IsWhole)
    (hc1 : ¬k0_cond1 i = 1#1) (hc2 : ¬k0_cond2 i = 1#1) (hc3 : ¬k0_cond3 i = 1#1) (hc4 : k0_cond4 i = 1#1)
    (x0 : Vec F S1x16x224x224 .f32) (f : arg3.view.ty.Contents (Elt F)) :
    arg3.view.read (Elt F) (arg3.view.writes (Elt F) f (kernelRunD c i arg2 harg2 arg3 harg3 hc1 hc2 hc3 hc4 x0).1) = k0_pay5 x0 := by
  have hz : (![0, 0, 0, 0] : Fin S1x16x224x224.rank → Nat) = fun _ => 0 := by funext a; fin_cases a <;> rfl
  rw [View.read_writes_eq_canon _ _ _ (coverD c i arg2 harg2 arg3 harg3 hc1 hc2 hc3 hc4 x0)]
  unfold kernelRunD
  dsimp only
  sl_unfold_words
  rw [View.canon_unit_zero hz]
  simp only [View.readAt_eq_ld, harg2.read_unread, View.ld_unit_zero (S := S1x16x224x224) hz]

/-! ## The body obligation -/

/-- Each window's current staging memref at point `t`, as the pipeline passes it, and its wholeness. -/
abbrev ms0_0 (t : Fin cfg0.N) : Memref sig .tc .vmem S1x16x224x224 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x224x224 .f32 := win0_1.stage (cfg0.slots t 1)
abbrev hs0_1 (t : Fin cfg0.N) : (ms0_1 t).IsWhole := hstage0_1 ((cfg0.slots t 1).cast nbuf0_1)

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- The output is written back at every point, so whether or not a point counts as idle for it, the body must leave its
    buffer at the point's value. -/
theorem leaves1 (c : Dev nD) (t : Fin cfg0.N) :
    (dats m 0 c).leavesExact 1 t = owns (c : Thread nD τ) (ms0_1 t) fullShare ((dats m 0 c).after 1 t) := by
  unfold Dat.leavesExact
  split
  · split
    · next _ hf => exact absurd ((flush0_1 t).symm.trans hf) (by decide)
    · rfl
  · rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (dats m 0 c).leavesExact 1 t)

/-- The body at any point: the input's buffer holds its block; the point's group says which condition holds and that
    the other three fail, so that group's run applies; its pieces read back as the group's value of the block; the
    invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves1 m c t, show (dats m 0 c).Φ t.succ = (dats m 0 c).Φ t.castSucc from rfl,
    show (dats m 0 c).owesAt () t.succ = (dats m 0 c).owesAt () t.castSucc from rfl,
    after0_0, after0_1]
  have hN : t.val < 128 := lt_of_lt_of_eq t.isLt (show cfg0.N = 128 from N_0)
  iintro ⟨HΦ, Ho, ⟨%d0, H0⟩, ⟨%d1, H1⟩⟩
  rw [before0_0 m c t d0]
  by_cases hg : t.val / 32 = 0
  · have hc1 : k0_cond1 (grid0.coords t) = 1#1 := (hcond1 t).mpr hg
    have hc2 : ¬k0_cond2 (grid0.coords t) = 1#1 := fun h => by have := (hcond2 t).mp h; omega
    have hc3 : ¬k0_cond3 (grid0.coords t) = 1#1 := fun h => by have := (hcond3 t).mp h; omega
    have hc4 : ¬k0_cond4 (grid0.coords t) = 1#1 := fun h => by have := (hcond4 t).mp h; omega
    rw [payAt_of0 (grid0.coords t) (iblk m c 0 t) ((coord0 t).trans hg)]
    iapply ((kernelRunA c (grid0.coords t) _ _ _ _ hc1 hc2 hc3 hc4 (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact outA_eq c (grid0.coords t) _ _ _ _ hc1 hc2 hc3 hc4 (iblk m c 0 t) _
  by_cases hg : t.val / 32 = 1
  · have hc1 : ¬k0_cond1 (grid0.coords t) = 1#1 := fun h => by have := (hcond1 t).mp h; omega
    have hc2 : k0_cond2 (grid0.coords t) = 1#1 := (hcond2 t).mpr hg
    have hc3 : ¬k0_cond3 (grid0.coords t) = 1#1 := fun h => by have := (hcond3 t).mp h; omega
    have hc4 : ¬k0_cond4 (grid0.coords t) = 1#1 := fun h => by have := (hcond4 t).mp h; omega
    rw [payAt_of1 (grid0.coords t) (iblk m c 0 t) ((coord0 t).trans hg)]
    iapply ((kernelRunB c (grid0.coords t) _ _ _ _ hc1 hc2 hc3 hc4 (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact outB_eq c (grid0.coords t) _ _ _ _ hc1 hc2 hc3 hc4 (iblk m c 0 t) _
  by_cases hg : t.val / 32 = 2
  · have hc1 : ¬k0_cond1 (grid0.coords t) = 1#1 := fun h => by have := (hcond1 t).mp h; omega
    have hc2 : ¬k0_cond2 (grid0.coords t) = 1#1 := fun h => by have := (hcond2 t).mp h; omega
    have hc3 : k0_cond3 (grid0.coords t) = 1#1 := (hcond3 t).mpr hg
    have hc4 : ¬k0_cond4 (grid0.coords t) = 1#1 := fun h => by have := (hcond4 t).mp h; omega
    rw [payAt_of2 (grid0.coords t) (iblk m c 0 t) ((coord0 t).trans hg)]
    iapply ((kernelRunC c (grid0.coords t) _ _ _ _ hc1 hc2 hc3 hc4 (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact outC_eq c (grid0.coords t) _ _ _ _ hc1 hc2 hc3 hc4 (iblk m c 0 t) _
  have hg : t.val / 32 = 3 := by omega
  have hc1 : ¬k0_cond1 (grid0.coords t) = 1#1 := fun h => by have := (hcond1 t).mp h; omega
  have hc2 : ¬k0_cond2 (grid0.coords t) = 1#1 := fun h => by have := (hcond2 t).mp h; omega
  have hc3 : ¬k0_cond3 (grid0.coords t) = 1#1 := fun h => by have := (hcond3 t).mp h; omega
  have hc4 : k0_cond4 (grid0.coords t) = 1#1 := (hcond4 t).mpr hg
  rw [payAt_of3 (grid0.coords t) (iblk m c 0 t) ((coord0 t).trans hg)]
  iapply ((kernelRunD c (grid0.coords t) _ _ _ _ hc1 hc2 hc3 hc4 (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact outD_eq c (grid0.coords t) _ _ _ _ hc1 hc2 hc3 hc4 (iblk m c 0 t) _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every array of the pipeline ends at what the library
    computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and leaves the activation as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The function both programs compute, as one formula per element.

  The activation is an array over (batch, channel, row, column) of extents (32, 64, 224, 224). Its 64 channels
  fall into four groups of sixteen; group g pools with square windows of side 1, 2, 4, 7. For an element at
  (b, c, h, w) in a group of side bs, the window is the bs × bs square of rows and columns that holds (h, w);
  its mean is taken, the mean's sign s becomes the gate (s + 1) · ½ ∈ {0, ½, 1}, and the result is the gate
  times the element itself.

  The two programs take the mean in two ways, which agree on finite inputs and are kept apart here:
    * `meanRC`  — each column of the window is summed over its rows and divided by bs, and the bs quotients
                   are summed and divided by bs again;
    * `meanSq`  — the window's bs² entries are summed (from 0) and divided once by bs².
  `viaRC` and `viaSq` are the whole arrays built from them, and `viaRC_eq_viaSq` (in the module that proves
  the algebra) says they coincide when every entry is a real number.
-/
import Idealize.ShloMosaic.PureOps.Ideal
import Idealize.ShloMosaic.PureOps.Ideal.Laws
import Idealize.ShloMosaic.Lib.ValueIdx

noncomputable section

namespace BlockGate

open Idealize.ShloMosaic Idealize.ShloMosaic.ValueIdx

/-- The activation's shape. -/
abbrev SA : Shape := ⟨4, ![32, 64, 224, 224]⟩

/-- Row (or column) number `i` of the window of side `bs` that holds row (or column) `h`: the window starts at
    the largest multiple of `bs` not above `h`. It lies inside the 224 rows because `bs` divides 224. -/
def win (bs : ℕ) (hb : bs ∣ 224) (h : Fin 224) (i : Fin bs) : Fin 224 :=
  ⟨h.val / bs * bs + i.val, by
    have hpos : 0 < bs := Nat.pos_of_ne_zero (by rintro rfl; exact absurd i.isLt (Nat.not_lt_zero _))
    obtain ⟨k, hk⟩ := hb
    have h1 : h.val / bs < k := Nat.div_lt_of_lt_mul (by rw [← hk]; exact h.isLt)
    calc h.val / bs * bs + i.val < h.val / bs * bs + bs := Nat.add_lt_add_left i.isLt _
      _ = (h.val / bs + 1) * bs := by ring
      _ ≤ k * bs := Nat.mul_le_mul_right _ h1
      _ = 224 := by rw [hk, Nat.mul_comm]⟩

theorem win_val (bs : ℕ) (hb : bs ∣ 224) (h : Fin 224) (i : Fin bs) : (win bs hb h i).val = h.val / bs * bs + i.val := rfl

/-- The gate of a mean: `(sign v + 1) · ½`, the constants the two programs' own words for `1.0` and `0.5`. -/
def gate (v : EReal) : EReal := (Ideal.sign v + Ideal.ofBits .f32 0x3F800000#32) * Ideal.ofBits .f32 0x3F000000#32

/-- The window mean taken rows first: over a plane `f` of 224 × 224 entries, each of the window's `bs` columns is
    summed over the window's rows and divided by `d`; the `bs` quotients are summed and divided by `d` again. -/
def meanRC (bs : ℕ) (hb : bs ∣ 224) (d : EReal) (f : Fin 224 → Fin 224 → EReal) (h w : Fin 224) : EReal :=
  Ideal.div (∑ j : Fin bs, Ideal.div (∑ i : Fin bs, f (win bs hb h i) (win bs hb w j)) d) d

/-- The window mean taken at once: `0` plus the sum of the window's `bs²` entries, divided by `d2`. -/
def meanSq (bs : ℕ) (hb : bs ∣ 224) (d2 : EReal) (f : Fin 224 → Fin 224 → EReal) (h w : Fin 224) : EReal :=
  Ideal.div (0 + ∑ p : Fin bs × Fin bs, f (win bs hb h p.1) (win bs hb w p.2)) d2

/-- The plane of batch entry `b`, channel `c`. -/
abbrev plane (x : SA.Idx → EReal) (b : Fin 32) (c : Fin 64) : Fin 224 → Fin 224 → EReal := fun h w => x (ix4 b c h w)

theorem d2 : 2 ∣ 224 := by decide
theorem d4 : 4 ∣ 224 := by decide
theorem d7 : 7 ∣ 224 := by decide

/-- One element of the result, the means taken rows first and the divisors the words for 2.0, 4.0, 7.0. -/
def elemRC (x : SA.Idx → EReal) (b : Fin 32) (c : Fin 64) (h w : Fin 224) : EReal :=
  if c.val < 16 then gate (x (ix4 b c h w)) * x (ix4 b c h w)
  else if c.val < 32 then gate (meanRC 2 d2 (Ideal.ofBits .f32 0x40000000#32) (plane x b c) h w) * x (ix4 b c h w)
  else if c.val < 48 then gate (meanRC 4 d4 (Ideal.ofBits .f32 0x40800000#32) (plane x b c) h w) * x (ix4 b c h w)
  else gate (meanRC 7 d7 (Ideal.ofBits .f32 0x40E00000#32) (plane x b c) h w) * x (ix4 b c h w)

/-- One element of the result, the means taken at once and the divisors the words for 4.0, 16.0, 49.0. -/
def elemSq (x : SA.Idx → EReal) (b : Fin 32) (c : Fin 64) (h w : Fin 224) : EReal :=
  if c.val < 16 then gate (x (ix4 b c h w)) * x (ix4 b c h w)
  else if c.val < 32 then gate (meanSq 2 d2 (Ideal.ofBits .f32 0x40800000#32) (plane x b c) h w) * x (ix4 b c h w)
  else if c.val < 48 then gate (meanSq 4 d4 (Ideal.ofBits .f32 0x41800000#32) (plane x b c) h w) * x (ix4 b c h w)
  else gate (meanSq 7 d7 (Ideal.ofBits .f32 0x42440000#32) (plane x b c) h w) * x (ix4 b c h w)

/-- The whole result, rows-first means. -/
def viaRC (x : SA.Idx → EReal) : SA.Idx → EReal := fun i => elemRC x (i 0) (i 1) (i 2) (i 3)

/-- The whole result, at-once means. -/
def viaSq (x : SA.Idx → EReal) : SA.Idx → EReal := fun i => elemSq x (i 0) (i 1) (i 2) (i 3)

theorem viaRC_apply (x : SA.Idx → EReal) (b : Fin 32) (c : Fin 64) (h w : Fin 224) :
    viaRC x (ix4 b c h w) = elemRC x b c h w := rfl

theorem viaSq_apply (x : SA.Idx → EReal) (b : Fin 32) (c : Fin 64) (h w : Fin 224) :
    viaSq x (ix4 b c h w) = elemSq x b c h w := rfl

end BlockGate

end
-- ==== Proof.PayValue.lean ====
/-
  What the idealized kernel's body stores, read at an index of the block (1, 16, 224, 224): for the group of side 1
  the gate of the entry times the entry; for sides 2, 4, 7 the gate of the window's mean — rows summed and divided
  first, then columns — times the entry.
-/
import proofs.«112623_j79972291051870_1_alg».proof.Proof.Gen.KernelIdeal.Skeleton
import proofs.«112623_j79972291051870_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx BlockGate

/-- The plane of channel `n` of a block. -/
abbrev bplane (x0 : Vec Ideal S1x16x224x224 .f32) (n : Fin 16) : Fin 224 → Fin 224 → EReal :=
  fun h w => x0 (ix4 (0 : Fin 1) n h w)

/-! ## Each re-laying operation read at an index given by coordinates

A window of side `bs` cuts the `R = hp * bs` rows into `hp` groups: row `r` is number `i` of group `p` when
`r = p * bs + i`. The arrays below have a leading channel axis `m`. -/

section Layout
variable {α : Type}

/-- An `[m, R, W]` array viewed `[m, hp, bs, W]` (with `R = hp * bs`) reads, at `(k, p, i, w)`, row `p * bs + i`. -/
private theorem cast_split_apply {m R W hp bs : ℕ} (x : (⟨3, ![m, R, W]⟩ : Shape).Idx → α)
    (h : (⟨3, ![m, R, W]⟩ : Shape).ShapeCasts ⟨4, ![m, hp, bs, W]⟩)
    (k : Fin m) (p : Fin hp) (i : Fin bs) (w : Fin W) (r : Fin R) (hR : R = hp * bs) (hr : r.val = p.val * bs + i.val) :
    shapeCast ⟨4, ![m, hp, bs, W]⟩ x h (ix4 k p i w) = x (ix3 k r w) :=
  shapeCast_apply x h _ _ (by
    rw [Shape.rowMajor_val_three, Shape.rowMajor_val_four]
    show (k.val * R + r.val) * W + w.val = ((k.val * hp + p.val) * bs + i.val) * W + w.val
    rw [hr, hR]; ring)

/-- An `[m, hp, bs, W]` array viewed `[m, R, W]` reads, at `(k, r, w)` with `r = p * bs + i`, the entry `(k, p, i, w)`. -/
private theorem cast_merge_apply {m R W hp bs : ℕ} (x : (⟨4, ![m, hp, bs, W]⟩ : Shape).Idx → α)
    (h : (⟨4, ![m, hp, bs, W]⟩ : Shape).ShapeCasts ⟨3, ![m, R, W]⟩)
    (k : Fin m) (r : Fin R) (w : Fin W) (p : Fin hp) (i : Fin bs) (hR : R = hp * bs) (hr : r.val = p.val * bs + i.val) :
    shapeCast ⟨3, ![m, R, W]⟩ x h (ix3 k r w) = x (ix4 k p i w) :=
  shapeCast_apply x h _ _ (by
    rw [Shape.rowMajor_val_three, Shape.rowMajor_val_four]
    show ((k.val * hp + p.val) * bs + i.val) * W + w.val = (k.val * R + r.val) * W + w.val
    rw [hr, hR]; ring)

/-- An `[m, a, b]` array viewed `[m, a, 1, b]` reads, at `(k, p, u, c)`, the entry `(k, p, c)`. -/
private theorem cast_unit2_apply {m a b : ℕ} (x : (⟨3, ![m, a, b]⟩ : Shape).Idx → α)
    (h : (⟨3, ![m, a, b]⟩ : Shape).ShapeCasts ⟨4, ![m, a, 1, b]⟩) (k : Fin m) (p : Fin a) (u : Fin 1) (c : Fin b) :
    shapeCast ⟨4, ![m, a, 1, b]⟩ x h (ix4 k p u c) = x (ix3 k p c) :=
  shapeCast_apply x h _ _ (by
    have hu : u.val = 0 := by omega
    rw [Shape.rowMajor_val_three, Shape.rowMajor_val_four]
    show (k.val * a + p.val) * b + c.val = ((k.val * a + p.val) * 1 + u.val) * b + c.val
    rw [hu, Nat.mul_one, Nat.add_zero])

/-- An `[m, a, 1, b]` array repeated along its unit axis to `[m, a, bs, b]` reads, at `(k, p, i, c)`, the entry
`(k, p, 0, c)`. -/
private theorem bcast_unit2_apply {m a bs b : ℕ} (x : (⟨4, ![m, a, 1, b]⟩ : Shape).Idx → α)
    (h : (⟨4, ![m, a, 1, b]⟩ : Shape).Broadcasts ⟨4, ![m, a, bs, b]⟩) (k : Fin m) (p : Fin a) (i : Fin bs) (c : Fin b) :
    broadcastTo ⟨4, ![m, a, bs, b]⟩ x h (ix4 k p i c) = x (ix4 k p (0 : Fin 1) c) := by
  refine broadcastTo_apply x h (ix4 k p i c) (ix4 k p (0 : Fin 1) c) fun ax => ?_
  match ax with
  | ⟨0, _⟩ =>
    show k.val = if m = 1 then 0 else k.val
    split
    · have := k.isLt; omega
    · rfl
  | ⟨1, _⟩ =>
    show p.val = if a = 1 then 0 else p.val
    split
    · have := p.isLt; omega
    · rfl
  | ⟨2, _⟩ => rfl
  | ⟨3, _⟩ =>
    show c.val = if b = 1 then 0 else c.val
    split
    · have := c.isLt; omega
    · rfl

/-- The index over `(k, p, c)` with `i` put on the summed axis is `(k, p, i, c)`. -/
private theorem lift_axis2 {m a bs b : ℕ} (h : (⟨4, ![m, a, bs, b]⟩ : Shape).Reduces [2] ⟨3, ![m, a, b]⟩)
    (k : Fin m) (p : Fin a) (c : Fin b) (i : Fin bs) : h.lift (ix3 k p c) i = ix4 k p i c := by
  funext ax
  match ax with
  | ⟨0, _⟩ => rfl
  | ⟨1, _⟩ => rfl
  | ⟨2, _⟩ => rfl
  | ⟨3, _⟩ => rfl

end Layout

/-- A sum over axis 2 of an `[m, a, bs, b]` array reads, at `(k, p, c)`, the sum over `i` of the entries `(k, p, i, c)`. -/
private theorem sum_axis2_apply {m a bs b : ℕ} (src : FVec Ideal ⟨4, ![m, a, bs, b]⟩ .f32)
    (h : (⟨4, ![m, a, bs, b]⟩ : Shape).Reduces [2] ⟨3, ![m, a, b]⟩) (hφ : FKind.Formats .f32)
    (hacc : (0x00000000#32 : BitVec 32) = FKind.add.neutral .f32 hφ) (k : Fin m) (p : Fin a) (c : Fin b) :
    multiReduction (F := Ideal) .add [2] ⟨3, ![m, a, b]⟩ src 0x00000000#32 h hφ hacc (ix3 k p c)
      = ∑ i : Fin bs, src (ix4 k p i c) := by
  refine (Ideal.multiReduction_add_single src 0x00000000#32 h hφ hacc (ix3 k p c)).trans ?_
  exact Finset.sum_congr rfl fun i _ => congrArg src (lift_axis2 h k p c i)

/-! ## The gate of an array, and the block without its unit axis -/

/-- The sign of an array as the body spells it (`1` carrying the entry's sign where the entry is not zero, else the
entry), plus one, times a half: at each index the gate of the entry. -/
private theorem gate_apply {s : Shape} (v : FVec Ideal s .f32) (i : s.Idx) :
    mulf (addf (select (cmpf .ogt (absf v) (broadcast s (Scalar.ofBits (F := Ideal) .f32 0x00000000#32)))
        (select (cmpf .olt v (constant (F := Ideal) s .f32 0x00000000#32)) (constant (F := Ideal) s .f32 0xBF800000#32)
          (constant (F := Ideal) s .f32 0x3F800000#32)) v)
      (broadcast s (Scalar.ofBits (F := Ideal) .f32 0x3F800000#32)))
      (broadcast s (Scalar.ofBits (F := Ideal) .f32 0x3F000000#32)) i = gate (v i) := by
  show _ = (Ideal.sign (v i) + Ideal.ofBits .f32 0x3F800000#32) * Ideal.ofBits .f32 0x3F000000#32
  rw [← Ideal.jnp_sign_eq_sign_f32 (v i)]
  rfl

/-- The block `(1, 16, 224, 224)` viewed `(16, 224, 224)` reads, at `(n, h, w)`, the block at `(0, n, h, w)`. -/
private theorem pay1_apply (x0 : Vec Ideal S1x16x224x224 .f32) (n : Fin 16) (h w : Fin 224) :
    k0_pay1 (F := Ideal) x0 (ix3 n h w) = x0 (ix4 (0 : Fin 1) n h w) := by
  unfold k0_pay1
  exact shapeCast_1abc_abc_apply _ _ n h w

/-! ## Side 1: the gate of the entry itself -/

theorem pay2_apply (x0 : Vec Ideal S1x16x224x224 .f32) (n : Fin 16) (h w : Fin 224) :
    k0_pay2 (F := Ideal) x0 (ix4 (0 : Fin 1) n h w) = gate (x0 (ix4 (0 : Fin 1) n h w)) * x0 (ix4 (0 : Fin 1) n h w) := by
  unfold k0_pay2
  refine (shapeCast_abc_1abc_apply _ _ (0 : Fin 1) n h w).trans ?_
  refine (mulf_apply _ _ _).trans ?_
  exact congrArg₂ (· * ·) ((gate_apply _ _).trans (congrArg gate (pay1_apply x0 n h w))) (pay1_apply x0 n h w)

/-! ## Sides 2, 4, 7: the gate of the window's mean

The body cuts the rows into windows, sums each window's rows and divides; turns the array so that columns become
rows, and does the same to them; gates the pooled array; and spreads each gate back over its window's columns and
rows by the inverse re-layings. Read at `(n, h, w)`, the spread gate is the pooled gate at window
`(w / bs, h / bs)`, whose two means run over the rows `(h / bs) * bs + i` and the columns `(w / bs) * bs + j`. -/

theorem pay3_apply (x0 : Vec Ideal S1x16x224x224 .f32) (n : Fin 16) (h w : Fin 224) :
    k0_pay3 (F := Ideal) x0 (ix4 (0 : Fin 1) n h w)
      = gate (meanRC 2 d2 (Ideal.ofBits .f32 0x40000000#32) (bplane x0 n) h w) * x0 (ix4 (0 : Fin 1) n h w) := by
  -- the window numbers of row `h` and column `w` (112 windows of side 2), and their places inside the windows
  have hq : h.val / 2 < 112 := by have := h.isLt; omega
  have wq : w.val / 2 < 112 := by have := w.isLt; omega
  have hm : h.val % 2 < 2 := Nat.mod_lt _ (by decide)
  have wm : w.val % 2 < 2 := Nat.mod_lt _ (by decide)
  unfold k0_pay3
  -- the product with the entry, the unit axis dropped
  refine (shapeCast_abc_1abc_apply _ _ (0 : Fin 1) n h w).trans ?_
  refine (mulf_apply _ _ _).trans ?_
  refine congrArg₂ (· * ·) ?_ (pay1_apply x0 n h w)
  -- the gate array spread back over the rows: row `h` reads window `h / 2`
  refine (cast_merge_apply _ _ n h w ⟨h.val / 2, hq⟩ ⟨h.val % 2, hm⟩ rfl (Nat.div_add_mod' h.val 2).symm).trans ?_
  refine (bcast_unit2_apply _ _ n ⟨h.val / 2, hq⟩ ⟨h.val % 2, hm⟩ w).trans ?_
  refine (congrFun (shapeCast_self _ _) _).trans ?_
  refine (cast_unit2_apply _ _ n ⟨h.val / 2, hq⟩ (0 : Fin 1) w).trans ?_
  refine (transpose_ix3_021_apply _ _ n ⟨h.val / 2, hq⟩ w).trans ?_
  -- and over the columns: column `w` reads window `w / 2`
  refine (cast_merge_apply _ _ n w ⟨h.val / 2, hq⟩ ⟨w.val / 2, wq⟩ ⟨w.val % 2, wm⟩ rfl (Nat.div_add_mod' w.val 2).symm).trans ?_
  refine (bcast_unit2_apply _ _ n ⟨w.val / 2, wq⟩ ⟨w.val % 2, wm⟩ ⟨h.val / 2, hq⟩).trans ?_
  refine (congrFun (shapeCast_self _ _) _).trans ?_
  refine (cast_unit2_apply _ _ n ⟨w.val / 2, wq⟩ (0 : Fin 1) ⟨h.val / 2, hq⟩).trans ?_
  -- the gate of the pooled value
  refine (gate_apply _ _).trans (congrArg gate ?_)
  show _ = Ideal.div (∑ j : Fin 2, Ideal.div (∑ i : Fin 2, bplane x0 n (win 2 d2 h i) (win 2 d2 w j))
    (Ideal.ofBits .f32 0x40000000#32)) (Ideal.ofBits .f32 0x40000000#32)
  -- the second mean: over the window's columns
  refine (divf_apply _ _ _).trans (congrArg₂ Ideal.div ?_ rfl)
  refine (sum_axis2_apply _ _ _ _ n ⟨w.val / 2, wq⟩ ⟨h.val / 2, hq⟩).trans (Finset.sum_congr rfl fun j _ => ?_)
  refine (cast_split_apply _ _ n ⟨w.val / 2, wq⟩ j ⟨h.val / 2, hq⟩ (win 2 d2 w j) rfl (win_val 2 d2 w j)).trans ?_
  refine (transpose_ix3_021_apply _ _ n (win 2 d2 w j) ⟨h.val / 2, hq⟩).trans ?_
  -- the first mean: over the window's rows
  refine (divf_apply _ _ _).trans (congrArg₂ Ideal.div ?_ rfl)
  refine (sum_axis2_apply _ _ _ _ n ⟨h.val / 2, hq⟩ (win 2 d2 w j)).trans (Finset.sum_congr rfl fun i _ => ?_)
  refine (cast_split_apply _ _ n ⟨h.val / 2, hq⟩ i (win 2 d2 w j) (win 2 d2 h i) rfl (win_val 2 d2 h i)).trans ?_
  exact pay1_apply x0 n (win 2 d2 h i) (win 2 d2 w j)

theorem pay4_apply (x0 : Vec Ideal S1x16x224x224 .f32) (n : Fin 16) (h w : Fin 224) :
    k0_pay4 (F := Ideal) x0 (ix4 (0 : Fin 1) n h w)
      = gate (meanRC 4 d4 (Ideal.ofBits .f32 0x40800000#32) (bplane x0 n) h w) * x0 (ix4 (0 : Fin 1) n h w) := by
  -- the window numbers of row `h` and column `w` (56 windows of side 4), and their places inside the windows
  have hq : h.val / 4 < 56 := by have := h.isLt; omega
  have wq : w.val / 4 < 56 := by have := w.isLt; omega
  have hm : h.val % 4 < 4 := Nat.mod_lt _ (by decide)
  have wm : w.val % 4 < 4 := Nat.mod_lt _ (by decide)
  unfold k0_pay4
  -- the product with the entry, the unit axis dropped
  refine (shapeCast_abc_1abc_apply _ _ (0 : Fin 1) n h w).trans ?_
  refine (mulf_apply _ _ _).trans ?_
  refine congrArg₂ (· * ·) ?_ (pay1_apply x0 n h w)
  -- the gate array spread back over the rows: row `h` reads window `h / 4`
  refine (cast_merge_apply _ _ n h w ⟨h.val / 4, hq⟩ ⟨h.val % 4, hm⟩ rfl (Nat.div_add_mod' h.val 4).symm).trans ?_
  refine (bcast_unit2_apply _ _ n ⟨h.val / 4, hq⟩ ⟨h.val % 4, hm⟩ w).trans ?_
  refine (congrFun (shapeCast_self _ _) _).trans ?_
  refine (cast_unit2_apply _ _ n ⟨h.val / 4, hq⟩ (0 : Fin 1) w).trans ?_
  refine (transpose_ix3_021_apply _ _ n ⟨h.val / 4, hq⟩ w).trans ?_
  -- and over the columns: column `w` reads window `w / 4`
  refine (cast_merge_apply _ _ n w ⟨h.val / 4, hq⟩ ⟨w.val / 4, wq⟩ ⟨w.val % 4, wm⟩ rfl (Nat.div_add_mod' w.val 4).symm).trans ?_
  refine (bcast_unit2_apply _ _ n ⟨w.val / 4, wq⟩ ⟨w.val % 4, wm⟩ ⟨h.val / 4, hq⟩).trans ?_
  refine (congrFun (shapeCast_self _ _) _).trans ?_
  refine (cast_unit2_apply _ _ n ⟨w.val / 4, wq⟩ (0 : Fin 1) ⟨h.val / 4, hq⟩).trans ?_
  -- the gate of the pooled value
  refine (gate_apply _ _).trans (congrArg gate ?_)
  show _ = Ideal.div (∑ j : Fin 4, Ideal.div (∑ i : Fin 4, bplane x0 n (win 4 d4 h i) (win 4 d4 w j))
    (Ideal.ofBits .f32 0x40800000#32)) (Ideal.ofBits .f32 0x40800000#32)
  -- the second mean: over the window's columns
  refine (divf_apply _ _ _).trans (congrArg₂ Ideal.div ?_ rfl)
  refine (sum_axis2_apply _ _ _ _ n ⟨w.val / 4, wq⟩ ⟨h.val / 4, hq⟩).trans (Finset.sum_congr rfl fun j _ => ?_)
  refine (cast_split_apply _ _ n ⟨w.val / 4, wq⟩ j ⟨h.val / 4, hq⟩ (win 4 d4 w j) rfl (win_val 4 d4 w j)).trans ?_
  refine (transpose_ix3_021_apply _ _ n (win 4 d4 w j) ⟨h.val / 4, hq⟩).trans ?_
  -- the first mean: over the window's rows
  refine (divf_apply _ _ _).trans (congrArg₂ Ideal.div ?_ rfl)
  refine (sum_axis2_apply _ _ _ _ n ⟨h.val / 4, hq⟩ (win 4 d4 w j)).trans (Finset.sum_congr rfl fun i _ => ?_)
  refine (cast_split_apply _ _ n ⟨h.val / 4, hq⟩ i (win 4 d4 w j) (win 4 d4 h i) rfl (win_val 4 d4 h i)).trans ?_
  exact pay1_apply x0 n (win 4 d4 h i) (win 4 d4 w j)

theorem pay5_apply (x0 : Vec Ideal S1x16x224x224 .f32) (n : Fin 16) (h w : Fin 224) :
    k0_pay5 (F := Ideal) x0 (ix4 (0 : Fin 1) n h w)
      = gate (meanRC 7 d7 (Ideal.ofBits .f32 0x40E00000#32) (bplane x0 n) h w) * x0 (ix4 (0 : Fin 1) n h w) := by
  -- the window numbers of row `h` and column `w` (32 windows of side 7), and their places inside the windows
  have hq : h.val / 7 < 32 := by have := h.isLt; omega
  have wq : w.val / 7 < 32 := by have := w.isLt; omega
  have hm : h.val % 7 < 7 := Nat.mod_lt _ (by decide)
  have wm : w.val % 7 < 7 := Nat.mod_lt _ (by decide)
  unfold k0_pay5
  -- the product with the entry, the unit axis dropped
  refine (shapeCast_abc_1abc_apply _ _ (0 : Fin 1) n h w).trans ?_
  refine (mulf_apply _ _ _).trans ?_
  refine congrArg₂ (· * ·) ?_ (pay1_apply x0 n h w)
  -- the gate array spread back over the rows: row `h` reads window `h / 7`
  refine (cast_merge_apply _ _ n h w ⟨h.val / 7, hq⟩ ⟨h.val % 7, hm⟩ rfl (Nat.div_add_mod' h.val 7).symm).trans ?_
  refine (bcast_unit2_apply _ _ n ⟨h.val / 7, hq⟩ ⟨h.val % 7, hm⟩ w).trans ?_
  refine (congrFun (shapeCast_self _ _) _).trans ?_
  refine (cast_unit2_apply _ _ n ⟨h.val / 7, hq⟩ (0 : Fin 1) w).trans ?_
  refine (transpose_ix3_021_apply _ _ n ⟨h.val / 7, hq⟩ w).trans ?_
  -- and over the columns: column `w` reads window `w / 7`
  refine (cast_merge_apply _ _ n w ⟨h.val / 7, hq⟩ ⟨w.val / 7, wq⟩ ⟨w.val % 7, wm⟩ rfl (Nat.div_add_mod' w.val 7).symm).trans ?_
  refine (bcast_unit2_apply _ _ n ⟨w.val / 7, wq⟩ ⟨w.val % 7, wm⟩ ⟨h.val / 7, hq⟩).trans ?_
  refine (congrFun (shapeCast_self _ _) _).trans ?_
  refine (cast_unit2_apply _ _ n ⟨w.val / 7, wq⟩ (0 : Fin 1) ⟨h.val / 7, hq⟩).trans ?_
  -- the gate of the pooled value
  refine (gate_apply _ _).trans (congrArg gate ?_)
  show _ = Ideal.div (∑ j : Fin 7, Ideal.div (∑ i : Fin 7, bplane x0 n (win 7 d7 h i) (win 7 d7 w j))
    (Ideal.ofBits .f32 0x40E00000#32)) (Ideal.ofBits .f32 0x40E00000#32)
  -- the second mean: over the window's columns
  refine (divf_apply _ _ _).trans (congrArg₂ Ideal.div ?_ rfl)
  refine (sum_axis2_apply _ _ _ _ n ⟨w.val / 7, wq⟩ ⟨h.val / 7, hq⟩).trans (Finset.sum_congr rfl fun j _ => ?_)
  refine (cast_split_apply _ _ n ⟨w.val / 7, wq⟩ j ⟨h.val / 7, hq⟩ (win 7 d7 w j) rfl (win_val 7 d7 w j)).trans ?_
  refine (transpose_ix3_021_apply _ _ n (win 7 d7 w j) ⟨h.val / 7, hq⟩).trans ?_
  -- the first mean: over the window's rows
  refine (divf_apply _ _ _).trans (congrArg₂ Ideal.div ?_ rfl)
  refine (sum_axis2_apply _ _ _ _ n ⟨h.val / 7, hq⟩ (win 7 d7 w j)).trans (Finset.sum_congr rfl fun i _ => ?_)
  refine (cast_split_apply _ _ n ⟨h.val / 7, hq⟩ i (win 7 d7 w j) (win 7 d7 h i) rfl (win_val 7 d7 h i)).trans ?_
  exact pay1_apply x0 n (win 7 d7 h i) (win 7 d7 w j)

end Cert.KernelIdeal.Hand

end
-- ==== Proof.KernelValue.lean ====
/-
  The idealized kernel's result array: block (group g, batch entry b) of the output is what the body stored at that
  grid point, the blocks tile the array, and read index by index the array is the specification with the means taken
  rows first.
-/
import proofs.«112623_j79972291051870_1_alg».proof.Proof.KIFrame
import proofs.«112623_j79972291051870_1_alg».proof.Proof.PayValue
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem BlockGate

section Blocks

variable (m : (ℓ : Loc nD τ sig) → Buf (Elt Ideal) ℓ)

/-- Where point `t` of the 4 × 32 grid sits: its group is `t / 32`, its batch entry `t % 32`; both windows' block
    index there is (batch entry, group, 0, 0). -/
theorem block_index : ∀ t : Fin cfg0.N,
      win0_0.index t (0 : Fin 4) = t.val % 32 ∧ win0_0.index t (1 : Fin 4) = t.val / 32
    ∧ win0_0.index t (2 : Fin 4) = 0 ∧ win0_0.index t (3 : Fin 4) = 0
    ∧ win0_1.index t (0 : Fin 4) = t.val % 32 ∧ win0_1.index t (1 : Fin 4) = t.val / 32
    ∧ win0_1.index t (2 : Fin 4) = 0 ∧ win0_1.index t (3 : Fin 4) = 0
    ∧ ((grid0.coords t) (0 : Fin 2)).val = t.val / 32 :=
  (by decide +kernel : ∀ t : Fin grid0.N, _)

/-- One stored element. At a grid point of group `g = i 0`, if the block `x0` is channels `16g … 16g + 15` of batch
    entry `b` of an array `x` (read on the whole plane of channel `n`, since a window mean looks at the neighbours),
    then what is stored at (0, n, h, w) is the specification's element of `x` at (b, 16g + n, h, w): the group picks
    the pooling side on both sides, and the block's plane is the array's. -/
theorem stored_elem (i : grid0.Coords) (x0 : Vec Ideal S1x16x224x224 .f32) (x : SA.Idx → EReal)
    (b : Fin 32) (cc : Fin 64) (n : Fin 16) (h w : Fin 224)
    (hg : cc.val = 16 * (i 0).val + n.val)
    (hx : ∀ h' w' : Fin 224, x0 (ix4 (0 : Fin 1) n h' w') = x (ix4 b cc h' w')) :
    payAt i x0 (ix4 (0 : Fin 1) n h w) = elemRC x b cc h w := by
  have hi : (i 0).val < 4 := (i 0).isLt
  have hp : bplane x0 n = plane x b cc := funext fun h' => funext fun w' => hx h' w'
  unfold payAt elemRC
  by_cases h0 : (i 0).val = 0
  · rw [if_pos h0, if_pos (by omega), pay2_apply, hx]
  · by_cases h1 : (i 0).val = 1
    · rw [if_neg h0, if_pos h1, if_neg (by omega), if_pos (by omega), pay3_apply, hp, hx]
    · by_cases h2 : (i 0).val = 2
      · rw [if_neg h0, if_neg h1, if_pos h2, if_neg (by omega), if_neg (by omega), if_pos (by omega), pay4_apply,
          hp, hx]
      · rw [if_neg h0, if_neg h1, if_neg h2, if_neg (by omega), if_neg (by omega), if_neg (by omega), pay5_apply,
          hp, hx]

/-- The same at a block index `y` and an array index `k` given by their coordinates: `k` is `y` moved by sixteen
    channels per group, and the block agrees with the array at every such pair in `k`'s batch entry. -/
theorem stored_at (i : grid0.Coords) (x0 : Vec Ideal S1x16x224x224 .f32) (x : SA.Idx → EReal)
    (y : S1x16x224x224.Idx) (k : SA.Idx)
    (hk1 : (k 1).val = 16 * (i 0).val + (y 1).val) (hk2 : (k 2).val = (y 2).val) (hk3 : (k 3).val = (y 3).val)
    (hx : ∀ (y' : S1x16x224x224.Idx) (k' : SA.Idx), (k' 0).val = (k 0).val → (k' 1).val = 16 * (i 0).val + (y' 1).val
        → (k' 2).val = (y' 2).val → (k' 3).val = (y' 3).val → x0 y' = x k') :
    payAt i x0 y = viaRC x k := by
  obtain ⟨y0, y1, y2, y3, rfl⟩ : ∃ (y0 : Fin 1) (y1 : Fin 16) (y2 y3 : Fin 224), y = ix4 y0 y1 y2 y3 :=
    ⟨y 0, y 1, y 2, y 3, eq_ix4 y⟩
  obtain ⟨k0, k1, k2, k3, rfl⟩ : ∃ (k0 : Fin 32) (k1 : Fin 64) (k2 k3 : Fin 224), k = ix4 k0 k1 k2 k3 :=
    ⟨k 0, k 1, k 2, k 3, eq_ix4 k⟩
  have hk1' : k1.val = 16 * (i 0).val + y1.val := hk1
  obtain rfl : y0 = (0 : Fin 1) := Fin.ext (by have := y0.isLt; omega)
  obtain rfl : k2 = y2 := Fin.ext hk2
  obtain rfl : k3 = y3 := Fin.ext hk3
  rw [viaRC_apply]
  exact stored_elem i x0 x k0 k1 y1 k2 k3 hk1' fun h' w' => hx _ _ rfl hk1' rfl rfl

/-- What point `t` writes back is block `t` of the specification of the activation: an element of the output's block
    sits in the array at block index × block size + its own coordinate on each axis, the input's block sits at the
    same place, and there the stored value is the specification's. -/
theorem written_back (c : Dev nD) (t : Fin cfg0.N) :
    (dats m 0 c).flushed 1 t = ((cfg0.win 1).blk t).view.read (Elt Ideal) (viaRC (V m c main_arg0)) := by
  show (cfg0.win 1).cut (grid0.coords t) ((dats m 0 c).after 1 t) = _
  rw [after0_1]
  funext j
  obtain ⟨a0, a1, a2, a3, b0, b1, b2, b3, g0⟩ := block_index t
  have hj0 : (j 0).val < 1 := (j 0).isLt
  have hj1 : (j 1).val < 16 := (j 1).isLt
  have hj2 : (j 2).val < 224 := (j 2).isLt
  have hj3 : (j 3).val < 224 := (j 3).isLt
  show payAt (grid0.coords t) (iblk m c 0 t) ((cfg0.win 1).xinj (grid0.coords t) j)
      = viaRC (V m c main_arg0) (((cfg0.win 1).blk t).view.emb j)
  refine stored_at (grid0.coords t) (iblk m c 0 t) (V m c main_arg0) ((cfg0.win 1).xinj (grid0.coords t) j)
    (((cfg0.win 1).blk t).view.emb j) ?_ ?_ ?_ ?_
  · show win0_1.index t (1 : Fin 4) * 16 + 1 * (j 1).val = 16 * ((grid0.coords t) (0 : Fin 2)).val + (j 1).val
    omega
  · show win0_1.index t (2 : Fin 4) * 224 + 1 * (j 2).val = (j 2).val
    omega
  · show win0_1.index t (3 : Fin 4) * 224 + 1 * (j 3).val = (j 3).val
    omega
  · intro y' k' e0 e1 e2 e3
    have e0' : (k' 0).val = win0_1.index t (0 : Fin 4) * 1 + 1 * (j 0).val := e0
    have hy0 : (y' 0).val < 1 := (y' 0).isLt
    show V m c main_arg0 (((cfg0.win 0).blk t).view.emb y') = V m c main_arg0 k'
    refine congrArg _ ?_
    funext a
    apply Fin.ext
    match a with
    | ⟨0, _⟩ => show win0_0.index t (0 : Fin 4) * 1 + 1 * (y' 0).val = (k' 0).val; omega
    | ⟨1, _⟩ => show win0_0.index t (1 : Fin 4) * 16 + 1 * (y' 1).val = (k' 1).val; omega
    | ⟨2, _⟩ => show win0_0.index t (2 : Fin 4) * 224 + 1 * (y' 2).val = (k' 2).val; omega
    | ⟨3, _⟩ => show win0_0.index t (3 : Fin 4) * 224 + 1 * (y' 3).val = (k' 3).val; omega

/-- An index of the array lies in point `t`'s output block iff on each axis its coordinate lies in the block's range. -/
theorem mem_block (t : Fin cfg0.N) (i : SA.Idx) :
    i ∈ ((cfg0.win 1).blk t).view.set ↔ ∀ a : Fin 4, win0_1.index t a * S1x16x224x224.size a ≤ (i a).val
      ∧ (i a).val < win0_1.index t a * S1x16x224x224.size a + S1x16x224x224.size a := by
  show i ∈ ((View.whole main_v0).slice (win0_1.rect t)).set ↔ _
  rw [View.set_slice_whole, Rect.mem_set_unit]
  exact Iff.rfl

/-- The 128 blocks tile the array: the index (b, c, h, w) lies in the block of the point of group `c / 16` and batch
    entry `b`, which is point `32 · (c / 16) + b`; every point writes its block back. -/
theorem blocks_tile (i : SA.Idx) :
    ∃ t : Fin cfg0.N, (cfg0.win 1).flush t = true ∧ i ∈ ((cfg0.win 1).blk t).view.set := by
  have hi0 : (i 0).val < 32 := (i 0).isLt
  have hi1 : (i 1).val < 64 := (i 1).isLt
  have hi2 : (i 2).val < 224 := (i 2).isLt
  have hi3 : (i 3).val < 224 := (i 3).isLt
  obtain ⟨t, ht⟩ : ∃ t : Fin cfg0.N, t.val = 32 * ((i 1).val / 16) + (i 0).val :=
    ⟨⟨32 * ((i 1).val / 16) + (i 0).val, by rw [show cfg0.N = 128 from N_0]; omega⟩, rfl⟩
  obtain ⟨a0, a1, a2, a3, b0, b1, b2, b3, g0⟩ := block_index t
  refine ⟨t, flush0_1 t, ?_⟩
  rw [mem_block]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 16 ≤ (i 1).val ∧ (i 1).val < win0_1.index t (1 : Fin 4) * 16 + 16
    omega
  | ⟨2, _⟩ =>
    show win0_1.index t (2 : Fin 4) * 224 ≤ (i 2).val ∧ (i 2).val < win0_1.index t (2 : Fin 4) * 224 + 224
    omega
  | ⟨3, _⟩ =>
    show win0_1.index t (3 : Fin 4) * 224 ≤ (i 3).val ∧ (i 3).val < win0_1.index t (3 : Fin 4) * 224 + 224
    omega

/-- So after the last point the output array is the specification of the activation: every point writes its block
    of it, and the blocks cover every index. -/
theorem result_array (c : Dev nD) : (dats m 0 c).arrAt 1 cfg0.N = viaRC (V m c main_arg0) :=
  (dats m 0 c).arrAt_eq_of_cover 1 (viaRC (V m c main_arg0)) (fun t _ => written_back m c t) blocks_tile

end Blocks

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = viaRC (m ((c.tc : Thread nD τ).loc main_arg0))
      ∧ r.2.mem ((c.tc : Thread nD τ).loc main_arg0) = m ((c.tc : Thread nD τ).loc main_arg0)) :=
  (θ_run defs _ _).mono (fun r h c => ⟨((h c).1 1).trans (result_array m c),
      ((h c).1 0).trans (((dats m 0 c).arrAt_in 0 rfl _).trans ((A_eq m c 0).trans (V_main_arg0 m c)))⟩)
    (run_main (F := Ideal) m ρ)

end Cert.KernelIdeal.Hand

end
-- ==== Proof.RefTerm.lean ====
/-
  The reference program's result, named stage by stage.

  The reference treats the four channel groups one after the other. For the group whose sixteen channel numbers are
  the table `lit`, it takes those channels out of the activation (`take`), forms the gate of each pooling window's
  mean (for side 1 the gate of the entry itself), repeats every gate over its window (`spread2`, `spread4`,
  `spread7`), and writes the sixteen channels of gates into an array of zeros at the same channel numbers (`put`).
  The result is that array of gates times the activation, entry by entry (`refOut`).
-/
import proofs.«112623_j79972291051870_1_alg».proof.ReferenceIdeal

noncomputable section

namespace Cert.ReferenceIdeal.Hand

open Cert.ReferenceIdeal Cert.ReferenceIdeal.Facts₀ Idealize.ShloMosaic

variable {F : FTy → Type} [FloatOps F] [Cert.ReferenceIdeal.Facts]

/-- A group's channel numbers as the column of start indices the gather and the scatter read: the table itself
    (the `select` keeps the table wherever its mask, all false, is clear). -/
def chanCol (lit : Fin 16 → BitVec 32) : IVec S16x1 32 :=
  broadcastInDim S16x1 ![0] bcast_S16_S16x1_0
    (select (constantI S16 1 0#1)
      (addi (fun i => lit (S16.rowMajor i)) (broadcastInDim S16 ![] bcast_S_S16 (constantI S_ 32 64#32)))
      (fun i => lit (S16.rowMajor i)))

/-- The group's sixteen channels of the activation. -/
def take (lit : Fin 16 → BitVec 32) (x : FVec F S32x64x224x224 .f32) : FVec F S32x16x224x224 .f32 :=
  Host.gather gather_S32x64x224x224_S16x1_S32x16x224x224_023_1_n_n_1_1_321224224 x (chanCol lit)

/-- The gate `(sign v + 1) · ½`, entry by entry. -/
def gateOf {s : Shape} (hb : S_.BroadcastsInDim s (![] : Fin 0 → Fin s.rank)) (v : FVec F s .f32) : FVec F s .f32 :=
  mulf (addf (Host.sign v) (broadcastInDim s ![] hb (constant S_ .f32 0x3F800000#32)))
    (broadcastInDim s ![] hb (constant S_ .f32 0x3F000000#32))

/-- Side 1: the gate of each entry. -/
def gates1 (x : FVec F S32x64x224x224 .f32) : FVec F S32x16x224x224 .f32 :=
  gateOf bcast_S_S32x16x224x224 (take lit0 x)

/-- Side 2: each 2 × 2 window's entries summed from zero, divided by 4.0, gated; then every gate repeated over its
    window's two rows and two columns. -/
def gates2 (x : FVec F S32x64x224x224 .f32) : FVec F S32x16x224x224 .f32 :=
  shapeCast S32x16x224x224
    (broadcastInDim S32x16x224x112x2 ![0, 1, 2, 3] bcast_S32x16x224x112_S32x16x224x112x2_0_1_2_3
      (shapeCast S32x16x224x112
        (broadcastInDim S32x16x112x2x112 ![0, 1, 2, 4] bcast_S32x16x112x112_S32x16x112x2x112_0_1_2_4
          (gateOf bcast_S_S32x16x112x112
            (Host.divf
              (Host.reduceAdd (shapeCast S32x16x112x2x112x2 (take lit1 x) shapeCasts_S32x16x224x224_S32x16x112x2x112x2)
                (constant S_ .f32 0x00000000#32) reducesTo_S32x16x112x2x112x2_S32x16x112x112_d3_5 h_S_)
              (broadcastInDim S32x16x112x112 ![] bcast_S_S32x16x112x112 (constant S_ .f32 0x40800000#32)))))
        shapeCasts_S32x16x112x2x112_S32x16x224x112))
    shapeCasts_S32x16x224x112x2_S32x16x224x224

/-- Side 4: the same with 4 × 4 windows and the divisor 16.0. -/
def gates4 (x : FVec F S32x64x224x224 .f32) : FVec F S32x16x224x224 .f32 :=
  shapeCast S32x16x224x224
    (broadcastInDim S32x16x224x56x4 ![0, 1, 2, 3] bcast_S32x16x224x56_S32x16x224x56x4_0_1_2_3
      (shapeCast S32x16x224x56
        (broadcastInDim S32x16x56x4x56 ![0, 1, 2, 4] bcast_S32x16x56x56_S32x16x56x4x56_0_1_2_4
          (gateOf bcast_S_S32x16x56x56
            (Host.divf
              (Host.reduceAdd (shapeCast S32x16x56x4x56x4 (take lit2 x) shapeCasts_S32x16x224x224_S32x16x56x4x56x4)
                (constant S_ .f32 0x00000000#32) reducesTo_S32x16x56x4x56x4_S32x16x56x56_d3_5 h_S_)
              (broadcastInDim S32x16x56x56 ![] bcast_S_S32x16x56x56 (constant S_ .f32 0x41800000#32)))))
        shapeCasts_S32x16x56x4x56_S32x16x224x56))
    shapeCasts_S32x16x224x56x4_S32x16x224x224

/-- Side 7: the same with 7 × 7 windows and the divisor 49.0. -/
def gates7 (x : FVec F S32x64x224x224 .f32) : FVec F S32x16x224x224 .f32 :=
  shapeCast S32x16x224x224
    (broadcastInDim S32x16x224x32x7 ![0, 1, 2, 3] bcast_S32x16x224x32_S32x16x224x32x7_0_1_2_3
      (shapeCast S32x16x224x32
        (broadcastInDim S32x16x32x7x32 ![0, 1, 2, 4] bcast_S32x16x32x32_S32x16x32x7x32_0_1_2_4
          (gateOf bcast_S_S32x16x32x32
            (Host.divf
              (Host.reduceAdd (shapeCast S32x16x32x7x32x7 (take lit3 x) shapeCasts_S32x16x224x224_S32x16x32x7x32x7)
                (constant S_ .f32 0x00000000#32) reducesTo_S32x16x32x7x32x7_S32x16x32x32_d3_5 h_S_)
              (broadcastInDim S32x16x32x32 ![] bcast_S_S32x16x32x32 (constant S_ .f32 0x42440000#32)))))
        shapeCasts_S32x16x32x7x32_S32x16x224x32))
    shapeCasts_S32x16x224x32x7_S32x16x224x224

/-- Sixteen channels `u` written over `base` at the group's channel numbers. -/
def put (lit : Fin 16 → BitVec 32) (base : FVec F S32x64x224x224 .f32) (u : FVec F S32x16x224x224 .f32) :
    FVec F S32x64x224x224 .f32 :=
  Host.scatter scatter_S32x64x224x224_S16x1_S32x16x224x224_023_1_1_1 (fun _ b => b) base (chanCol lit) u

/-- The array of gates: zeros, then the four groups written in turn. -/
def gatesAll (x : FVec F S32x64x224x224 .f32) : FVec F S32x64x224x224 .f32 :=
  put lit3 (put lit2 (put lit1 (put lit0
    (broadcastInDim S32x64x224x224 ![] bcast_S_S32x64x224x224 (constant S_ .f32 0x00000000#32)) (gates1 x)) (gates2 x)) (gates4 x)) (gates7 x)

/-- The reference's result: gates times activation. -/
def refOut (x : FVec F S32x64x224x224 .f32) : FVec F S32x64x224x224 .f32 := mulf (gatesAll x) x

end Cert.ReferenceIdeal.Hand

end
-- ==== Proof.RefRun.lean ====
/-
  The reference program's run: its @main is a list of host operations; every weakly fair execution terminates with
  the result buffer at the operations' composed term of the activation, which is `refOut`, and the activation
  unchanged.
-/
import proofs.«112623_j79972291051870_1_alg».proof.Proof.RefTerm
import proofs.«112623_j79972291051870_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's host operations, in the order it performs them: each writes one buffer from the contents of the
    buffers it reads. -/
abbrev refOps : List (HloOp τ sig (Elt F)) :=
  [ nullary main_c (fun i => lit0 (S16.rowMajor i)),
    nullary main_c_0 (constantI S16 1 0#1),
    nullary main_c_1 (constantI S16 1 0#1),
    nullary main_c_2 (fun i => lit1 (S16.rowMajor i)),
    nullary main_c_3 (constantI S16 1 0#1),
    nullary main_c_4 (constantI S16 1 0#1),
    nullary main_c_5 (fun i => lit2 (S16.rowMajor i)),
    nullary main_c_6 (constantI S16 1 0#1),
    nullary main_c_7 (constantI S16 1 0#1),
    nullary main_c_8 (fun i => lit3 (S16.rowMajor i)),
    nullary main_c_9 (constantI S16 1 0#1),
    nullary main_c_10 (constantI S16 1 0#1),
    nullary main_cst (constant S_ .f32 0x00000000#32),
    unary main_cst main_v0 (broadcastInDim S32x64x224x224 ![] bcast_S_S32x64x224x224 : (⟨S_, .f32⟩ : BufTy).Contents (Elt F) → (⟨S32x64x224x224, .f32⟩ : BufTy).Contents (Elt F)),
    nullary main_c_11 (constantI S_ 32 64#32),
    unary main_c_11 main_v1 (broadcastInDim S16 ![] bcast_S_S16 : (⟨S_, .i32⟩ : BufTy).Contents (Elt F) → (⟨S16, .i32⟩ : BufTy).Contents (Elt F)),
    binary main_c main_v1 main_v2 (addi : (⟨S16, .i32⟩ : BufTy).Contents (Elt F) → (⟨S16, .i32⟩ : BufTy).Contents (Elt F) → (⟨S16, .i32⟩ : BufTy).Contents (Elt F)),
    ternary main_c_0 main_v2 main_c main_v3 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v3 main_v4 (broadcastInDim S16x1 ![0] bcast_S16_S16x1_0 : (⟨S16, .i32⟩ : BufTy).Contents (Elt F) → (⟨S16x1, .i32⟩ : BufTy).Contents (Elt F)),
    binary main_arg0 main_v4 main_v5 ((fun x i => Host.gather gather_S32x64x224x224_S16x1_S32x16x224x224_023_1_n_n_1_1_321224224 x i) : (⟨S32x64x224x224, .f32⟩ : BufTy).Contents (Elt F) → (⟨S16x1, .i32⟩ : BufTy).Contents (Elt F) → (⟨S32x16x224x224, .f32⟩ : BufTy).Contents (Elt F)),
    unary main_v5 main_v6 (Host.sign : (⟨S32x16x224x224, .f32⟩ : BufTy).Contents (Elt F) → (⟨S32x16x224x224, .f32⟩ : BufTy).Contents (Elt F)),
    nullary main_cst_12 (constant S_ .f32 0x3F800000#32),
    unary main_cst_12 main_v7 (broadcastInDim S32x16x224x224 ![] bcast_S_S32x16x224x224 : (⟨S_, .f32⟩ : BufTy).Contents (Elt F) → (⟨S32x16x224x224, .f32⟩ : BufTy).Contents (Elt F)),
    binary main_v6 main_v7 main_v8 (addf : (⟨S32x16x224x224, .f32⟩ : BufTy).Contents (Elt F) → (⟨S32x16x224x224, .f32⟩ : BufTy).Contents (Elt F) → (⟨S32x16x224x224, .f32⟩ : BufTy).Contents (Elt F)),
    nullary main_cst_13 (constant S_ .f32 0x3F000000#32),
    unary main_cst_13 main_v9 (broadcastInDim S32x16x224x224 ![] bcast_S_S32x16x224x224 : (⟨S_, .f32⟩ : BufTy).Contents (Elt F) → (⟨S32x16x224x224, .f32⟩ : BufTy).Contents (Elt F)),
    binary main_v8 main_v9 main_v10 (mulf : (⟨S32x16x224x224, .f32⟩ : BufTy).Contents (Elt F) → (⟨S32x16x224x224, .f32⟩ : BufTy).Contents (Elt F) → (⟨S32x16x224x224, .f32⟩ : BufTy).Contents (Elt F)),
    nullary main_c_14 (constantI S_ 32 64#32),
    unary main_c_14 main_v11 (broadcastInDim S16 ![] bcast_S_S16 : (⟨S_, .i32⟩ : BufTy).Contents (Elt F) → (⟨S16, .i32⟩ : BufTy).Contents (Elt F)),
    binary main_c main_v11 main_v12 (addi : (⟨S16, .i32⟩ : BufTy).Contents (Elt F) → (⟨S16, .i32⟩ : BufTy).Contents (Elt F) → (⟨S16, .i32⟩ : BufTy).Contents (Elt F)),
    ternary main_c_1 main_v12 main_c main_v13 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v13 main_v14 (broadcastInDim S16x1 ![0] bcast_S16_S16x1_0 : (⟨S16, .i32⟩ : BufTy).Contents (Elt F) → (⟨S16x1, .i32⟩ : BufTy).Contents (Elt F)),
    ternary main_v0 main_v14 main_v10 main_v15 ((fun x i u => Host.scatter scatter_S32x64x224x224_S16x1_S32x16x224x224_023_1_1_1 (fun _ b => b) x i u) : (⟨S32x64x224x224, .f32⟩ : BufTy).Contents (Elt F) → (⟨S16x1, .i32⟩ : BufTy).Contents (Elt F) → (⟨S32x16x224x224, .f32⟩ : BufTy).Contents (Elt F) → (⟨S32x64x224x224, .f32⟩ : BufTy).Contents (Elt F)),
    nullary main_c_15 (constantI S_ 32 64#32),
    unary main_c_15 main_v16 (broadcastInDim S16 ![] bcast_S_S16 : (⟨S_, .i32⟩ : BufTy).Contents (Elt F) → (⟨S16, .i32⟩ : BufTy).Contents (Elt F)),
    binary main_c_2 main_v16 main_v17 (addi : (⟨S16, .i32⟩ : BufTy).Contents (Elt F) → (⟨S16, .i32⟩ : BufTy).Contents (Elt F) → (⟨S16, .i32⟩ : BufTy).Contents (Elt F)),
    ternary main_c_3 main_v17 main_c_2 main_v18 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v18 main_v19 (broadcastInDim S16x1 ![0] bcast_S16_S16x1_0 : (⟨S16, .i32⟩ : BufTy).Contents (Elt F) → (⟨S16x1, .i32⟩ : BufTy).Contents (Elt F)),
    binary main_arg0 main_v19 main_v20 ((fun x i => Host.gather gather_S32x64x224x224_S16x1_S32x16x224x224_023_1_n_n_1_1_321224224 x i) : (⟨S32x64x224x224, .f32⟩ : BufTy).Contents (Elt F) → (⟨S16x1, .i32⟩ : BufTy).Contents (Elt F) → (⟨S32x16x224x224, .f32⟩ : BufTy).Contents (Elt F)),
    reshape main_v20 main_v21 rfl shapeCasts_S32x16x224x224_S32x16x112x2x112x2,
    nullary main_cst_16 (constant S_ .f32 0x00000000#32),
    binary main_v21 main_cst_16 main_v22 ((fun x v => Host.reduceAdd x v reducesTo_S32x16x112x2x112x2_S32x16x112x112_d3_5 h_S_) : (⟨S32x16x112x2x112x2, .f32⟩ : BufTy).Contents (Elt F) → (⟨S_, .f32⟩ : BufTy).Contents (Elt F) → (⟨S32x16x112x112, .f32⟩ : BufTy).Contents (Elt F)),
    nullary main_cst_17 (constant S_ .f32 0x40800000#32),
    unary main_cst_17 main_v23 (broadcastInDim S32x16x112x112 ![] bcast_S_S32x16x112x112 : (⟨S_, .f32⟩ : BufTy).Contents (Elt F) → (⟨S32x16x112x112, .f32⟩ : BufTy).Contents (Elt F)),
    binary main_v22 main_v23 main_v24 (Host.divf : (⟨S32x16x112x112, .f32⟩ : BufTy).Contents (Elt F) → (⟨S32x16x112x112, .f32⟩ : BufTy).Contents (Elt F) → (⟨S32x16x112x112, .f32⟩ : BufTy).Contents (Elt F)),
    unary main_v24 main_v25 (Host.sign : (⟨S32x16x112x112, .f32⟩ : BufTy).Contents (Elt F) → (⟨S32x16x112x112, .f32⟩ : BufTy).Contents (Elt F)),
    nullary main_cst_18 (constant S_ .f32 0x3F800000#32),
    unary main_cst_18 main_v26 (broadcastInDim S32x16x112x112 ![] bcast_S_S32x16x112x112 : (⟨S_, .f32⟩ : BufTy).Contents (Elt F) → (⟨S32x16x112x112, .f32⟩ : BufTy).Contents (Elt F)),
    binary main_v25 main_v26 main_v27 (addf : (⟨S32x16x112x112, .f32⟩ : BufTy).Contents (Elt F) → (⟨S32x16x112x112, .f32⟩ : BufTy).Contents (Elt F) → (⟨S32x16x112x112, .f32⟩ : BufTy).Contents (Elt F)),
    nullary main_cst_19 (constant S_ .f32 0x3F000000#32),
    unary main_cst_19 main_v28 (broadcastInDim S32x16x112x112 ![] bcast_S_S32x16x112x112 : (⟨S_, .f32⟩ : BufTy).Contents (Elt F) → (⟨S32x16x112x112, .f32⟩ : BufTy).Contents (Elt F)),
    binary main_v27 main_v28 main_v29 (mulf : (⟨S32x16x112x112, .f32⟩ : BufTy).Contents (Elt F) → (⟨S32x16x112x112, .f32⟩ : BufTy).Contents (Elt F) → (⟨S32x16x112x112, .f32⟩ : BufTy).Contents (Elt F)),
    unary main_v29 main_v30 (broadcastInDim S32x16x112x2x112 ![0, 1, 2, 4] bcast_S32x16x112x112_S32x16x112x2x112_0_1_2_4 : (⟨S32x16x112x112, .f32⟩ : BufTy).Contents (Elt F) → (⟨S32x16x112x2x112, .f32⟩ : BufTy).Contents (Elt F)),
    reshape main_v30 main_v31 rfl shapeCasts_S32x16x112x2x112_S32x16x224x112,
    unary main_v31 main_v32 (broadcastInDim S32x16x224x112x2 ![0, 1, 2, 3] bcast_S32x16x224x112_S32x16x224x112x2_0_1_2_3 : (⟨S32x16x224x112, .f32⟩ : BufTy).Contents (Elt F) → (⟨S32x16x224x112x2, .f32⟩ : BufTy).Contents (Elt F)),
    reshape main_v32 main_v33 rfl shapeCasts_S32x16x224x112x2_S32x16x224x224,
    nullary main_c_20 (constantI S_ 32 64#32),
    unary main_c_20 main_v34 (broadcastInDim S16 ![] bcast_S_S16 : (⟨S_, .i32⟩ : BufTy).Contents (Elt F) → (⟨S16, .i32⟩ : BufTy).Contents (Elt F)),
    binary main_c_2 main_v34 main_v35 (addi : (⟨S16, .i32⟩ : BufTy).Contents (Elt F) → (⟨S16, .i32⟩ : BufTy).Contents (Elt F) → (⟨S16, .i32⟩ : BufTy).Contents (Elt F)),
    ternary main_c_4 main_v35 main_c_2 main_v36 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v36 main_v37 (broadcastInDim S16x1 ![0] bcast_S16_S16x1_0 : (⟨S16, .i32⟩ : BufTy).Contents (Elt F) → (⟨S16x1, .i32⟩ : BufTy).Contents (Elt F)),
    ternary main_v15 main_v37 main_v33 main_v38 ((fun x i u => Host.scatter scatter_S32x64x224x224_S16x1_S32x16x224x224_023_1_1_1 (fun _ b => b) x i u) : (⟨S32x64x224x224, .f32⟩ : BufTy).Contents (Elt F) → (⟨S16x1, .i32⟩ : BufTy).Contents (Elt F) → (⟨S32x16x224x224, .f32⟩ : BufTy).Contents (Elt F) → (⟨S32x64x224x224, .f32⟩ : BufTy).Contents (Elt F)),
    nullary main_c_21 (constantI S_ 32 64#32),
    unary main_c_21 main_v39 (broadcastInDim S16 ![] bcast_S_S16 : (⟨S_, .i32⟩ : BufTy).Contents (Elt F) → (⟨S16, .i32⟩ : BufTy).Contents (Elt F)),
    binary main_c_5 main_v39 main_v40 (addi : (⟨S16, .i32⟩ : BufTy).Contents (Elt F) → (⟨S16, .i32⟩ : BufTy).Contents (Elt F) → (⟨S16, .i32⟩ : BufTy).Contents (Elt F)),
    ternary main_c_6 main_v40 main_c_5 main_v41 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v41 main_v42 (broadcastInDim S16x1 ![0] bcast_S16_S16x1_0 : (⟨S16, .i32⟩ : BufTy).Contents (Elt F) → (⟨S16x1, .i32⟩ : BufTy).Contents (Elt F)),
    binary main_arg0 main_v42 main_v43 ((fun x i => Host.gather gather_S32x64x224x224_S16x1_S32x16x224x224_023_1_n_n_1_1_321224224 x i) : (⟨S32x64x224x224, .f32⟩ : BufTy).Contents (Elt F) → (⟨S16x1, .i32⟩ : BufTy).Contents (Elt F) → (⟨S32x16x224x224, .f32⟩ : BufTy).Contents (Elt F)),
    reshape main_v43 main_v44 rfl shapeCasts_S32x16x224x224_S32x16x56x4x56x4,
    nullary main_cst_22 (constant S_ .f32 0x00000000#32),
    binary main_v44 main_cst_22 main_v45 ((fun x v => Host.reduceAdd x v reducesTo_S32x16x56x4x56x4_S32x16x56x56_d3_5 h_S_) : (⟨S32x16x56x4x56x4, .f32⟩ : BufTy).Contents (Elt F) → (⟨S_, .f32⟩ : BufTy).Contents (Elt F) → (⟨S32x16x56x56, .f32⟩ : BufTy).Contents (Elt F)),
    nullary main_cst_23 (constant S_ .f32 0x41800000#32),
    unary main_cst_23 main_v46 (broadcastInDim S32x16x56x56 ![] bcast_S_S32x16x56x56 : (⟨S_, .f32⟩ : BufTy).Contents (Elt F) → (⟨S32x16x56x56, .f32⟩ : BufTy).Contents (Elt F)),
    binary main_v45 main_v46 main_v47 (Host.divf : (⟨S32x16x56x56, .f32⟩ : BufTy).Contents (Elt F) → (⟨S32x16x56x56, .f32⟩ : BufTy).Contents (Elt F) → (⟨S32x16x56x56, .f32⟩ : BufTy).Contents (Elt F)),
    unary main_v47 main_v48 (Host.sign : (⟨S32x16x56x56, .f32⟩ : BufTy).Contents (Elt F) → (⟨S32x16x56x56, .f32⟩ : BufTy).Contents (Elt F)),
    nullary main_cst_24 (constant S_ .f32 0x3F800000#32),
    unary main_cst_24 main_v49 (broadcastInDim S32x16x56x56 ![] bcast_S_S32x16x56x56 : (⟨S_, .f32⟩ : BufTy).Contents (Elt F) → (⟨S32x16x56x56, .f32⟩ : BufTy).Contents (Elt F)),
    binary main_v48 main_v49 main_v50 (addf : (⟨S32x16x56x56, .f32⟩ : BufTy).Contents (Elt F) → (⟨S32x16x56x56, .f32⟩ : BufTy).Contents (Elt F) → (⟨S32x16x56x56, .f32⟩ : BufTy).Contents (Elt F)),
    nullary main_cst_25 (constant S_ .f32 0x3F000000#32),
    unary main_cst_25 main_v51 (broadcastInDim S32x16x56x56 ![] bcast_S_S32x16x56x56 : (⟨S_, .f32⟩ : BufTy).Contents (Elt F) → (⟨S32x16x56x56, .f32⟩ : BufTy).Contents (Elt F)),
    binary main_v50 main_v51 main_v52 (mulf : (⟨S32x16x56x56, .f32⟩ : BufTy).Contents (Elt F) → (⟨S32x16x56x56, .f32⟩ : BufTy).Contents (Elt F) → (⟨S32x16x56x56, .f32⟩ : BufTy).Contents (Elt F)),
    unary main_v52 main_v53 (broadcastInDim S32x16x56x4x56 ![0, 1, 2, 4] bcast_S32x16x56x56_S32x16x56x4x56_0_1_2_4 : (⟨S32x16x56x56, .f32⟩ : BufTy).Contents (Elt F) → (⟨S32x16x56x4x56, .f32⟩ : BufTy).Contents (Elt F)),
    reshape main_v53 main_v54 rfl shapeCasts_S32x16x56x4x56_S32x16x224x56,
    unary main_v54 main_v55 (broadcastInDim S32x16x224x56x4 ![0, 1, 2, 3] bcast_S32x16x224x56_S32x16x224x56x4_0_1_2_3 : (⟨S32x16x224x56, .f32⟩ : BufTy).Contents (Elt F) → (⟨S32x16x224x56x4, .f32⟩ : BufTy).Contents (Elt F)),
    reshape main_v55 main_v56 rfl shapeCasts_S32x16x224x56x4_S32x16x224x224,
    nullary main_c_26 (constantI S_ 32 64#32),
    unary main_c_26 main_v57 (broadcastInDim S16 ![] bcast_S_S16 : (⟨S_, .i32⟩ : BufTy).Contents (Elt F) → (⟨S16, .i32⟩ : BufTy).Contents (Elt F)),
    binary main_c_5 main_v57 main_v58 (addi : (⟨S16, .i32⟩ : BufTy).Contents (Elt F) → (⟨S16, .i32⟩ : BufTy).Contents (Elt F) → (⟨S16, .i32⟩ : BufTy).Contents (Elt F)),
    ternary main_c_7 main_v58 main_c_5 main_v59 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v59 main_v60 (broadcastInDim S16x1 ![0] bcast_S16_S16x1_0 : (⟨S16, .i32⟩ : BufTy).Contents (Elt F) → (⟨S16x1, .i32⟩ : BufTy).Contents (Elt F)),
    ternary main_v38 main_v60 main_v56 main_v61 ((fun x i u => Host.scatter scatter_S32x64x224x224_S16x1_S32x16x224x224_023_1_1_1 (fun _ b => b) x i u) : (⟨S32x64x224x224, .f32⟩ : BufTy).Contents (Elt F) → (⟨S16x1, .i32⟩ : BufTy).Contents (Elt F) → (⟨S32x16x224x224, .f32⟩ : BufTy).Contents (Elt F) → (⟨S32x64x224x224, .f32⟩ : BufTy).Contents (Elt F)),
    nullary main_c_27 (constantI S_ 32 64#32),
    unary main_c_27 main_v62 (broadcastInDim S16 ![] bcast_S_S16 : (⟨S_, .i32⟩ : BufTy).Contents (Elt F) → (⟨S16, .i32⟩ : BufTy).Contents (Elt F)),
    binary main_c_8 main_v62 main_v63 (addi : (⟨S16, .i32⟩ : BufTy).Contents (Elt F) → (⟨S16, .i32⟩ : BufTy).Contents (Elt F) → (⟨S16, .i32⟩ : BufTy).Contents (Elt F)),
    ternary main_c_9 main_v63 main_c_8 main_v64 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v64 main_v65 (broadcastInDim S16x1 ![0] bcast_S16_S16x1_0 : (⟨S16, .i32⟩ : BufTy).Contents (Elt F) → (⟨S16x1, .i32⟩ : BufTy).Contents (Elt F)),
    binary main_arg0 main_v65 main_v66 ((fun x i => Host.gather gather_S32x64x224x224_S16x1_S32x16x224x224_023_1_n_n_1_1_321224224 x i) : (⟨S32x64x224x224, .f32⟩ : BufTy).Contents (Elt F) → (⟨S16x1, .i32⟩ : BufTy).Contents (Elt F) → (⟨S32x16x224x224, .f32⟩ : BufTy).Contents (Elt F)),
    reshape main_v66 main_v67 rfl shapeCasts_S32x16x224x224_S32x16x32x7x32x7,
    nullary main_cst_28 (constant S_ .f32 0x00000000#32),
    binary main_v67 main_cst_28 main_v68 ((fun x v => Host.reduceAdd x v reducesTo_S32x16x32x7x32x7_S32x16x32x32_d3_5 h_S_) : (⟨S32x16x32x7x32x7, .f32⟩ : BufTy).Contents (Elt F) → (⟨S_, .f32⟩ : BufTy).Contents (Elt F) → (⟨S32x16x32x32, .f32⟩ : BufTy).Contents (Elt F)),
    nullary main_cst_29 (constant S_ .f32 0x42440000#32),
    unary main_cst_29 main_v69 (broadcastInDim S32x16x32x32 ![] bcast_S_S32x16x32x32 : (⟨S_, .f32⟩ : BufTy).Contents (Elt F) → (⟨S32x16x32x32, .f32⟩ : BufTy).Contents (Elt F)),
    binary main_v68 main_v69 main_v70 (Host.divf : (⟨S32x16x32x32, .f32⟩ : BufTy).Contents (Elt F) → (⟨S32x16x32x32, .f32⟩ : BufTy).Contents (Elt F) → (⟨S32x16x32x32, .f32⟩ : BufTy).Contents (Elt F)),
    unary main_v70 main_v71 (Host.sign : (⟨S32x16x32x32, .f32⟩ : BufTy).Contents (Elt F) → (⟨S32x16x32x32, .f32⟩ : BufTy).Contents (Elt F)),
    nullary main_cst_30 (constant S_ .f32 0x3F800000#32),
    unary main_cst_30 main_v72 (broadcastInDim S32x16x32x32 ![] bcast_S_S32x16x32x32 : (⟨S_, .f32⟩ : BufTy).Contents (Elt F) → (⟨S32x16x32x32, .f32⟩ : BufTy).Contents (Elt F)),
    binary main_v71 main_v72 main_v73 (addf : (⟨S32x16x32x32, .f32⟩ : BufTy).Contents (Elt F) → (⟨S32x16x32x32, .f32⟩ : BufTy).Contents (Elt F) → (⟨S32x16x32x32, .f32⟩ : BufTy).Contents (Elt F)),
    nullary main_cst_31 (constant S_ .f32 0x3F000000#32),
    unary main_cst_31 main_v74 (broadcastInDim S32x16x32x32 ![] bcast_S_S32x16x32x32 : (⟨S_, .f32⟩ : BufTy).Contents (Elt F) → (⟨S32x16x32x32, .f32⟩ : BufTy).Contents (Elt F)),
    binary main_v73 main_v74 main_v75 (mulf : (⟨S32x16x32x32, .f32⟩ : BufTy).Contents (Elt F) → (⟨S32x16x32x32, .f32⟩ : BufTy).Contents (Elt F) → (⟨S32x16x32x32, .f32⟩ : BufTy).Contents (Elt F)),
    unary main_v75 main_v76 (broadcastInDim S32x16x32x7x32 ![0, 1, 2, 4] bcast_S32x16x32x32_S32x16x32x7x32_0_1_2_4 : (⟨S32x16x32x32, .f32⟩ : BufTy).Contents (Elt F) → (⟨S32x16x32x7x32, .f32⟩ : BufTy).Contents (Elt F)),
    reshape main_v76 main_v77 rfl shapeCasts_S32x16x32x7x32_S32x16x224x32,
    unary main_v77 main_v78 (broadcastInDim S32x16x224x32x7 ![0, 1, 2, 3] bcast_S32x16x224x32_S32x16x224x32x7_0_1_2_3 : (⟨S32x16x224x32, .f32⟩ : BufTy).Contents (Elt F) → (⟨S32x16x224x32x7, .f32⟩ : BufTy).Contents (Elt F)),
    reshape main_v78 main_v79 rfl shapeCasts_S32x16x224x32x7_S32x16x224x224,
    nullary main_c_32 (constantI S_ 32 64#32),
    unary main_c_32 main_v80 (broadcastInDim S16 ![] bcast_S_S16 : (⟨S_, .i32⟩ : BufTy).Contents (Elt F) → (⟨S16, .i32⟩ : BufTy).Contents (Elt F)),
    binary main_c_8 main_v80 main_v81 (addi : (⟨S16, .i32⟩ : BufTy).Contents (Elt F) → (⟨S16, .i32⟩ : BufTy).Contents (Elt F) → (⟨S16, .i32⟩ : BufTy).Contents (Elt F)),
    ternary main_c_10 main_v81 main_c_8 main_v82 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v82 main_v83 (broadcastInDim S16x1 ![0] bcast_S16_S16x1_0 : (⟨S16, .i32⟩ : BufTy).Contents (Elt F) → (⟨S16x1, .i32⟩ : BufTy).Contents (Elt F)),
    ternary main_v61 main_v83 main_v79 main_v84 ((fun x i u => Host.scatter scatter_S32x64x224x224_S16x1_S32x16x224x224_023_1_1_1 (fun _ b => b) x i u) : (⟨S32x64x224x224, .f32⟩ : BufTy).Contents (Elt F) → (⟨S16x1, .i32⟩ : BufTy).Contents (Elt F) → (⟨S32x16x224x224, .f32⟩ : BufTy).Contents (Elt F) → (⟨S32x64x224x224, .f32⟩ : BufTy).Contents (Elt F)),
    binary main_v84 main_arg0 main_v85 (mulf : (⟨S32x64x224x224, .f32⟩ : BufTy).Contents (Elt F) → (⟨S32x64x224x224, .f32⟩ : BufTy).Contents (Elt F) → (⟨S32x64x224x224, .f32⟩ : BufTy).Contents (Elt F)) ]

set_option maxRecDepth 8192 in
set_option maxHeartbeats 4000000 in
/-- The program is those operations one after the other: its three consecutive stretches, joined by associativity of
    sequencing, are the one straight line. -/
theorem refMain_eq (c : Dev nD) : main (F := F) c = seq refOps := by
  simp only [main, main_part0, main_part1, main_part2, seq, bind_assoc, pure_bind]

/-- No buffer and no semaphore of the signature is scoped: every buffer is a tensor value that lives for the whole run. -/
theorem refScopedRefs_eq : (Finset.univ.filter fun b : Ref sig .tc => b.isScoped) = ∅ := by decide
theorem refScopedSems_eq : (Finset.univ.filter fun sm : SemLoc sig => sm.isScoped .tc) = ∅ := by decide

/-- Every operation touches buffers of the one core only. -/
theorem refOps_sub : (refOps : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
   nullary_bufs_sub .., nullary_bufs_sub .., nullary_bufs_sub .., nullary_bufs_sub .., nullary_bufs_sub .., nullary_bufs_sub ..,
   nullary_bufs_sub .., unary_bufs_sub .., nullary_bufs_sub .., unary_bufs_sub .., binary_bufs_sub .., ternary_bufs_sub ..,
   unary_bufs_sub .., binary_bufs_sub .., unary_bufs_sub .., nullary_bufs_sub .., unary_bufs_sub .., binary_bufs_sub ..,
   nullary_bufs_sub .., unary_bufs_sub .., binary_bufs_sub .., nullary_bufs_sub .., unary_bufs_sub .., binary_bufs_sub ..,
   ternary_bufs_sub .., unary_bufs_sub .., ternary_bufs_sub .., nullary_bufs_sub .., unary_bufs_sub .., binary_bufs_sub ..,
   ternary_bufs_sub .., unary_bufs_sub .., binary_bufs_sub .., reshape_bufs_sub .., nullary_bufs_sub .., binary_bufs_sub ..,
   nullary_bufs_sub .., unary_bufs_sub .., binary_bufs_sub .., unary_bufs_sub .., nullary_bufs_sub .., unary_bufs_sub ..,
   binary_bufs_sub .., nullary_bufs_sub .., unary_bufs_sub .., binary_bufs_sub .., unary_bufs_sub .., reshape_bufs_sub ..,
   unary_bufs_sub .., reshape_bufs_sub .., nullary_bufs_sub .., unary_bufs_sub .., binary_bufs_sub .., ternary_bufs_sub ..,
   unary_bufs_sub .., ternary_bufs_sub .., nullary_bufs_sub .., unary_bufs_sub .., binary_bufs_sub .., ternary_bufs_sub ..,
   unary_bufs_sub .., binary_bufs_sub .., reshape_bufs_sub .., nullary_bufs_sub .., binary_bufs_sub .., nullary_bufs_sub ..,
   unary_bufs_sub .., binary_bufs_sub .., unary_bufs_sub .., nullary_bufs_sub .., unary_bufs_sub .., binary_bufs_sub ..,
   nullary_bufs_sub .., unary_bufs_sub .., binary_bufs_sub .., unary_bufs_sub .., reshape_bufs_sub .., unary_bufs_sub ..,
   reshape_bufs_sub .., nullary_bufs_sub .., unary_bufs_sub .., binary_bufs_sub .., ternary_bufs_sub .., unary_bufs_sub ..,
   ternary_bufs_sub .., nullary_bufs_sub .., unary_bufs_sub .., binary_bufs_sub .., ternary_bufs_sub .., unary_bufs_sub ..,
   binary_bufs_sub .., reshape_bufs_sub .., nullary_bufs_sub .., binary_bufs_sub .., nullary_bufs_sub .., unary_bufs_sub ..,
   binary_bufs_sub .., unary_bufs_sub .., nullary_bufs_sub .., unary_bufs_sub .., binary_bufs_sub .., nullary_bufs_sub ..,
   unary_bufs_sub .., binary_bufs_sub .., unary_bufs_sub .., reshape_bufs_sub .., unary_bufs_sub .., reshape_bufs_sub ..,
   nullary_bufs_sub .., unary_bufs_sub .., binary_bufs_sub .., ternary_bufs_sub .., unary_bufs_sub .., ternary_bufs_sub ..,
   binary_bufs_sub ..⟩

-- The whole-array functions below are compared only as symbols applied to equal arguments, never through their
-- definitions: the scatter is a fold over every update index, the gather and the reductions range over whole arrays.
attribute [local irreducible] Host.scatter Host.gather Host.reduceAdd shapeCast broadcastInDim

set_option maxRecDepth 8192 in
set_option maxHeartbeats 8000000 in
/-- On every device, for any float values, from any memory with zero counters: every weakly fair execution of the
    reference terminates with the result buffer at `refOut` of the activation and the activation unchanged. Each
    operation's result buffer holds its function of its operands' buffers and every other buffer what it held, so
    reading the last buffer back through the line gives the operations' composition over the activation, and that
    composition is `refOut` unfolded stage by stage; no operation writes the activation's buffer. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v85).trans (by after_results_simp <;> rfl),
      (h c main_arg0).trans (by after_results_simp <;> rfl)⟩)
    (run_seq refScopedRefs_eq refScopedSems_eq defs main (fun _ => refOps) refMain_eq (fun _ => refOps_sub) m ρ)

end Cert.ReferenceIdeal.Hand

end
-- ==== Proof.LibScatterSet.lean ====
/-
  A scatter whose update function keeps the update ("set") and whose result indices never collide reads back, at
  every index of the operand, either the one update that lands there or the operand's own entry.
-/
import Idealize.ShloMosaic.PureOps.ShapeOps

noncomputable section

namespace ScatterSet

open Idealize.ShloMosaic

/-- If update index `j` lands at `i` and no other update index does, a set-scatter holds `upd j` at `i`.

    The scatter is a left fold over the update indices in row-major order. Along the fold the entry at `i` is
    either already `upd j` or the step of `j` is still to come: a step that lands at `i` is the step of `j`
    (by uniqueness) and writes `upd j`; every other step writes elsewhere, or nowhere, and leaves the entry at `i`
    as it was. The step of `j` does occur, since the row-major order enumerates every update index. -/
theorem hit {α : Type} {s si u : Shape} {w : ℕ} (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  have hstart : x i = upd j ∨ ∃ n ∈ List.finRange u.numel, u.rowMajor.symm n = j :=
    Or.inr ⟨u.rowMajor j, List.mem_finRange _, u.rowMajor.symm_apply_apply j⟩
  revert hstart
  generalize List.finRange u.numel = l
  induction l generalizing x with
  | nil =>
    rintro (h | ⟨n, hn, -⟩)
    · exact h
    · exact absurd hn List.not_mem_nil
  | cons n l ih =>
    intro hinv
    rw [List.foldl_cons]
    apply ih
    cases hn : d.resultIdx? (u.rowMajor.symm n) idx with
    | none =>
      rcases hinv with h | ⟨n', hn', hj'⟩
      · exact Or.inl h
      · rcases List.mem_cons.1 hn' with rfl | hl
        · rw [hj', hj] at hn
          exact absurd hn (by simp)
        · exact Or.inr ⟨n', hl, hj'⟩
    | some i0 =>
      by_cases hi : i = i0
      · subst hi
        left
        simp only [if_true]
        rw [huniq _ hn]
      · rcases hinv with h | ⟨n', hn', hj'⟩
        · left
          simp only [if_neg hi]
          exact h
        · rcases List.mem_cons.1 hn' with rfl | hl
          · rw [hj', hj] at hn
            exact absurd (Option.some.inj hn) hi
          · exact Or.inr ⟨n', hl, hj'⟩

/-- If no update index lands at `i`, a scatter leaves the operand's entry there.

    Every step of the fold writes only at its own result index, which is never `i`, or writes nowhere. -/
theorem miss {α : Type} {s si u : Shape} {w : ℕ} (d : ScatterDims s si u) (f : α → α → α) (x : s.Idx → α)
    (idx : IVec si w) (upd : u.Idx → α) (i : s.Idx) (hmiss : ∀ j, d.resultIdx? j idx ≠ some i) :
    Host.scatter d f x idx upd i = x i := by
  unfold Host.scatter
  generalize List.finRange u.numel = l
  induction l generalizing x with
  | nil => rfl
  | cons n l ih =>
    rw [List.foldl_cons, ih]
    cases hn : d.resultIdx? (u.rowMajor.symm n) idx with
    | none => rfl
    | some i0 =>
      have hi : i ≠ i0 := fun h => hmiss _ (h ▸ hn)
      simp only [if_neg hi]

end ScatterSet

end
-- ==== Proof.RefIdx.lean ====
/-
  Where the reference's gather reads and where its scatter writes: for a group whose table holds the channel
  numbers 16·g + k (k = 0 … 15), entry (b, k, h, w) of the gathered channels is the activation's entry
  (b, 16·g + k, h, w), and the scatter writes update entry (b, k, h, w) to exactly that index and touches no
  channel outside the group.
-/
import proofs.«112623_j79972291051870_1_alg».proof.Proof.RefTerm
import proofs.«112623_j79972291051870_1_alg».proof.Proof.LibScatterSet
import proofs.«112623_j79972291051870_1_alg».proof.Proof.Gen.ReferenceIdeal
import Idealize.ShloMosaic.Lib.ValueIdx
import Idealize.ShloMosaic.Lib.StableHlo.Predicate

noncomputable section

namespace Cert.ReferenceIdeal.Hand

open Cert.ReferenceIdeal Cert.ReferenceIdeal.Facts₀ Idealize.ShloMosaic Idealize.ShloMosaic.ValueIdx

-- the scatter is a fold over every update index: it is only ever read through the two general lemmas
attribute [local irreducible] Host.scatter

variable {F : FTy → Type} [FloatOps F]

/-- Channel number k of group g. -/
def chan (g : ℕ) (hg : g < 4) (k : Fin 16) : Fin 64 := ⟨16 * g + k.val, by omega⟩

theorem lit0_eq : ∀ k : Fin 16, lit0 k = BitVec.ofNat 32 (16 * 0 + k.val) := by decide
theorem lit1_eq : ∀ k : Fin 16, lit1 k = BitVec.ofNat 32 (16 * 1 + k.val) := by decide
theorem lit2_eq : ∀ k : Fin 16, lit2 k = BitVec.ofNat 32 (16 * 2 + k.val) := by decide
theorem lit3_eq : ∀ k : Fin 16, lit3 k = BitVec.ofNat 32 (16 * 3 + k.val) := by decide

/-- The gather's dimension numbers. -/
private abbrev gd : GatherDims S32x64x224x224 S16x1 S32x16x224x224 :=
  gather_S32x64x224x224_S16x1_S32x16x224x224_023_1_n_n_1_1_321224224
/-- The scatter's dimension numbers. -/
private abbrev sd : ScatterDims S32x64x224x224 S16x1 S32x16x224x224 :=
  scatter_S32x64x224x224_S16x1_S32x16x224x224_023_1_1_1

/-! ## The column of start indices -/

/-- Row r of the column of start indices is entry r of the table: the mask of the select is clear everywhere, so the
    select returns the table, and the broadcast to a column reads the vector at the row. -/
private theorem chanCol_apply (lit : Fin 16 → BitVec 32) (c : S16x1.Idx) : chanCol lit c = lit (c 0) := by
  unfold chanCol
  simp only [broadcastInDim, select_apply]
  rw [show ∀ i, constantI S16 1 0#1 i = 0#1 from fun _ => rfl, select_zero]
  congr 1
  apply Fin.ext
  rw [Shape.rowMajor_val_one]
  rfl

/-- A channel number of the table, below 64, reads the same signed as unsigned. -/
private theorem toInt_chan (g : ℕ) (hg : g < 4) (n : ℕ) (hn : n < 16) :
    (BitVec.ofNat 32 (16 * g + n)).toInt = ((16 * g + n : ℕ) : ℤ) :=
  StableHlo.Predicate.toInt_ofNat_small _ (by omega)

/-! ## The gather's operand index, axis by axis

Batch, height and width are offset axes: the operand's coordinate is the result's. The channel axis is collapsed
and is the one start-indexed axis: its coordinate is the start index of the result's channel, clamped to 0 … 63. -/

private theorem g_off0 (j : S32x16x224x224.Idx) : gd.offCoord j 0 = (j 0).val := rfl
private theorem g_off1 (j : S32x16x224x224.Idx) : gd.offCoord j 1 = 0 := rfl
private theorem g_off2 (j : S32x16x224x224.Idx) : gd.offCoord j 2 = (j 2).val := rfl
private theorem g_off3 (j : S32x16x224x224.Idx) : gd.offCoord j 3 = (j 3).val := rfl
private theorem g_bat (j : S32x16x224x224.Idx) (a : Fin 4) : gd.batchCoord j a = 0 := rfl
private theorem g_st0 (j : S32x16x224x224.Idx) (idx : IVec S16x1 32) : gd.start j idx 0 = 0 := rfl
private theorem g_st2 (j : S32x16x224x224.Idx) (idx : IVec S16x1 32) : gd.start j idx 2 = 0 := rfl
private theorem g_st3 (j : S32x16x224x224.Idx) (idx : IVec S16x1 32) : gd.start j idx 3 = 0 := rfl
private theorem g_st1 (j : S32x16x224x224.Idx) (idx : IVec S16x1 32) :
    gd.start j idx 1 = min (idx (ix2 (j 1) 0)).toInt.toNat 63 := by
  unfold GatherDims.start
  rw [dif_pos (by decide)]
  congr 3
  · congr 1
    funext b'
    refine Fin.ext ?_
    match b' with
    | ⟨0, _⟩ => rfl
    | ⟨1, _⟩ => rfl

/-- Result index j of the gather reads the operand at j's batch, height and width and at channel 16·g + (j's channel). -/
private theorem g_operandIdx (lit : Fin 16 → BitVec 32) (g : ℕ) (hg : g < 4)
    (hl : ∀ k : Fin 16, lit k = BitVec.ofNat 32 (16 * g + k.val)) (j : S32x16x224x224.Idx) :
    gd.operandIdx j (chanCol lit) = ix4 (j 0) (chan g hg (j 1)) (j 2) (j 3) := by
  funext a
  refine Fin.ext ?_
  show gd.start j (chanCol lit) a + gd.batchCoord j a + gd.offCoord j a = _
  match a with
  | ⟨0, _⟩ => exact (by rw [g_bat]; show gd.start j (chanCol lit) 0 + 0 + gd.offCoord j 0 = _; rw [g_st0, g_off0]; simp)
  | ⟨1, _⟩ =>
    show gd.start j (chanCol lit) 1 + gd.batchCoord j 1 + gd.offCoord j 1 = 16 * g + (j 1).val
    rw [g_bat, g_off1, g_st1, chanCol_apply]
    show min (lit (j 1)).toInt.toNat 63 + 0 + 0 = _
    have h1 : lit (j 1) = BitVec.ofNat 32 (16 * g + (j 1).val) := hl (j 1)
    have h2 : (j 1).val < 16 := (j 1).isLt
    rw [h1, toInt_chan g hg _ h2, Int.toNat_natCast]
    omega
  | ⟨2, _⟩ => exact (by rw [g_bat]; show gd.start j (chanCol lit) 2 + 0 + gd.offCoord j 2 = _; rw [g_st2, g_off2]; simp)
  | ⟨3, _⟩ => exact (by rw [g_bat]; show gd.start j (chanCol lit) 3 + 0 + gd.offCoord j 3 = _; rw [g_st3, g_off3]; simp)

/-! ## The scatter's result index, axis by axis

Batch, height and width are window axes: the window coordinate is the update's and the start is 0. The channel axis
is inserted and is the one scattered axis: the window coordinate is 0 and the start is the start index of the
update's channel, read signed and not clamped. -/

private theorem s_win0 (j : S32x16x224x224.Idx) : sd.window j 0 = (j 0).val := rfl
private theorem s_win1 (j : S32x16x224x224.Idx) : sd.window j 1 = 0 := rfl
private theorem s_win2 (j : S32x16x224x224.Idx) : sd.window j 2 = (j 2).val := rfl
private theorem s_win3 (j : S32x16x224x224.Idx) : sd.window j 3 = (j 3).val := rfl
private theorem s_st0 (j : S32x16x224x224.Idx) (idx : IVec S16x1 32) : sd.start j idx 0 = 0 := rfl
private theorem s_st2 (j : S32x16x224x224.Idx) (idx : IVec S16x1 32) : sd.start j idx 2 = 0 := rfl
private theorem s_st3 (j : S32x16x224x224.Idx) (idx : IVec S16x1 32) : sd.start j idx 3 = 0 := rfl
private theorem s_st1 (j : S32x16x224x224.Idx) (idx : IVec S16x1 32) :
    sd.start j idx 1 = (idx (ix2 (j 1) 0)).toInt := by
  unfold ScatterDims.start
  rw [dif_pos (by decide)]
  congr 2
  funext b'
  refine Fin.ext ?_
  match b' with
  | ⟨0, _⟩ => rfl
  | ⟨1, _⟩ => rfl

/-- Start plus window coordinate of update index j, on every axis: j's batch, height and width, and channel
    16·g + (j's channel). -/
private theorem s_sum (lit : Fin 16 → BitVec 32) (g : ℕ) (hg : g < 4)
    (hl : ∀ k : Fin 16, lit k = BitVec.ofNat 32 (16 * g + k.val)) (j : S32x16x224x224.Idx) (a : Fin 4) :
    sd.start j (chanCol lit) a + ((sd.window j a : ℕ) : ℤ)
      = (((ix4 (j 0) (chan g hg (j 1)) (j 2) (j 3) : S32x64x224x224.Idx) a).val : ℤ) := by
  match a with
  | ⟨0, _⟩ =>
    show sd.start j (chanCol lit) 0 + ((sd.window j 0 : ℕ) : ℤ) = (((j 0).val : ℕ) : ℤ)
    rw [s_st0, s_win0, Int.zero_add]
  | ⟨1, _⟩ =>
    show sd.start j (chanCol lit) 1 + ((sd.window j 1 : ℕ) : ℤ) = ((16 * g + (j 1).val : ℕ) : ℤ)
    rw [s_st1, s_win1, chanCol_apply]
    show (lit (j 1)).toInt + ((0 : ℕ) : ℤ) = _
    have h1 : lit (j 1) = BitVec.ofNat 32 (16 * g + (j 1).val) := hl (j 1)
    have h2 : (j 1).val < 16 := (j 1).isLt
    rw [h1, toInt_chan g hg _ h2]
    simp
  | ⟨2, _⟩ =>
    show sd.start j (chanCol lit) 2 + ((sd.window j 2 : ℕ) : ℤ) = (((j 2).val : ℕ) : ℤ)
    rw [s_st2, s_win2, Int.zero_add]
  | ⟨3, _⟩ =>
    show sd.start j (chanCol lit) 3 + ((sd.window j 3 : ℕ) : ℤ) = (((j 3).val : ℕ) : ℤ)
    rw [s_st3, s_win3, Int.zero_add]

/-- Update index j lands, always inside the operand, at j's batch, height and width and at channel
    16·g + (j's channel). -/
private theorem s_resultIdx (lit : Fin 16 → BitVec 32) (g : ℕ) (hg : g < 4)
    (hl : ∀ k : Fin 16, lit k = BitVec.ofNat 32 (16 * g + k.val)) (j : S32x16x224x224.Idx) :
    sd.resultIdx? j (chanCol lit) = some (ix4 (j 0) (chan g hg (j 1)) (j 2) (j 3)) := by
  have hs := s_sum lit g hg hl j
  unfold ScatterDims.resultIdx?
  rw [dif_pos (fun a => by
    rw [hs a]
    exact ⟨Int.natCast_nonneg _, Int.ofNat_lt.mpr ((ix4 (j 0) (chan g hg (j 1)) (j 2) (j 3) : S32x64x224x224.Idx) a).isLt⟩)]
  congr 1
  funext a
  refine Fin.ext ?_
  show (sd.start j (chanCol lit) a + ((sd.window j a : ℕ) : ℤ)).toNat = _
  rw [hs a, Int.toNat_natCast]
  rfl

/-! ## The three readings -/

/-- The gathered channels at an index. -/
theorem take_apply (lit : Fin 16 → BitVec 32) (g : ℕ) (hg : g < 4)
    (hl : ∀ k : Fin 16, lit k = BitVec.ofNat 32 (16 * g + k.val))
    (x : FVec F S32x64x224x224 .f32) (b : Fin 32) (k : Fin 16) (h w : Fin 224) :
    take lit x (ix4 b k h w) = x (ix4 b (chan g hg k) h w) := by
  unfold take Host.gather
  rw [g_operandIdx lit g hg hl]
  rfl

/-- A channel of the group holds the update's entry after the scatter. -/
theorem put_hit (lit : Fin 16 → BitVec 32) (g : ℕ) (hg : g < 4)
    (hl : ∀ k : Fin 16, lit k = BitVec.ofNat 32 (16 * g + k.val))
    (base : FVec F S32x64x224x224 .f32) (u : FVec F S32x16x224x224 .f32) (b : Fin 32) (k : Fin 16) (h w : Fin 224) :
    put lit base u (ix4 b (chan g hg k) h w) = u (ix4 b k h w) := by
  unfold put
  refine ScatterSet.hit sd base (chanCol lit) u (ix4 b (chan g hg k) h w) (ix4 b k h w) ?_ ?_
  · exact s_resultIdx lit g hg hl (ix4 b k h w)
  · -- an update index landing at the same place has the same four coordinates
    intro j' hj'
    rw [s_resultIdx lit g hg hl j'] at hj'
    have e := Option.some.inj hj'
    have e0 : j' 0 = b := congrFun e 0
    have e1 : chan g hg (j' 1) = chan g hg k := congrFun e 1
    have e2 : j' 2 = h := congrFun e 2
    have e3 : j' 3 = w := congrFun e 3
    have e1' : 16 * g + (j' 1).val = 16 * g + k.val := congrArg Fin.val e1
    funext a
    match a with
    | ⟨0, _⟩ => exact e0
    | ⟨1, _⟩ => exact Fin.ext (show (j' 1).val = k.val by omega)
    | ⟨2, _⟩ => exact e2
    | ⟨3, _⟩ => exact e3

/-- A channel outside the group keeps what it held. -/
theorem put_miss (lit : Fin 16 → BitVec 32) (g : ℕ) (hg : g < 4)
    (hl : ∀ k : Fin 16, lit k = BitVec.ofNat 32 (16 * g + k.val))
    (base : FVec F S32x64x224x224 .f32) (u : FVec F S32x16x224x224 .f32) (b : Fin 32) (c : Fin 64)
    (hc : c.val / 16 ≠ g) (h w : Fin 224) :
    put lit base u (ix4 b c h w) = base (ix4 b c h w) := by
  unfold put
  refine ScatterSet.miss sd _ base (chanCol lit) u (ix4 b c h w) ?_
  -- every update index lands in a channel 16·g + k with k < 16, whose quotient by 16 is g
  intro j hj
  rw [s_resultIdx lit g hg hl j] at hj
  have e1 : chan g hg (j 1) = c := congrFun (Option.some.inj hj) 1
  have e1' : 16 * g + (j 1).val = c.val := congrArg Fin.val e1
  have h2 : (j 1).val < 16 := (j 1).isLt
  omega

end Cert.ReferenceIdeal.Hand

end
-- ==== Proof.RefMask.lean ====
/-
  The reference's gates at an index: for each group, entry (b, k, h, w) of its sixteen channels of gates is the gate
  of the mean (taken at once) of the window holding (h, w) in the plane of batch entry b and the group's channel k.

  For a side bs the reference splits rows and columns into (window number, place in the window), sums every window
  from zero, divides by bs², gates the quotient, and repeats each gate over its window's rows and columns. Read at
  (b, k, h, w), the repeated array is the pooled gate at (b, k, h / bs, w / bs); the window's sum, taken over the
  source indices whose kept coordinates are (b, k, h / bs, w / bs), is the sum over the pairs (i, j) of places in the
  window; and place (i, j) of window (h / bs, w / bs) is row (h / bs) · bs + i, column (w / bs) · bs + j of the plane.
-/
import proofs.«112623_j79972291051870_1_alg».proof.Proof.RefIdx
import proofs.«112623_j79972291051870_1_alg».proof.Proof.Spec
import Idealize.ShloMosaic.PureOps.Ideal.Laws
import Idealize.ShloMosaic.Lib.Pipeline.Value
import Idealize.ShloMosaic.Lib.ValueLayout

noncomputable section

namespace Cert.ReferenceIdeal.Hand

open Cert.ReferenceIdeal Cert.ReferenceIdeal.Facts₀ Idealize.ShloMosaic Idealize.ShloMosaic.ValueIdx BlockGate

section Layout
variable {α : Type}

/-- Rows h = p · R + r and columns w = q · S + s: the array with both axes split reads, at (a, b, p, r, q, s), the
    operand at (a, b, h, w). -/
private theorem split6_apply {A B P R Q S H W : ℕ} (X : (⟨4, ![A, B, H, W]⟩ : Shape).Idx → α)
    (hc : (⟨4, ![A, B, H, W]⟩ : Shape).ShapeCasts ⟨6, ![A, B, P, R, Q, S]⟩) (hH : H = P * R) (hW : W = Q * S)
    (a : Fin A) (b : Fin B) (p : Fin P) (r : Fin R) (q : Fin Q) (s : Fin S) (h : Fin H) (w : Fin W)
    (hh : h.val = p.val * R + r.val) (hw : w.val = q.val * S + s.val) :
    shapeCast ⟨6, ![A, B, P, R, Q, S]⟩ X hc (ix6 a b p r q s) = X (ix4 a b h w) :=
  shapeCast_apply X hc _ _ (by
    rw [Shape.rowMajor_val_four, Shape.rowMajor_val_six]
    show ((a.val * B + b.val) * H + h.val) * W + w.val
      = ((((a.val * B + b.val) * P + p.val) * R + r.val) * Q + q.val) * S + s.val
    rw [hh, hw, hH, hW]; ring)

/-- Axes 2 and 3 merged, h = p · R + r: the merged array reads, at (a, b, h, q), the operand at (a, b, p, r, q). -/
private theorem merge5_mid_apply {A B P R Q H : ℕ} (X : (⟨5, ![A, B, P, R, Q]⟩ : Shape).Idx → α)
    (hc : (⟨5, ![A, B, P, R, Q]⟩ : Shape).ShapeCasts ⟨4, ![A, B, H, Q]⟩) (hH : H = P * R)
    (a : Fin A) (b : Fin B) (h : Fin H) (q : Fin Q) (p : Fin P) (r : Fin R) (hh : h.val = p.val * R + r.val) :
    shapeCast ⟨4, ![A, B, H, Q]⟩ X hc (ix4 a b h q) = X (ix5 a b p r q) :=
  shapeCast_apply X hc _ _ (by
    rw [Shape.rowMajor_val_five, Shape.rowMajor_val_four]
    show (((a.val * B + b.val) * P + p.val) * R + r.val) * Q + q.val = ((a.val * B + b.val) * H + h.val) * Q + q.val
    rw [hh, hH]; ring)

/-- The last two axes merged, w = q · S + s: the merged array reads, at (a, b, c, w), the operand at (a, b, c, q, s). -/
private theorem merge5_last_apply {A B C Q S W : ℕ} (X : (⟨5, ![A, B, C, Q, S]⟩ : Shape).Idx → α)
    (hc : (⟨5, ![A, B, C, Q, S]⟩ : Shape).ShapeCasts ⟨4, ![A, B, C, W]⟩) (hW : W = Q * S)
    (a : Fin A) (b : Fin B) (c : Fin C) (w : Fin W) (q : Fin Q) (s : Fin S) (hw : w.val = q.val * S + s.val) :
    shapeCast ⟨4, ![A, B, C, W]⟩ X hc (ix4 a b c w) = X (ix5 a b c q s) :=
  shapeCast_apply X hc _ _ (by
    rw [Shape.rowMajor_val_five, Shape.rowMajor_val_four]
    show (((a.val * B + b.val) * C + c.val) * Q + q.val) * S + s.val = ((a.val * B + b.val) * C + c.val) * W + w.val
    rw [hw, hW]; ring)

/-- An array repeated along a new axis 3 reads, at (a, b, p, r, q), the operand at (a, b, p, q). -/
private theorem spread5_axis3_apply {A B P R Q : ℕ} (X : (⟨4, ![A, B, P, Q]⟩ : Shape).Idx → α)
    (hb : (⟨4, ![A, B, P, Q]⟩ : Shape).BroadcastsInDim ⟨5, ![A, B, P, R, Q]⟩ (![0, 1, 2, 4] : Fin 4 → Fin 5))
    (a : Fin A) (b : Fin B) (p : Fin P) (r : Fin R) (q : Fin Q) :
    broadcastInDim ⟨5, ![A, B, P, R, Q]⟩ ![0, 1, 2, 4] hb X (ix5 a b p r q) = X (ix4 a b p q) := by
  refine broadcastInDim_apply _ hb X _ _ fun ax => ?_
  match ax with
  | ⟨0, _⟩ => show a.val = if A = 1 then 0 else a.val; split <;> omega
  | ⟨1, _⟩ => show b.val = if B = 1 then 0 else b.val; split <;> omega
  | ⟨2, _⟩ => show p.val = if P = 1 then 0 else p.val; split <;> omega
  | ⟨3, _⟩ => show q.val = if Q = 1 then 0 else q.val; split <;> omega

/-- An array repeated along a new last axis reads, at (a, b, h, q, s), the operand at (a, b, h, q). -/
private theorem spread5_axis4_apply {A B H Q S : ℕ} (X : (⟨4, ![A, B, H, Q]⟩ : Shape).Idx → α)
    (hb : (⟨4, ![A, B, H, Q]⟩ : Shape).BroadcastsInDim ⟨5, ![A, B, H, Q, S]⟩ (![0, 1, 2, 3] : Fin 4 → Fin 5))
    (a : Fin A) (b : Fin B) (h : Fin H) (q : Fin Q) (s : Fin S) :
    broadcastInDim ⟨5, ![A, B, H, Q, S]⟩ ![0, 1, 2, 3] hb X (ix5 a b h q s) = X (ix4 a b h q) := by
  refine broadcastInDim_apply _ hb X _ _ fun ax => ?_
  match ax with
  | ⟨0, _⟩ => show a.val = if A = 1 then 0 else a.val; split <;> omega
  | ⟨1, _⟩ => show b.val = if B = 1 then 0 else b.val; split <;> omega
  | ⟨2, _⟩ => show h.val = if H = 1 then 0 else h.val; split <;> omega
  | ⟨3, _⟩ => show q.val = if Q = 1 then 0 else q.val; split <;> omega

end Layout

section Window

/-- Dropping axes 3 and 5 of a rank-6 index keeps its coordinates 0, 1, 2 and 4. -/
private theorem drop_window_val {A B P R Q S : ℕ} (h' : (⟨6, ![A, B, P, R, Q, S]⟩ : Shape).ReducesTo [3, 5] ⟨4, ![A, B, P, Q]⟩)
    (i : (⟨6, ![A, B, P, R, Q, S]⟩ : Shape).Idx) :
    ((h'.drop i ⟨0, Nat.zero_lt_succ _⟩ : Fin A) : ℕ) = (i 0 : Fin A)
      ∧ ((h'.drop i ⟨1, Nat.succ_lt_succ (Nat.zero_lt_succ _)⟩ : Fin B) : ℕ) = (i 1 : Fin B)
      ∧ ((h'.drop i ⟨2, Nat.succ_lt_succ (Nat.succ_lt_succ (Nat.zero_lt_succ _))⟩ : Fin P) : ℕ) = (i 2 : Fin P)
      ∧ ((h'.drop i ⟨3, Nat.succ_lt_succ (Nat.succ_lt_succ (Nat.succ_lt_succ (Nat.zero_lt_succ _)))⟩ : Fin Q) : ℕ) = (i 4 : Fin Q) :=
  ⟨rfl, rfl, rfl, rfl⟩

/-- So an index drops to (a, b, p, q) exactly when those four coordinates are a, b, p, q. -/
private theorem drop_window_iff {A B P R Q S : ℕ} (h' : (⟨6, ![A, B, P, R, Q, S]⟩ : Shape).ReducesTo [3, 5] ⟨4, ![A, B, P, Q]⟩)
    (i : (⟨6, ![A, B, P, R, Q, S]⟩ : Shape).Idx) (a : Fin A) (b : Fin B) (p : Fin P) (q : Fin Q) :
    h'.drop i = ix4 a b p q ↔ ((i 0 : Fin A) = a ∧ (i 1 : Fin B) = b ∧ (i 2 : Fin P) = p ∧ (i 4 : Fin Q) = q) := by
  obtain ⟨e0, e1, e2, e3⟩ := drop_window_val h' i
  constructor
  · intro e
    rw [e] at e0 e1 e2 e3
    exact ⟨Fin.ext e0.symm, Fin.ext e1.symm, Fin.ext e2.symm, Fin.ext e3.symm⟩
  · rintro ⟨h0, h1, h2, h3⟩
    funext ax
    match ax with
    | ⟨0, _⟩ => exact Fin.ext (e0.trans (congrArg Fin.val h0))
    | ⟨1, _⟩ => exact Fin.ext (e1.trans (congrArg Fin.val h1))
    | ⟨2, _⟩ => exact Fin.ext (e2.trans (congrArg Fin.val h2))
    | ⟨3, _⟩ => exact Fin.ext (e3.trans (congrArg Fin.val h3))

/-- The sum over axes 3 and 5 of a rank-6 array, at (a, b, p, q): the initial value plus the sum over the
    pairs (r, s) of the array at (a, b, p, r, q, s). -/
private theorem hostReduceAdd_window {A B P R Q S : ℕ} (h' : (⟨6, ![A, B, P, R, Q, S]⟩ : Shape).ReducesTo [3, 5] ⟨4, ![A, B, P, Q]⟩)
    (X : (⟨6, ![A, B, P, R, Q, S]⟩ : Shape).Idx → EReal) (init : EReal) (a : Fin A) (b : Fin B) (p : Fin P) (q : Fin Q) :
    Ideal.hostReduceAdd h' X init (ix4 a b p q) = init + ∑ pr : Fin R × Fin S, X (ix6 a b p pr.1 q pr.2) := by
  have key : ∀ i : (⟨6, ![A, B, P, R, Q, S]⟩ : Shape).Idx, h'.drop i = ix4 a b p q →
      ix6 a b p (i 3 : Fin R) q (i 5 : Fin S) = i := fun i hi => by
    obtain ⟨h0, h1, h2, h3⟩ := (drop_window_iff h' i a b p q).1 hi
    funext ax
    match ax with
    | ⟨0, _⟩ => exact h0.symm
    | ⟨1, _⟩ => exact h1.symm
    | ⟨2, _⟩ => exact h2.symm
    | ⟨3, _⟩ => rfl
    | ⟨4, _⟩ => exact h3.symm
    | ⟨5, _⟩ => rfl
  unfold Ideal.hostReduceAdd
  congr 1
  refine Finset.sum_bij' (fun i _ => ((i 3 : Fin R), (i 5 : Fin S))) (fun pr _ => ix6 a b p pr.1 q pr.2) ?_ ?_ ?_ ?_ ?_
  · intro i _; exact Finset.mem_univ _
  · intro pr _
    rw [Finset.mem_filter]
    exact ⟨Finset.mem_univ _, (drop_window_iff h' _ a b p q).2 ⟨rfl, rfl, rfl, rfl⟩⟩
  · intro i hi; exact key i (Finset.mem_filter.1 hi).2
  · intro pr _; rfl
  · intro i hi; exact congrArg X (key i (Finset.mem_filter.1 hi).2).symm

end Window

section Gates

/-- The gate of an array, entry by entry. -/
private theorem gateOf_apply {s : Shape} (hb : S_.BroadcastsInDim s (![] : Fin 0 → Fin s.rank)) (v : FVec Ideal s .f32) (j : s.Idx) :
    gateOf hb v j = gate (v j) := rfl

/-- A quotient by a constant spread over the whole shape, entry by entry. -/
private theorem divf_splat_apply {s : Shape} (hb : S_.BroadcastsInDim s (![] : Fin 0 → Fin s.rank)) (v : FVec Ideal s .f32)
    (c : BitVec 32) (j : s.Idx) :
    Host.divf v (broadcastInDim s ![] hb (constant (F := Ideal) S_ .f32 c)) j = Ideal.div (v j) (Ideal.ofBits .f32 c) := rfl

/-- The same sum started from the zero word: zero plus the window's sum. -/
private theorem reduceAdd_zero_window {A B P R Q S : ℕ} (h' : (⟨6, ![A, B, P, R, Q, S]⟩ : Shape).ReducesTo [3, 5] ⟨4, ![A, B, P, Q]⟩)
    (hS : 0 < S_.numel) (X : FVec Ideal ⟨6, ![A, B, P, R, Q, S]⟩ .f32) (a : Fin A) (b : Fin B) (p : Fin P) (q : Fin Q) :
    Host.reduceAdd X (constant (F := Ideal) S_ .f32 0x00000000#32) h' hS (ix4 a b p q)
      = 0 + ∑ pr : Fin R × Fin S, X (ix6 a b p pr.1 q pr.2) := by
  refine (hostReduceAdd_window h' X _ a b p q).trans ?_
  rw [constant_apply, Ideal.ofBits_zero_f32]

/-- Side 1: the gate of the group's own entry. -/
theorem gates1_apply (x : FVec Ideal S32x64x224x224 .f32) (b : Fin 32) (k : Fin 16) (h w : Fin 224) :
    gates1 (F := Ideal) x (ix4 b k h w) = gate (x (ix4 b (chan 0 (by decide) k) h w)) := by
  rw [gates1, gateOf_apply, take_apply lit0 0 (by decide) lit0_eq]

/-- Side 2: the gate of the 2 × 2 window's mean. -/
theorem gates2_apply (x : FVec Ideal S32x64x224x224 .f32) (b : Fin 32) (k : Fin 16) (h w : Fin 224) :
    gates2 (F := Ideal) x (ix4 b k h w)
      = gate (meanSq 2 d2 (Ideal.ofBits .f32 0x40800000#32) (plane x b (chan 1 (by decide) k)) h w) := by
  have hh := h.isLt
  have hw := w.isLt
  unfold gates2
  -- column w is column (w / 2, w % 2) of the array before the last two axes were merged,
  refine (merge5_last_apply _ _ (by norm_num) b k h w ⟨w.val / 2, by omega⟩ ⟨w.val % 2, by omega⟩
    (by show w.val = w.val / 2 * 2 + w.val % 2; omega)).trans ?_
  -- whose last axis repeats the array below it;
  refine (spread5_axis4_apply _ _ b k h _ _).trans ?_
  -- row h is row (h / 2, h % 2) of the array before axes 2 and 3 were merged,
  refine (merge5_mid_apply _ _ (by norm_num) b k h _ ⟨h.val / 2, by omega⟩ ⟨h.val % 2, by omega⟩
    (by show h.val = h.val / 2 * 2 + h.val % 2; omega)).trans ?_
  -- whose axis 3 repeats the pooled gates: the entry read is the pooled gate at (b, k, h / 2, w / 2).
  refine (spread5_axis3_apply _ _ b k _ _ _).trans ?_
  rw [gateOf_apply]
  refine congrArg gate ?_
  -- The pooled mean: zero plus the window's sum, over the divisor.
  rw [divf_splat_apply, reduceAdd_zero_window]
  unfold meanSq
  refine congrArg (fun t => Ideal.div (0 + t) _) (Finset.sum_congr rfl fun pr _ => ?_)
  -- Entry (h / 2, i, w / 2, j) of the split array is row (h / 2) · 2 + i, column (w / 2) · 2 + j of the group's channel k.
  refine (split6_apply _ _ (by norm_num) (by norm_num) b k _ pr.1 _ pr.2 (win 2 d2 h pr.1) (win 2 d2 w pr.2) rfl rfl).trans ?_
  exact take_apply lit1 1 (by decide) lit1_eq x b k _ _

/-- Side 4: the gate of the 4 × 4 window's mean. -/
theorem gates4_apply (x : FVec Ideal S32x64x224x224 .f32) (b : Fin 32) (k : Fin 16) (h w : Fin 224) :
    gates4 (F := Ideal) x (ix4 b k h w)
      = gate (meanSq 4 d4 (Ideal.ofBits .f32 0x41800000#32) (plane x b (chan 2 (by decide) k)) h w) := by
  have hh := h.isLt
  have hw := w.isLt
  unfold gates4
  -- column w is column (w / 4, w % 4) of the array before the last two axes were merged,
  refine (merge5_last_apply _ _ (by norm_num) b k h w ⟨w.val / 4, by omega⟩ ⟨w.val % 4, by omega⟩
    (by show w.val = w.val / 4 * 4 + w.val % 4; omega)).trans ?_
  -- whose last axis repeats the array below it;
  refine (spread5_axis4_apply _ _ b k h _ _).trans ?_
  -- row h is row (h / 4, h % 4) of the array before axes 2 and 3 were merged,
  refine (merge5_mid_apply _ _ (by norm_num) b k h _ ⟨h.val / 4, by omega⟩ ⟨h.val % 4, by omega⟩
    (by show h.val = h.val / 4 * 4 + h.val % 4; omega)).trans ?_
  -- whose axis 3 repeats the pooled gates: the entry read is the pooled gate at (b, k, h / 4, w / 4).
  refine (spread5_axis3_apply _ _ b k _ _ _).trans ?_
  rw [gateOf_apply]
  refine congrArg gate ?_
  -- The pooled mean: zero plus the window's sum, over the divisor.
  rw [divf_splat_apply, reduceAdd_zero_window]
  unfold meanSq
  refine congrArg (fun t => Ideal.div (0 + t) _) (Finset.sum_congr rfl fun pr _ => ?_)
  -- Entry (h / 4, i, w / 4, j) of the split array is row (h / 4) · 4 + i, column (w / 4) · 4 + j of the group's channel k.
  refine (split6_apply _ _ (by norm_num) (by norm_num) b k _ pr.1 _ pr.2 (win 4 d4 h pr.1) (win 4 d4 w pr.2) rfl rfl).trans ?_
  exact take_apply lit2 2 (by decide) lit2_eq x b k _ _

/-- Side 7: the gate of the 7 × 7 window's mean. -/
theorem gates7_apply (x : FVec Ideal S32x64x224x224 .f32) (b : Fin 32) (k : Fin 16) (h w : Fin 224) :
    gates7 (F := Ideal) x (ix4 b k h w)
      = gate (meanSq 7 d7 (Ideal.ofBits .f32 0x42440000#32) (plane x b (chan 3 (by decide) k)) h w) := by
  have hh := h.isLt
  have hw := w.isLt
  unfold gates7
  -- column w is column (w / 7, w % 7) of the array before the last two axes were merged,
  refine (merge5_last_apply _ _ (by norm_num) b k h w ⟨w.val / 7, by omega⟩ ⟨w.val % 7, by omega⟩
    (by show w.val = w.val / 7 * 7 + w.val % 7; omega)).trans ?_
  -- whose last axis repeats the array below it;
  refine (spread5_axis4_apply _ _ b k h _ _).trans ?_
  -- row h is row (h / 7, h % 7) of the array before axes 2 and 3 were merged,
  refine (merge5_mid_apply _ _ (by norm_num) b k h _ ⟨h.val / 7, by omega⟩ ⟨h.val % 7, by omega⟩
    (by show h.val = h.val / 7 * 7 + h.val % 7; omega)).trans ?_
  -- whose axis 3 repeats the pooled gates: the entry read is the pooled gate at (b, k, h / 7, w / 7).
  refine (spread5_axis3_apply _ _ b k _ _ _).trans ?_
  rw [gateOf_apply]
  refine congrArg gate ?_
  -- The pooled mean: zero plus the window's sum, over the divisor.
  rw [divf_splat_apply, reduceAdd_zero_window]
  unfold meanSq
  refine congrArg (fun t => Ideal.div (0 + t) _) (Finset.sum_congr rfl fun pr _ => ?_)
  -- Entry (h / 7, i, w / 7, j) of the split array is row (h / 7) · 7 + i, column (w / 7) · 7 + j of the group's channel k.
  refine (split6_apply _ _ (by norm_num) (by norm_num) b k _ pr.1 _ pr.2 (win 7 d7 h pr.1) (win 7 d7 w pr.2) rfl rfl).trans ?_
  exact take_apply lit3 3 (by decide) lit3_eq x b k _ _

end Gates

end Cert.ReferenceIdeal.Hand

end
-- ==== Proof.RefValue.lean ====
/-
  The reference's result is the specification with the means taken at once: at (b, c, h, w) the array of gates holds
  the gate of channel c's own group — the scatters of the later groups leave that channel alone, and the group's own
  scatter wrote it over whatever the earlier ones left — and the result is that gate times the activation's entry.
-/
import proofs.«112623_j79972291051870_1_alg».proof.Proof.RefMask

noncomputable section

namespace Cert.ReferenceIdeal.Hand

open Cert.ReferenceIdeal Idealize.ShloMosaic Idealize.ShloMosaic.ValueIdx BlockGate

-- The scatters and the stages are used through their lemmas only: a scatter is a fold over every update index, which
-- nothing here should ever evaluate.
attribute [local irreducible] put take gates1 gates2 gates4 gates7

theorem chan_val (g : ℕ) (hg : g < 4) (k : Fin 16) : (chan g hg k).val = 16 * g + k.val := rfl

/-- Every channel is channel `c % 16` of group `c / 16`. -/
theorem exists_chan (c : Fin 64) (g : ℕ) (hg : g < 4) (hc : c.val / 16 = g) : ∃ k : Fin 16, c = chan g hg k :=
  ⟨⟨c.val % 16, Nat.mod_lt _ (by decide)⟩, Fin.ext (by rw [chan_val]; show c.val = 16 * g + c.val % 16; omega)⟩

/-- The array of gates at a channel of the first group: the three later scatters miss it. -/
theorem gatesAll_g0 (x : FVec Ideal S32x64x224x224 .f32) (b : Fin 32) (k : Fin 16) (h w : Fin 224) :
    gatesAll (F := Ideal) x (ix4 b (chan 0 (by decide) k) h w) = gates1 (F := Ideal) x (ix4 b k h w) := by
  unfold gatesAll
  rw [put_miss lit3 3 (by decide) lit3_eq _ _ b _ (by rw [chan_val]; omega) h w,
    put_miss lit2 2 (by decide) lit2_eq _ _ b _ (by rw [chan_val]; omega) h w,
    put_miss lit1 1 (by decide) lit1_eq _ _ b _ (by rw [chan_val]; omega) h w,
    put_hit lit0 0 (by decide) lit0_eq]

/-- At a channel of the second group: two later scatters miss it. -/
theorem gatesAll_g1 (x : FVec Ideal S32x64x224x224 .f32) (b : Fin 32) (k : Fin 16) (h w : Fin 224) :
    gatesAll (F := Ideal) x (ix4 b (chan 1 (by decide) k) h w) = gates2 (F := Ideal) x (ix4 b k h w) := by
  unfold gatesAll
  rw [put_miss lit3 3 (by decide) lit3_eq _ _ b _ (by rw [chan_val]; omega) h w,
    put_miss lit2 2 (by decide) lit2_eq _ _ b _ (by rw [chan_val]; omega) h w,
    put_hit lit1 1 (by decide) lit1_eq]

/-- At a channel of the third group: the last scatter misses it. -/
theorem gatesAll_g2 (x : FVec Ideal S32x64x224x224 .f32) (b : Fin 32) (k : Fin 16) (h w : Fin 224) :
    gatesAll (F := Ideal) x (ix4 b (chan 2 (by decide) k) h w) = gates4 (F := Ideal) x (ix4 b k h w) := by
  unfold gatesAll
  rw [put_miss lit3 3 (by decide) lit3_eq _ _ b _ (by rw [chan_val]; omega) h w,
    put_hit lit2 2 (by decide) lit2_eq]

/-- At a channel of the fourth group: the last scatter wrote it. -/
theorem gatesAll_g3 (x : FVec Ideal S32x64x224x224 .f32) (b : Fin 32) (k : Fin 16) (h w : Fin 224) :
    gatesAll (F := Ideal) x (ix4 b (chan 3 (by decide) k) h w) = gates7 (F := Ideal) x (ix4 b k h w) := by
  unfold gatesAll
  rw [put_hit lit3 3 (by decide) lit3_eq]

theorem refOut_apply (x : FVec Ideal S32x64x224x224 .f32) (b : Fin 32) (c : Fin 64) (h w : Fin 224) :
    refOut (F := Ideal) x (ix4 b c h w) = gatesAll (F := Ideal) x (ix4 b c h w) * x (ix4 b c h w) := by
  unfold refOut
  exact mulf_apply _ _ _

theorem refOut_eq (x : FVec Ideal S32x64x224x224 .f32) : refOut (F := Ideal) x = viaSq x := by
  funext i
  obtain ⟨b, c, h, w, rfl⟩ : ∃ (b : Fin 32) (c : Fin 64) (h w : Fin 224), i = ix4 b c h w :=
    ⟨i 0, i 1, i 2, i 3, eq_ix4 i⟩
  rw [viaSq_apply, refOut_apply]
  unfold elemSq
  have hc4 : c.val / 16 < 4 := by have := c.isLt; omega
  by_cases h0 : c.val < 16
  · obtain ⟨k, rfl⟩ := exists_chan c 0 (by decide) (by omega)
    rw [if_pos h0, gatesAll_g0, gates1_apply]
  · by_cases h1 : c.val < 32
    · obtain ⟨k, rfl⟩ := exists_chan c 1 (by decide) (by omega)
      rw [if_neg h0, if_pos h1, gatesAll_g1, gates2_apply]
    · by_cases h2 : c.val < 48
      · obtain ⟨k, rfl⟩ := exists_chan c 2 (by decide) (by omega)
        rw [if_neg h0, if_neg h1, if_pos h2, gatesAll_g2, gates4_apply]
      · obtain ⟨k, rfl⟩ := exists_chan c 3 (by decide) (by omega)
        rw [if_neg h0, if_neg h1, if_neg h2, gatesAll_g3, gates7_apply]

end Cert.ReferenceIdeal.Hand

end
-- ==== Proof.Algebra.lean ====
/-
  The two ways of taking a window's mean agree on real entries: summing each column, dividing by bs, summing the
  quotients and dividing by bs again is the sum of all bs² entries divided by bs². Hence the two specifications are
  one function of an array whose entries are all real numbers.
-/
import proofs.«112623_j79972291051870_1_alg».proof.Proof.Spec

noncomputable section

namespace BlockGate

open Idealize.ShloMosaic Idealize.ShloMosaic.ValueIdx

/-- A finite sum of reals, read as an extended real, is the sum of the summands read so. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The word `0x40000000` denotes 2. -/
theorem ofBits_two : Ideal.ofBits .f32 0x40000000#32 = ((2 : ℝ) : EReal) := by
  simp [Ideal.ofBits, Ideal.ieee, -EReal.coe_mul]; norm_num

/-- The word `0x40800000` denotes 4. -/
theorem ofBits_four : Ideal.ofBits .f32 0x40800000#32 = ((4 : ℝ) : EReal) := by
  simp [Ideal.ofBits, Ideal.ieee, -EReal.coe_mul]; norm_num

/-- The word `0x40E00000` denotes 7. -/
theorem ofBits_seven : Ideal.ofBits .f32 0x40E00000#32 = ((7 : ℝ) : EReal) := by
  simp [Ideal.ofBits, Ideal.ieee, -EReal.coe_mul]; norm_num

/-- The word `0x41800000` denotes 16. -/
theorem ofBits_sixteen : Ideal.ofBits .f32 0x41800000#32 = ((16 : ℝ) : EReal) := by
  simp [Ideal.ofBits, Ideal.ieee, -EReal.coe_mul]; norm_num

/-- The word `0x42440000` denotes 49. -/
theorem ofBits_fortynine : Ideal.ofBits .f32 0x42440000#32 = ((49 : ℝ) : EReal) := by
  simp [Ideal.ofBits, Ideal.ieee, -EReal.coe_mul]; norm_num

/-- On a plane of real entries, dividing each column sum by a nonzero real `d`, summing the quotients and dividing
    by `d` again gives the sum of all the window's entries divided by `d · d`: both are that sum times `1 / d²`. -/
theorem mean_eq (bs : ℕ) (hb : bs ∣ 224) (d e : ℝ) (hd : d ≠ 0) (he : e = d * d)
    (f : Fin 224 → Fin 224 → EReal) (hf : ∀ a b, ∃ r : ℝ, f a b = (r : EReal)) (h w : Fin 224) :
    meanRC bs hb (d : EReal) f h w = meanSq bs hb (e : EReal) f h w := by
  choose g hg using hf
  have he0 : e ≠ 0 := by rw [he]; exact mul_ne_zero hd hd
  unfold meanRC meanSq
  simp only [hg, Ideal.div_coe hd, Ideal.div_coe he0, zero_add]
  simp only [← coe_sum, ← EReal.coe_mul]
  congr 1
  rw [Fintype.sum_prod_type, Finset.sum_comm, he]
  simp only [← Finset.sum_mul]
  field_simp

/-- Element by element: the divisors are 2, 4, 7 on one side and their squares 4, 16, 49 on the other, so in each
    channel group the two means coincide; the first group takes no mean at all. -/
theorem elemRC_eq_elemSq (x : SA.Idx → EReal) (hfin : ∀ i, ∃ r : ℝ, x i = (r : EReal))
    (b : Fin 32) (c : Fin 64) (h w : Fin 224) : elemRC x b c h w = elemSq x b c h w := by
  have hpl : ∀ a a' : Fin 224, ∃ r : ℝ, plane x b c a a' = (r : EReal) := fun a a' => hfin _
  unfold elemRC elemSq
  rw [ofBits_two, ofBits_four, ofBits_seven, ofBits_sixteen, ofBits_fortynine,
    mean_eq 2 d2 2 4 (by norm_num) (by norm_num) (plane x b c) hpl h w,
    mean_eq 4 d4 4 16 (by norm_num) (by norm_num) (plane x b c) hpl h w,
    mean_eq 7 d7 7 49 (by norm_num) (by norm_num) (plane x b c) hpl h w]

theorem viaRC_eq_viaSq (x : SA.Idx → EReal) (hfin : ∀ i, ∃ r : ℝ, x i = (r : EReal)) : viaRC x = viaSq x :=
  funext fun i => elemRC_eq_elemSq x hfin (i 0) (i 1) (i 2) (i 3)

end BlockGate

end
-- ==== Proof.Finite.lean ====
/-
  The precondition read entry by entry: when the printed predicate (every |entry| below +∞, all conjoined) is true,
  every entry of the activation is a real number.
-/
import proofs.«112623_j79972291051870_1_alg».proof.Pre_finite_inputs
import proofs.«112623_j79972291051870_1_alg».proof.Proof.Gen.Pre_finite_inputs
import Idealize.ShloMosaic.PureOps.Ideal
import Idealize.ShloMosaic.Lib.ReduceAll

noncomputable section

namespace Cert.Pre_finite_inputs.Hand

open Cert.Pre_finite_inputs Idealize.ShloMosaic

instance : Subsingleton S_.Idx := ⟨fun a b => funext fun d => d.elim0⟩

theorem finite_of_pre (x : FVec Ideal S32x64x224x224 .f32)
    (h : Cert.Pre_finite_inputs.fn (F := Ideal) x = fun _ => 1#1) : ∀ i, ∃ r : ℝ, x i = (r : EReal) := by
  intro i
  -- the conjunction of all comparisons is true, hence so is the comparison at entry i
  have h0 := congrFun h (fun d => d.elim0)
  dsimp only [Cert.Pre_finite_inputs.fn] at h0
  have hi := Host.reduce_andi_all _ _ _ _ _ h0 i
  -- that comparison says |x i| lies strictly below the word for +∞, which denotes ⊤
  have htop : Ideal.ofBits .f32 0x7F800000#32 = (⊤ : EReal) := by
    show Ideal.ieee 8 23 (0x7F800000#32 : BitVec 32) = ⊤
    delta Ideal.ieee
    simp
  have hc : Ideal.cmp .olt (max (x i : EReal) (-(x i : EReal))) (Ideal.ofBits .f32 0x7F800000#32) = 1#1 := hi
  rw [htop] at hc
  have hb : BitVec.ofBool (decide (max (x i : EReal) (-(x i : EReal)) < ⊤)) = 1#1 := hc
  have hlt : max (x i : EReal) (-(x i : EReal)) < ⊤ := by
    by_contra hn
    rw [decide_eq_false hn] at hb
    exact absurd hb (by decide)
  -- neither infinity has absolute value below ⊤, so the entry is a real
  generalize (x i : EReal) = v at hlt
  induction v using EReal.rec with
  | bot => simp at hlt
  | top => simp at hlt
  | coe r => exact ⟨r, rfl⟩

end Cert.Pre_finite_inputs.Hand

end
-- ==== Proof.lean ====
/-
  The certificate's claims assembled.

  Both programs compute, at each element (b, c, h, w) of an activation of shape (32, 64, 224, 224), the gate
  (sign(mean) + 1) · ½ of the pooling window that holds (h, w) — of side 1, 2, 4 or 7 by the channel's group — times
  the element. The kernel takes the mean rows first (two divisions by the side), the reference at once (one division
  by the side squared); on finite inputs the two agree. The kernel's result array is read off its pipeline's run
  block by block, the reference's off its list of host operations; the frames come from the same runs; the
  idealization's four rewrites are the sign-bit rule at the four pooled shapes.
-/
import proofs.«112623_j79972291051870_1_alg».proof.Defs
import proofs.«112623_j79972291051870_1_alg».proof.Proof.KFrame
import proofs.«112623_j79972291051870_1_alg».proof.Proof.KernelValue
import proofs.«112623_j79972291051870_1_alg».proof.Proof.RefRun
import proofs.«112623_j79972291051870_1_alg».proof.Proof.RefValue
import proofs.«112623_j79972291051870_1_alg».proof.Proof.Algebra
import proofs.«112623_j79972291051870_1_alg».proof.Proof.Finite
import proofs.«112623_j79972291051870_1_alg».proof.Proof.Gen.Kernel
import proofs.«112623_j79972291051870_1_alg».proof.Proof.Gen.KernelIdeal
import proofs.«112623_j79972291051870_1_alg».proof.Proof.Gen.ReferenceIdeal
import proofs.«112623_j79972291051870_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

/-- The ledger's four entries: the sign-bit rule at each pooled shape. -/
theorem preserves : Cert.preserves_Kernel_KernelIdeal :=
  ⟨IdealRules.sign_bit.statement Cert.KernelIdeal.S16x224x224 .f32,
   IdealRules.sign_bit.statement Cert.KernelIdeal.S16x112x112 .f32,
   IdealRules.sign_bit.statement Cert.KernelIdeal.S16x56x56 .f32,
   IdealRules.sign_bit.statement Cert.KernelIdeal.S16x32x32 .f32⟩

/-- The kernel's array is the rows-first specification of its activation, the reference's the at-once specification
    of the same activation; the precondition makes every entry real, where the two specifications coincide. -/
theorem algebraic : Cert.algebraic_KernelIdeal_ReferenceIdeal := by
  intro m ρ m' ρ' hpre hagree
  refine ⟨fun c => BlockGate.viaRC (m ((c.tc : Thread Cert.KernelIdeal.nD Cert.KernelIdeal.τ).loc Cert.KernelIdeal.main_arg0)),
    Cert.KernelIdeal.Hand.kernel_run m ρ, ?_⟩
  refine (θ_run Cert.ReferenceIdeal.defs _ _).mono (fun _ h c => ⟨(h c).1.trans ?_, (h c).2⟩)
    (Cert.ReferenceIdeal.Hand.run (F := Ideal) m' ρ')
  rw [hagree c, Cert.ReferenceIdeal.Hand.refOut_eq]
  exact (BlockGate.viaRC_eq_viaSq _ (Cert.Pre_finite_inputs.Hand.finite_of_pre _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
